-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S128x128 : Shape := ⟨2, ![128, 128]⟩
abbrev S128x256 : Shape := ⟨2, ![128, 256]⟩
abbrev S128 : Shape := ⟨1, ![128]⟩
abbrev S800000 : Shape := ⟨1, ![800000]⟩
abbrev S600000 : Shape := ⟨1, ![600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S800000 : S_.BroadcastsInDim S800000 (![] : Fin 0 → Fin S800000.rank)
  reducesTo_S800000_S_d0 : S800000.ReducesTo [0] S_
  bcast_S_S600000 : S_.BroadcastsInDim S600000 (![] : Fin 0 → Fin S600000.rank)
  reducesTo_S600000_S_d0 : S600000.ReducesTo [0] S_

variable [Facts]

def fn_part4 {F : FTy → Type} [FloatOps F] (main_arg15 : IVec S600000 32) (main_arg17 : IVec S600000 32) (main_v63 : IVec S_ 1) (main_v65 : IVec S800000 1) (main_v67 : IVec S800000 1) : IVec S_ 1 :=
  let main_v68 : IVec S800000 1 := andi main_v65 main_v67
  let main_c_26 : IVec S_ 1 := constantI S_ 1 1#1
  let main_v69 : IVec S_ 1 := (fun x v => Host.reduce IntOp.andi x v reducesTo_S800000_S_d0 h_S_) main_v68 main_c_26
  let main_v70 : IVec S_ 1 := andi main_v63 main_v69
  let main_c_27 : IVec S_ 32 := constantI S_ 32 0#32
  let main_v71 : IVec S600000 32 := broadcastInDim S600000 ![] bcast_S_S600000 main_c_27
  let main_v72 : IVec S600000 1 := cmpi .sge main_arg15 main_v71
  let main_c_28 : IVec S_ 32 := constantI S_ 32 100000#32
  let main_v73 : IVec S600000 32 := broadcastInDim S600000 ![] bcast_S_S600000 main_c_28
  let main_v74 : IVec S600000 1 := cmpi .slt main_arg15 main_v73
  let main_v75 : IVec S600000 1 := andi main_v72 main_v74
  let main_c_29 : IVec S_ 1 := constantI S_ 1 1#1
  let main_v76 : IVec S_ 1 := (fun x v => Host.reduce IntOp.andi x v reducesTo_S600000_S_d0 h_S_) main_v75 main_c_29
  let main_v77 : IVec S_ 1 := andi main_v70 main_v76
  let main_c_30 : IVec S_ 32 := constantI S_ 32 0#32
  let main_v78 : IVec S600000 32 := broadcastInDim S600000 ![] bcast_S_S600000 main_c_30
  let main_v79 : IVec S600000 1 := cmpi .sge main_arg17 main_v78
  let main_c_31 : IVec S_ 32 := constantI S_ 32 50000#32
  let main_v80 : IVec S600000 32 := broadcastInDim S600000 ![] bcast_S_S600000 main_c_31
  let main_v81 : IVec S600000 1 := cmpi .slt main_arg17 main_v80
  let main_v82 : IVec S600000 1 := andi main_v79 main_v81
  let main_c_32 : IVec S_ 1 := constantI S_ 1 1#1
  let main_v83 : IVec S_ 1 := (fun x v => Host.reduce IntOp.andi x v reducesTo_S600000_S_d0 h_S_) main_v82 main_c_32
  let main_v84 : IVec S_ 1 := andi main_v77 main_v83
  main_v84

def fn_part3 {F : FTy → Type} [FloatOps F] (main_arg11 : FVec F S128 .f32) (main_arg12 : FVec F S128 .f32) (main_arg13 : IVec S800000 32) (main_arg15 : IVec S600000 32) (main_arg17 : IVec S600000 32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_c_24 : IVec S_ 32 := constantI S_ 32 0#32
  let main_v64 : IVec S800000 32 := broadcastInDim S800000 ![] bcast_S_S800000 main_c_24
  let main_v65 : IVec S800000 1 := cmpi .sge main_arg13 main_v64
  let main_c_25 : IVec S_ 32 := constantI S_ 32 100000#32
  let main_v66 : IVec S800000 32 := broadcastInDim S800000 ![] bcast_S_S800000 main_c_25
  let main_v67 : IVec S800000 1 := cmpi .slt main_arg13 main_v66
  fn_part4 (F := F) main_arg15 main_arg17 main_v63 main_v65 main_v67

def fn_part2 {F : FTy → Type} [FloatOps F] (main_arg7 : FVec F S128x256 .f32) (main_arg8 : FVec F S128 .f32) (main_arg9 : FVec F S128 .f32) (main_arg10 : FVec F S128 .f32) (main_arg11 : FVec F S128 .f32) (main_arg12 : FVec F S128 .f32) (main_arg13 : IVec S800000 32) (main_arg15 : IVec S600000 32) (main_arg17 : IVec S600000 32) (main_v33 : IVec S_ 1) : IVec S_ 1 :=
  let main_v34 : FVec F S128x256 .f32 := Host.absf main_arg7
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg15 main_arg17 main_v48 main_v49 main_v50

def fn_part1 {F : FTy → Type} [FloatOps F] (main_arg4 : FVec F S128x128 .f32) (main_arg5 : FVec F S128x256 .f32) (main_arg6 : FVec F S128 .f32) (main_arg7 : FVec F S128x256 .f32) (main_arg8 : FVec F S128 .f32) (main_arg9 : FVec F S128 .f32) (main_arg10 : FVec F S128 .f32) (main_arg11 : FVec F S128 .f32) (main_arg12 : FVec F S128 .f32) (main_arg13 : IVec S800000 32) (main_arg15 : IVec S600000 32) (main_arg17 : IVec S600000 32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg15 main_arg17 main_v33

def fn {F : FTy → Type} [FloatOps F] (main_arg0 : FVec F S100000x128 .f32) (main_arg1 : FVec F S50000x128 .f32) (main_arg2 : FVec F S128x128 .f32) (main_arg3 : FVec F S128x128 .f32) (main_arg4 : FVec F S128x128 .f32) (main_arg5 : FVec F S128x256 .f32) (main_arg6 : FVec F S128 .f32) (main_arg7 : FVec F S128x256 .f32) (main_arg8 : FVec F S128 .f32) (main_arg9 : FVec F S128 .f32) (main_arg10 : FVec F S128 .f32) (main_arg11 : FVec F S128 .f32) (main_arg12 : FVec F S128 .f32) (main_arg13 : IVec S800000 32) (main_arg14 : IVec S800000 32) (main_arg15 : IVec S600000 32) (main_arg16 : IVec S600000 32) (main_arg17 : IVec S600000 32) (main_arg18 : IVec S600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_arg15 main_arg17 main_v13 main_v16
-- ==== Kernel.lean ====
abbrev S100000x128 : Shape := ⟨2, ![100000, 128]⟩
abbrev S50000x128 : Shape := ⟨2, ![50000, 128]⟩
abbrev S128x128 : Shape := ⟨2, ![128, 128]⟩
abbrev S128x256 : Shape := ⟨2, ![128, 256]⟩
abbrev S128 : Shape := ⟨1, ![128]⟩
abbrev S800000 : Shape := ⟨1, ![800000]⟩
abbrev S600000 : Shape := ⟨1, ![600000]⟩
abbrev S5000x128 : Shape := ⟨2, ![5000, 128]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S100000 : Shape := ⟨1, ![100000]⟩
abbrev S100000x1 : Shape := ⟨2, ![100000, 1]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩
abbrev S100000x2 : Shape := ⟨2, ![100000, 2]⟩
abbrev S5000x2 : Shape := ⟨2, ![5000, 2]⟩
abbrev S5000x1 : Shape := ⟨2, ![5000, 1]⟩
abbrev S5000 : Shape := ⟨1, ![5000]⟩
abbrev S150000x128 : Shape := ⟨2, ![150000, 128]⟩

abbrev nBuf : Space → Nat
  | .hbm => 148
  | .vmem => 41
  | .smem => 0
  | _ => 0

abbrev hbmTy0_0 (i : Nat) : BufTy := match i % 128 with
  | 0 => ⟨S100000x128, .f32⟩
  | 1 => ⟨S50000x128, .f32⟩
  | 2 => ⟨S128x128, .f32⟩
  | 3 => ⟨S128x128, .f32⟩
  | 4 => ⟨S128x128, .f32⟩
  | 5 => ⟨S128x256, .f32⟩
  | 6 => ⟨S128, .f32⟩
  | 7 => ⟨S128x256, .f32⟩
  | 8 => ⟨S128, .f32⟩
  | 9 => ⟨S128, .f32⟩
  | 10 => ⟨S128, .f32⟩
  | 11 => ⟨S128, .f32⟩
  | 12 => ⟨S128, .f32⟩
  | 13 => ⟨S800000, .i32⟩
  | 14 => ⟨S800000, .i32⟩
  | 15 => ⟨S600000, .i32⟩
  | 16 => ⟨S600000, .i32⟩
  | 17 => ⟨S600000, .i32⟩
  | 18 => ⟨S600000, .i32⟩
  | 19 => ⟨S128x128, .f32⟩
  | 20 => ⟨S128x128, .f32⟩
  | 21 => ⟨S100000x128, .f32⟩
  | 22 => ⟨S100000x128, .f32⟩
  | 23 => ⟨S128x128, .f32⟩
  | 24 => ⟨S50000x128, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S1, .i32⟩
  | 34 => ⟨S_, .i32⟩
  | 35 => ⟨S800000x1, .i32⟩
  | 36 => ⟨S800000x1, .i1⟩
  | 37 => ⟨S1x1, .i32⟩
  | 38 => ⟨S800000x1, .i32⟩
  | 39 => ⟨S800000x1, .i1⟩
  | 40 => ⟨S800000x1, .i1⟩
  | 41 => ⟨S_, .i1⟩
  | 42 => ⟨S800000, .i1⟩
  | 43 => ⟨S800000x128, .f32⟩
  | 44 => ⟨S800000x128, .i1⟩
  | 45 => ⟨S_, .f32⟩
  | 46 => ⟨S800000x128, .f32⟩
  | 47 => ⟨S800000x128, .f32⟩
  | 48 => ⟨S_, .f32⟩
  | 49 => ⟨S100000x128, .f32⟩
  | 50 => ⟨S800000x1, .i32⟩
  | 51 => ⟨S100000x128, .f32⟩
  | 52 => ⟨S_, .i32⟩
  | 53 => ⟨S800000, .i32⟩
  | 54 => ⟨S_, .i32⟩
  | 55 => ⟨S100000, .i32⟩
  | 56 => ⟨S800000x1, .i32⟩
  | 57 => ⟨S100000, .i32⟩
  | 58 => ⟨S100000, .f32⟩
  | 59 => ⟨S100000x1, .f32⟩
  | 60 => ⟨S_, .i32⟩
  | 61 => ⟨S600000, .i32⟩
  | 62 => ⟨S600000, .i1⟩
  | 63 => ⟨S_, .i32⟩
  | 64 => ⟨S600000, .i32⟩
  | 65 => ⟨S600000, .i32⟩
  | 66 => ⟨S600000, .i32⟩
  | 67 => ⟨S600000x1, .i32⟩
  | 68 => ⟨S1, .i32⟩
  | 69 => ⟨S_, .i32⟩
  | 70 => ⟨S600000x1, .i32⟩
  | 71 => ⟨S600000x1, .i1⟩
  | 72 => ⟨S1x1, .i32⟩
  | 73 => ⟨S600000x1, .i32⟩
  | 74 => ⟨S600000x1, .i1⟩
  | 75 => ⟨S600000x1, .i1⟩
  | 76 => ⟨S_, .i1⟩
  | 77 => ⟨S600000, .i1⟩
  | 78 => ⟨S600000x128, .f32⟩
  | 79 => ⟨S600000x128, .i1⟩
  | 80 => ⟨S_, .f32⟩
  | 81 => ⟨S600000x128, .f32⟩
  | 82 => ⟨S600000x128, .f32⟩
  | 83 => ⟨S_, .f32⟩
  | 84 => ⟨S100000x128, .f32⟩
  | 85 => ⟨S600000x1, .i32⟩
  | 86 => ⟨S100000x128, .f32⟩
  | 87 => ⟨S_, .i32⟩
  | 88 => ⟨S600000, .i32⟩
  | 89 => ⟨S_, .i32⟩
  | 90 => ⟨S100000, .i32⟩
  | 91 => ⟨S600000x1, .i32⟩
  | 92 => ⟨S100000, .i32⟩
  | 93 => ⟨S100000, .f32⟩
  | 94 => ⟨S100000x1, .f32⟩
  | 95 => ⟨S_, .i32⟩
  | 96 => ⟨S600000, .i32⟩
  | 97 => ⟨S600000, .i1⟩
  | 98 => ⟨S_, .i32⟩
  | 99 => ⟨S600000, .i32⟩
  | 100 => ⟨S600000, .i32⟩
  | 101 => ⟨S600000, .i32⟩
  | 102 => ⟨S600000x1, .i32⟩
  | 103 => ⟨S1, .i32⟩
  | 104 => ⟨S_, .i32⟩
  | 105 => ⟨S600000x1, .i32⟩
  | 106 => ⟨S600000x1, .i1⟩
  | 107 => ⟨S1x1, .i32⟩
  | 108 => ⟨S600000x1, .i32⟩
  | 109 => ⟨S600000x1, .i1⟩
  | 110 => ⟨S600000x1, .i1⟩
  | 111 => ⟨S_, .i1⟩
  | 112 => ⟨S600000, .i1⟩
  | 113 => ⟨S600000x128, .f32⟩
  | 114 => ⟨S600000x128, .i1⟩
  | 115 => ⟨S_, .f32⟩
  | 116 => ⟨S600000x128, .f32⟩
  | 117 => ⟨S600000x128, .f32⟩
  | 118 => ⟨S_, .f32⟩
  | 119 => ⟨S50000x128, .f32⟩
  | 120 => ⟨S600000x1, .i32⟩
  | 121 => ⟨S50000x128, .f32⟩
  | 122 => ⟨S_, .i32⟩
  | 123 => ⟨S600000, .i32⟩
  | 124 => ⟨S_, .i32⟩
  | 125 => ⟨S50000, .i32⟩
  | 126 => ⟨S600000x1, .i32⟩
  | 127 => ⟨S50000, .i32⟩
  | _ => ⟨S100000x128, .f32⟩

abbrev hbmTy0_1 (i : Nat) : BufTy := match i % 128 with
  | 0 => ⟨S50000, .f32⟩
  | 1 => ⟨S50000x1, .f32⟩
  | 2 => ⟨S128x128, .f32⟩
  | 3 => ⟨S128x128, .f32⟩
  | 4 => ⟨S128x128, .f32⟩
  | 5 => ⟨S128x128, .f32⟩
  | 6 => ⟨S1x128, .f32⟩
  | 7 => ⟨S1x128, .f32⟩
  | 8 => ⟨S1x128, .f32⟩
  | 9 => ⟨S100000x2, .f32⟩
  | 10 => ⟨S100000x128, .f32⟩
  | 11 => ⟨S128x128, .f32⟩
  | 12 => ⟨S128x128, .f32⟩
  | 13 => ⟨S128x128, .f32⟩
  | 14 => ⟨S128x128, .f32⟩
  | 15 => ⟨S1x128, .f32⟩
  | 16 => ⟨S1x128, .f32⟩
  | 17 => ⟨S1x128, .f32⟩
  | 18 => ⟨S50000x128, .f32⟩
  | 19 => ⟨S150000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x2, .f32⟩
  | .local _ .vmem, ⟨20, _⟩ => ⟨S5000x2, .f32⟩
  | .local _ .vmem, ⟨21, _⟩ => ⟨S128x128, .f32⟩
  | .local _ .vmem, ⟨22, _⟩ => ⟨S128x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x1, .f32⟩
  | .local _ .vmem, ⟨33, _⟩ => ⟨S5000x1, .f32⟩
  | .local _ .vmem, ⟨34, _⟩ => ⟨S128x128, .f32⟩
  | .local _ .vmem, ⟨35, _⟩ => ⟨S128x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S5000x128, .f32⟩
  | .local _ .vmem, ⟨40, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2_0 : Ref sig .tc := ⟨.hbm, 21, rfl⟩
abbrev main_v2_1 : Ref sig .tc := ⟨.hbm, 22, rfl⟩
abbrev main_v3 : Ref sig .tc := ⟨.hbm, 23, rfl⟩
abbrev main_v4 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v5 : Ref sig .tc := ⟨.hbm, 47, rfl⟩
abbrev main_cst : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_c : Ref sig .tc := ⟨.hbm, 52, rfl⟩
abbrev main_v9 : Ref sig .tc := ⟨.hbm, 53, rfl⟩
abbrev main_c_0 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_call1_c : Ref sig .tc := ⟨.hbm, 60, rfl⟩
abbrev main_call1_v0 : Ref sig .tc := ⟨.hbm, 61, rfl⟩
abbrev main_call1_v1 : Ref sig .tc := ⟨.hbm, 62, rfl⟩
abbrev main_call1_c_0 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_c_1 : Ref sig .tc := ⟨.hbm, 68, rfl⟩
abbrev main_call1_c_2 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_c_3 : Ref sig .tc := ⟨.hbm, 76, rfl⟩
abbrev main_call1_v12 : Ref sig .tc := ⟨.hbm, 77, rfl⟩
abbrev main_call1_v13 : Ref sig .tc := ⟨.hbm, 78, rfl⟩
abbrev main_call1_v14 : Ref sig .tc := ⟨.hbm, 79, rfl⟩
abbrev main_call1_cst : Ref sig .tc := ⟨.hbm, 80, rfl⟩
abbrev main_call1_v15 : Ref sig .tc := ⟨.hbm, 81, rfl⟩
abbrev main_v15 : Ref sig .tc := ⟨.hbm, 82, rfl⟩
abbrev main_cst_1 : Ref sig .tc := ⟨.hbm, 83, rfl⟩
abbrev main_v16 : Ref sig .tc := ⟨.hbm, 84, rfl⟩
abbrev main_v17 : Ref sig .tc := ⟨.hbm, 85, rfl⟩
abbrev main_v18 : Ref sig .tc := ⟨.hbm, 86, rfl⟩
abbrev main_c_2 : Ref sig .tc := ⟨.hbm, 87, rfl⟩
abbrev main_v19 : Ref sig .tc := ⟨.hbm, 88, rfl⟩
abbrev main_c_3 : Ref sig .tc := ⟨.hbm, 89, rfl⟩
abbrev main_v20 : Ref sig .tc := ⟨.hbm, 90, rfl⟩
abbrev main_v21 : Ref sig .tc := ⟨.hbm, 91, rfl⟩
abbrev main_v22 : Ref sig .tc := ⟨.hbm, 92, rfl⟩
abbrev main_v23 : Ref sig .tc := ⟨.hbm, 93, rfl⟩
abbrev main_v24 : Ref sig .tc := ⟨.hbm, 94, rfl⟩
abbrev main_call2_c : Ref sig .tc := ⟨.hbm, 95, rfl⟩
abbrev main_call2_v0 : Ref sig .tc := ⟨.hbm, 96, rfl⟩
abbrev main_call2_v1 : Ref sig .tc := ⟨.hbm, 97, rfl⟩
abbrev main_call2_c_0 : Ref sig .tc := ⟨.hbm, 98, rfl⟩
abbrev main_call2_v2 : Ref sig .tc := ⟨.hbm, 99, rfl⟩
abbrev main_call2_v3 : Ref sig .tc := ⟨.hbm, 100, rfl⟩
abbrev main_call2_v4 : Ref sig .tc := ⟨.hbm, 101, rfl⟩
abbrev main_call2_v5 : Ref sig .tc := ⟨.hbm, 102, rfl⟩
abbrev main_call2_c_1 : Ref sig .tc := ⟨.hbm, 103, rfl⟩
abbrev main_call2_c_2 : Ref sig .tc := ⟨.hbm, 104, rfl⟩
abbrev main_call2_v6 : Ref sig .tc := ⟨.hbm, 105, rfl⟩
abbrev main_call2_v7 : Ref sig .tc := ⟨.hbm, 106, rfl⟩
abbrev main_call2_v8 : Ref sig .tc := ⟨.hbm, 107, rfl⟩
abbrev main_call2_v9 : Ref sig .tc := ⟨.hbm, 108, rfl⟩
abbrev main_call2_v10 : Ref sig .tc := ⟨.hbm, 109, rfl⟩
abbrev main_call2_v11 : Ref sig .tc := ⟨.hbm, 110, rfl⟩
abbrev main_call2_c_3 : Ref sig .tc := ⟨.hbm, 111, rfl⟩
abbrev main_call2_v12 : Ref sig .tc := ⟨.hbm, 112, rfl⟩
abbrev main_call2_v13 : Ref sig .tc := ⟨.hbm, 113, rfl⟩
abbrev main_call2_v14 : Ref sig .tc := ⟨.hbm, 114, rfl⟩
abbrev main_call2_cst : Ref sig .tc := ⟨.hbm, 115, rfl⟩
abbrev main_call2_v15 : Ref sig .tc := ⟨.hbm, 116, rfl⟩
abbrev main_v25 : Ref sig .tc := ⟨.hbm, 117, rfl⟩
abbrev main_cst_4 : Ref sig .tc := ⟨.hbm, 118, rfl⟩
abbrev main_v26 : Ref sig .tc := ⟨.hbm, 119, rfl⟩
abbrev main_v27 : Ref sig .tc := ⟨.hbm, 120, rfl⟩
abbrev main_v28 : Ref sig .tc := ⟨.hbm, 121, rfl⟩
abbrev main_c_5 : Ref sig .tc := ⟨.hbm, 122, rfl⟩
abbrev main_v29 : Ref sig .tc := ⟨.hbm, 123, rfl⟩
abbrev main_c_6 : Ref sig .tc := ⟨.hbm, 124, rfl⟩
abbrev main_v30 : Ref sig .tc := ⟨.hbm, 125, rfl⟩
abbrev main_v31 : Ref sig .tc := ⟨.hbm, 126, rfl⟩
abbrev main_v32 : Ref sig .tc := ⟨.hbm, 127, rfl⟩
abbrev main_v33 : Ref sig .tc := ⟨.hbm, 128, rfl⟩
abbrev main_v34 : Ref sig .tc := ⟨.hbm, 129, rfl⟩
abbrev main_v35 : Ref sig .tc := ⟨.hbm, 130, rfl⟩
abbrev main_v36 : Ref sig .tc := ⟨.hbm, 131, rfl⟩
abbrev main_v37 : Ref sig .tc := ⟨.hbm, 132, rfl⟩
abbrev main_v38 : Ref sig .tc := ⟨.hbm, 133, rfl⟩
abbrev main_v39 : Ref sig .tc := ⟨.hbm, 134, rfl⟩
abbrev main_v40 : Ref sig .tc := ⟨.hbm, 135, rfl⟩
abbrev main_v41 : Ref sig .tc := ⟨.hbm, 136, rfl⟩
abbrev main_v42 : Ref sig .tc := ⟨.hbm, 137, rfl⟩
abbrev main_v43 : Ref sig .tc := ⟨.hbm, 138, rfl⟩
abbrev main_v44 : Ref sig .tc := ⟨.hbm, 139, rfl⟩
abbrev main_v45 : Ref sig .tc := ⟨.hbm, 140, rfl⟩
abbrev main_v46 : Ref sig .tc := ⟨.hbm, 141, rfl⟩
abbrev main_v47 : Ref sig .tc := ⟨.hbm, 142, rfl⟩
abbrev main_v48 : Ref sig .tc := ⟨.hbm, 143, rfl⟩
abbrev main_v49 : Ref sig .tc := ⟨.hbm, 144, rfl⟩
abbrev main_v50 : Ref sig .tc := ⟨.hbm, 145, rfl⟩
abbrev main_v51 : Ref sig .tc := ⟨.hbm, 146, rfl⟩
abbrev main_v52 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg8_0 : Ref sig .tc := ⟨.vmem, 25, rfl⟩
abbrev cc2_stg9_0 : Ref sig .tc := ⟨.vmem, 26, rfl⟩
abbrev cc2_stg9_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg8_0 : Ref sig .tc := ⟨.vmem, 39, rfl⟩
abbrev cc3_stg8_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem8_0 : DmaSem sig := 25
abbrev cc2_sem9_0 : DmaSem sig := 26
abbrev cc2_sem9_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem8_0 : DmaSem sig := 39
abbrev cc3_sem8_1 : DmaSem sig := 40

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x2 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S5000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1x1_S600000x1_0_1 : S1x1.BroadcastsInDim S600000x1 (![0, 1] : Fin 2 → Fin S600000x1.rank)
  reducesTo_S600000x1_S600000_d1 : S600000x1.ReducesTo [1] S600000
  bcast_S600000_S600000x128_0 : S600000.BroadcastsInDim S600000x128 (![0] : Fin 1 → Fin S600000x128.rank)
  bcast_S_S600000x128 : S_.BroadcastsInDim S600000x128 (![] : Fin 0 → Fin S600000x128.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  slices_S128x256_S128x128_0_0 : S128x256.Slices ![0, 0] S128x128
  slices_S128x256_S128x128_0_128 : S128x256.Slices ![0, 128] S128x128
  shapeCasts_S128_S1x128 : S128.ShapeCasts S1x128
  concatenates_S100000x1_S100000x1_S100000x2_d1 : Shape.Concatenates [S100000x1, S100000x1] S100000x2 1
  inb_S5000x2_S5000x2_0_0 : ∀ a, (![0, 0] : Fin 2 → Nat) a + S5000x2.size a ≤ S5000x2.size a
  h_S5000x2 : 0 < S5000x2.numel
  shapeCasts_S5000x2_S5000x2 : S5000x2.ShapeCasts S5000x2
  slices_S5000x2_o0_0_S5000x1 : S5000x2.Slices ![0, 0] S5000x1
  slices_S5000x2_o0_1_S5000x1 : S5000x2.Slices ![0, 1] S5000x1
  shapeCasts_S5000x128_S5000x128 : S5000x128.ShapeCasts S5000x128
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  concatenates_S100000x128_S50000x128_S150000x128_d0 : Shape.Concatenates [S100000x128, S50000x128] S150000x128 0
  dot_S5000x128_S128x128_S5000x128_1_0_0_1_n_n_wf : DotDims.WF S5000x128 S128x128 S5000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  gather_S50000x128_S600000x1_S600000x128_1_0_n_n_0_1_1128_wf : GatherDims.WF S50000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x2.size a ≤ S100000x2.size a
  hwx2_3 : ∀ i : grid2.Coords, EltTy.bits .f32 = 32 ∨ (Rect.block (s := S100000x2) S5000x2.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x128.size a ≤ S100000x128.size a
  hwx2_9 : ∀ i : grid2.Coords, EltTy.bits .f32 = 32 ∨ (Rect.block (s := S100000x128) S5000x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x128.size a ≤ S50000x128.size a
  hwx3_8 : ∀ i : grid3.Coords, EltTy.bits .f32 = 32 ∨ (Rect.block (s := S50000x128) S5000x128.size (cc3_transform_8 i) (hinb3_8 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v42) S5000x2.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v36) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v38) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v39) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v40) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v41) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v43) S5000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_arg1) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v34) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v45) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v47) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v48) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v49) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v50) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v51) S5000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S128x128 : Shape := ⟨2, ![128, 128]⟩
abbrev S128x256 : Shape := ⟨2, ![128, 256]⟩
abbrev S128 : Shape := ⟨1, ![128]⟩
abbrev S800000 : Shape := ⟨1, ![800000]⟩
abbrev S600000 : Shape := ⟨1, ![600000]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S100000x256 : Shape := ⟨2, ![100000, 256]⟩
abbrev S256x128 : Shape := ⟨2, ![256, 128]⟩
abbrev S1x128 : Shape := ⟨2, ![1, 128]⟩
abbrev S50000x256 : Shape := ⟨2, ![50000, 256]⟩
abbrev S150000x128 : Shape := ⟨2, ![150000, 128]⟩

abbrev nBuf : Space → Nat
  | .hbm => 192
  | .vmem => 0
  | .smem => 0
  | _ => 0

abbrev hbmTy0_0 (i : Nat) : BufTy := match i % 128 with
  | 0 => ⟨S100000x128, .f32⟩
  | 1 => ⟨S50000x128, .f32⟩
  | 2 => ⟨S128x128, .f32⟩
  | 3 => ⟨S128x128, .f32⟩
  | 4 => ⟨S128x128, .f32⟩
  | 5 => ⟨S128x256, .f32⟩
  | 6 => ⟨S128, .f32⟩
  | 7 => ⟨S128x256, .f32⟩
  | 8 => ⟨S128, .f32⟩
  | 9 => ⟨S128, .f32⟩
  | 10 => ⟨S128, .f32⟩
  | 11 => ⟨S128, .f32⟩
  | 12 => ⟨S128, .f32⟩
  | 13 => ⟨S800000, .i32⟩
  | 14 => ⟨S800000, .i32⟩
  | 15 => ⟨S600000, .i32⟩
  | 16 => ⟨S600000, .i32⟩
  | 17 => ⟨S600000, .i32⟩
  | 18 => ⟨S600000, .i32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x128, .f32⟩
  | 28 => ⟨S128x128, .f32⟩
  | 29 => ⟨S800000x128, .f32⟩
  | 30 => ⟨S_, .f32⟩
  | 31 => ⟨S800000x128, .f32⟩
  | 32 => ⟨S800000x128, .f32⟩
  | 33 => ⟨S_, .f32⟩
  | 34 => ⟨S100000x128, .f32⟩
  | 35 => ⟨S800000x1, .i32⟩
  | 36 => ⟨S100000x128, .f32⟩
  | 37 => ⟨S_, .f32⟩
  | 38 => ⟨S800000, .f32⟩
  | 39 => ⟨S_, .f32⟩
  | 40 => ⟨S100000, .f32⟩
  | 41 => ⟨S800000x1, .i32⟩
  | 42 => ⟨S100000, .f32⟩
  | 43 => ⟨S_, .f32⟩
  | 44 => ⟨S100000, .f32⟩
  | 45 => ⟨S100000, .f32⟩
  | 46 => ⟨S100000x1, .f32⟩
  | 47 => ⟨S100000x128, .f32⟩
  | 48 => ⟨S100000x128, .f32⟩
  | 49 => ⟨S_, .i32⟩
  | 50 => ⟨S600000, .i32⟩
  | 51 => ⟨S600000, .i1⟩
  | 52 => ⟨S_, .i32⟩
  | 53 => ⟨S600000, .i32⟩
  | 54 => ⟨S600000, .i32⟩
  | 55 => ⟨S600000, .i32⟩
  | 56 => ⟨S600000x1, .i32⟩
  | 57 => ⟨S600000x128, .f32⟩
  | 58 => ⟨S128x128, .f32⟩
  | 59 => ⟨S600000x128, .f32⟩
  | 60 => ⟨S_, .f32⟩
  | 61 => ⟨S600000x128, .f32⟩
  | 62 => ⟨S600000x128, .f32⟩
  | 63 => ⟨S_, .f32⟩
  | 64 => ⟨S100000x128, .f32⟩
  | 65 => ⟨S600000x1, .i32⟩
  | 66 => ⟨S100000x128, .f32⟩
  | 67 => ⟨S_, .f32⟩
  | 68 => ⟨S600000, .f32⟩
  | 69 => ⟨S_, .f32⟩
  | 70 => ⟨S100000, .f32⟩
  | 71 => ⟨S600000x1, .i32⟩
  | 72 => ⟨S100000, .f32⟩
  | 73 => ⟨S_, .f32⟩
  | 74 => ⟨S100000, .f32⟩
  | 75 => ⟨S100000, .f32⟩
  | 76 => ⟨S100000x1, .f32⟩
  | 77 => ⟨S100000x128, .f32⟩
  | 78 => ⟨S100000x128, .f32⟩
  | 79 => ⟨S100000x128, .f32⟩
  | 80 => ⟨S_, .f32⟩
  | 81 => ⟨S100000x128, .f32⟩
  | 82 => ⟨S100000x128, .f32⟩
  | 83 => ⟨S_, .i32⟩
  | 84 => ⟨S600000, .i32⟩
  | 85 => ⟨S600000, .i1⟩
  | 86 => ⟨S_, .i32⟩
  | 87 => ⟨S600000, .i32⟩
  | 88 => ⟨S600000, .i32⟩
  | 89 => ⟨S600000, .i32⟩
  | 90 => ⟨S600000x1, .i32⟩
  | 91 => ⟨S600000x128, .f32⟩
  | 92 => ⟨S128x128, .f32⟩
  | 93 => ⟨S600000x128, .f32⟩
  | 94 => ⟨S_, .f32⟩
  | 95 => ⟨S600000x128, .f32⟩
  | 96 => ⟨S600000x128, .f32⟩
  | 97 => ⟨S_, .f32⟩
  | 98 => ⟨S50000x128, .f32⟩
  | 99 => ⟨S600000x1, .i32⟩
  | 100 => ⟨S50000x128, .f32⟩
  | 101 => ⟨S_, .f32⟩
  | 102 => ⟨S600000, .f32⟩
  | 103 => ⟨S_, .f32⟩
  | 104 => ⟨S50000, .f32⟩
  | 105 => ⟨S600000x1, .i32⟩
  | 106 => ⟨S50000, .f32⟩
  | 107 => ⟨S_, .f32⟩
  | 108 => ⟨S50000, .f32⟩
  | 109 => ⟨S50000, .f32⟩
  | 110 => ⟨S50000x1, .f32⟩
  | 111 => ⟨S50000x128, .f32⟩
  | 112 => ⟨S50000x128, .f32⟩
  | 113 => ⟨S100000x256, .f32⟩
  | 114 => ⟨S256x128, .f32⟩
  | 115 => ⟨S100000x128, .f32⟩
  | 116 => ⟨S1x128, .f32⟩
  | 117 => ⟨S100000x128, .f32⟩
  | 118 => ⟨S100000x128, .f32⟩
  | 119 => ⟨S_, .f32⟩
  | 120 => ⟨S100000x128, .f32⟩
  | 121 => ⟨S100000x128, .f32⟩
  | 122 => ⟨S100000x128, .f32⟩
  | 123 => ⟨S_, .f32⟩
  | 124 => ⟨S100000, .f32⟩
  | 125 => ⟨S100000x1, .f32⟩
  | 126 => ⟨S_, .f32⟩
  | 127 => ⟨S100000x1, .f32⟩
  | _ => ⟨S100000x128, .f32⟩

abbrev hbmTy0_1 (i : Nat) : BufTy := match i % 128 with
  | 0 => ⟨S100000x1, .f32⟩
  | 1 => ⟨S100000x128, .f32⟩
  | 2 => ⟨S100000x128, .f32⟩
  | 3 => ⟨S100000x128, .f32⟩
  | 4 => ⟨S_, .f32⟩
  | 5 => ⟨S100000, .f32⟩
  | 6 => ⟨S100000x1, .f32⟩
  | 7 => ⟨S_, .f32⟩
  | 8 => ⟨S100000x1, .f32⟩
  | 9 => ⟨S100000x1, .f32⟩
  | 10 => ⟨S100000x128, .f32⟩
  | 11 => ⟨S100000x128, .f32⟩
  | 12 => ⟨S_, .f32⟩
  | 13 => ⟨S100000x1, .f32⟩
  | 14 => ⟨S100000x1, .f32⟩
  | 15 => ⟨S100000x1, .f32⟩
  | 16 => ⟨S100000x128, .f32⟩
  | 17 => ⟨S100000x128, .f32⟩
  | 18 => ⟨S1x128, .f32⟩
  | 19 => ⟨S100000x128, .f32⟩
  | 20 => ⟨S100000x128, .f32⟩
  | 21 => ⟨S1x128, .f32⟩
  | 22 => ⟨S100000x128, .f32⟩
  | 23 => ⟨S100000x128, .f32⟩
  | 24 => ⟨S50000x256, .f32⟩
  | 25 => ⟨S256x128, .f32⟩
  | 26 => ⟨S50000x128, .f32⟩
  | 27 => ⟨S1x128, .f32⟩
  | 28 => ⟨S50000x128, .f32⟩
  | 29 => ⟨S50000x128, .f32⟩
  | 30 => ⟨S_, .f32⟩
  | 31 => ⟨S50000x128, .f32⟩
  | 32 => ⟨S50000x128, .f32⟩
  | 33 => ⟨S50000x128, .f32⟩
  | 34 => ⟨S_, .f32⟩
  | 35 => ⟨S50000, .f32⟩
  | 36 => ⟨S50000x1, .f32⟩
  | 37 => ⟨S_, .f32⟩
  | 38 => ⟨S50000x1, .f32⟩
  | 39 => ⟨S50000x1, .f32⟩
  | 40 => ⟨S50000x128, .f32⟩
  | 41 => ⟨S50000x128, .f32⟩
  | 42 => ⟨S50000x128, .f32⟩
  | 43 => ⟨S_, .f32⟩
  | 44 => ⟨S50000, .f32⟩
  | 45 => ⟨S50000x1, .f32⟩
  | 46 => ⟨S_, .f32⟩
  | 47 => ⟨S50000x1, .f32⟩
  | 48 => ⟨S50000x1, .f32⟩
  | 49 => ⟨S50000x128, .f32⟩
  | 50 => ⟨S50000x128, .f32⟩
  | 51 => ⟨S_, .f32⟩
  | 52 => ⟨S50000x1, .f32⟩
  | 53 => ⟨S50000x1, .f32⟩
  | 54 => ⟨S50000x1, .f32⟩
  | 55 => ⟨S50000x128, .f32⟩
  | 56 => ⟨S50000x128, .f32⟩
  | 57 => ⟨S1x128, .f32⟩
  | 58 => ⟨S50000x128, .f32⟩
  | 59 => ⟨S50000x128, .f32⟩
  | 60 => ⟨S1x128, .f32⟩
  | 61 => ⟨S50000x128, .f32⟩
  | 62 => ⟨S50000x128, .f32⟩
  | 63 => ⟨S150000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_call0_cst : Ref sig .tc := ⟨.hbm, 30, rfl⟩
abbrev main_call0_v0 : Ref sig .tc := ⟨.hbm, 31, rfl⟩
abbrev main_v9 : Ref sig .tc := ⟨.hbm, 32, rfl⟩
abbrev main_cst : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_1 : Ref sig .tc := ⟨.hbm, 37, rfl⟩
abbrev main_v13 : Ref sig .tc := ⟨.hbm, 38, rfl⟩
abbrev main_cst_2 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_cst_3 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_c_4 : Ref sig .tc := ⟨.hbm, 49, rfl⟩
abbrev main_v22 : Ref sig .tc := ⟨.hbm, 50, rfl⟩
abbrev main_v23 : Ref sig .tc := ⟨.hbm, 51, rfl⟩
abbrev main_c_5 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_call1_cst : Ref sig .tc := ⟨.hbm, 60, rfl⟩
abbrev main_call1_v0 : Ref sig .tc := ⟨.hbm, 61, rfl⟩
abbrev main_v31 : Ref sig .tc := ⟨.hbm, 62, rfl⟩
abbrev main_cst_6 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_cst_7 : Ref sig .tc := ⟨.hbm, 67, rfl⟩
abbrev main_v35 : Ref sig .tc := ⟨.hbm, 68, rfl⟩
abbrev main_cst_8 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_9 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_cst_10 : Ref sig .tc := ⟨.hbm, 80, rfl⟩
abbrev main_v45 : Ref sig .tc := ⟨.hbm, 81, rfl⟩
abbrev main_v46 : Ref sig .tc := ⟨.hbm, 82, rfl⟩
abbrev main_c_11 : Ref sig .tc := ⟨.hbm, 83, rfl⟩
abbrev main_v47 : Ref sig .tc := ⟨.hbm, 84, rfl⟩
abbrev main_v48 : Ref sig .tc := ⟨.hbm, 85, rfl⟩
abbrev main_c_12 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_call2_cst : Ref sig .tc := ⟨.hbm, 94, rfl⟩
abbrev main_call2_v0 : Ref sig .tc := ⟨.hbm, 95, rfl⟩
abbrev main_v56 : Ref sig .tc := ⟨.hbm, 96, rfl⟩
abbrev main_cst_13 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_cst_14 : Ref sig .tc := ⟨.hbm, 101, rfl⟩
abbrev main_v60 : Ref sig .tc := ⟨.hbm, 102, rfl⟩
abbrev main_cst_15 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_cst_16 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_call3_cst : Ref sig .tc := ⟨.hbm, 119, rfl⟩
abbrev main_call3_v0 : Ref sig .tc := ⟨.hbm, 120, rfl⟩
abbrev main_v75 : Ref sig .tc := ⟨.hbm, 121, rfl⟩
abbrev main_v76 : Ref sig .tc := ⟨.hbm, 122, rfl⟩
abbrev main_cst_17 : Ref sig .tc := ⟨.hbm, 123, rfl⟩
abbrev main_v77 : Ref sig .tc := ⟨.hbm, 124, rfl⟩
abbrev main_v78 : Ref sig .tc := ⟨.hbm, 125, rfl⟩
abbrev main_cst_18 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_cst_19 : Ref sig .tc := ⟨.hbm, 132, rfl⟩
abbrev main_v84 : Ref sig .tc := ⟨.hbm, 133, rfl⟩
abbrev main_v85 : Ref sig .tc := ⟨.hbm, 134, rfl⟩
abbrev main_cst_20 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_cst_21 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_call4_cst : Ref sig .tc := ⟨.hbm, 158, rfl⟩
abbrev main_call4_v0 : Ref sig .tc := ⟨.hbm, 159, rfl⟩
abbrev main_v107 : Ref sig .tc := ⟨.hbm, 160, rfl⟩
abbrev main_v108 : Ref sig .tc := ⟨.hbm, 161, rfl⟩
abbrev main_cst_22 : Ref sig .tc := ⟨.hbm, 162, rfl⟩
abbrev main_v109 : Ref sig .tc := ⟨.hbm, 163, rfl⟩
abbrev main_v110 : Ref sig .tc := ⟨.hbm, 164, rfl⟩
abbrev main_cst_23 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_cst_24 : Ref sig .tc := ⟨.hbm, 171, rfl⟩
abbrev main_v116 : Ref sig .tc := ⟨.hbm, 172, rfl⟩
abbrev main_v117 : Ref sig .tc := ⟨.hbm, 173, rfl⟩
abbrev main_cst_25 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_cst_26 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  transposes_S128x128_S128x128_1_0 : S128x128.Transposes [1, 0] S128x128
  bcast_S_S800000x128 : S_.BroadcastsInDim S800000x128 (![] : Fin 0 → Fin S800000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S100000x128_S100000x128_S100000x256_d1 : Shape.Concatenates [S100000x128, S100000x128] S100000x256 1
  transposes_S128x256_S256x128_1_0 : S128x256.Transposes [1, 0] S256x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  reducesTo_S50000x128_S50000_d1 : S50000x128.ReducesTo [1] S50000
  bcast_S_S50000x1 : S_.BroadcastsInDim S50000x1 (![] : Fin 0 → Fin S50000x1.rank)
  concatenates_S100000x128_S50000x128_S150000x128_d0 : Shape.Concatenates [S100000x128, S50000x128] S150000x128 0
  gather_S100000x128_S800000x1_S800000x128_1_0_n_n_0_1_1128_wf : GatherDims.WF S100000x128 S800000x1 S800000x128 [1] [0] [] [0] [] 1 ![1, 128]
  dot_S800000x128_S128x128_S800000x128_1_0_0_1_n_n_wf : DotDims.WF S800000x128 S128x128 S800000x128 [1] [0] [0] [1] [] []
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  gather_S50000x128_S600000x1_S600000x128_1_0_n_n_0_1_1128_wf : GatherDims.WF S50000x128 S600000x1 S600000x128 [1] [0] [] [0] [] 1 ![1, 128]
  dot_S600000x128_S128x128_S600000x128_1_0_0_1_n_n_wf : DotDims.WF S600000x128 S128x128 S600000x128 [1] [0] [0] [1] [] []
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S100000x256_S256x128_S100000x128_1_0_0_1_n_n_wf : DotDims.WF S100000x256 S256x128 S100000x128 [1] [0] [0] [1] [] []
  dot_S50000x256_S256x128_S50000x128_1_0_0_1_n_n_wf : DotDims.WF S50000x256 S256x128 S50000x128 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Spec.lean ====
/-
  The mathematics of one heterogeneous message-passing layer, ROW BY ROW, over the extended reals.

  A node's feature row is a function `Fin 128 → EReal`; a weight matrix is read as `W k q` (input feature `k`,
  output feature `q`). Per relation, every source row is projected and rectified (`proj`: `max (x · W) 0`), the
  projected rows of a node's incoming edges are summed and divided by the edge count, at least one (`mean1`; for a
  node type fed by two relations the two means are averaged, `mean2`). The node update (`upd`) is a linear map of
  the node's own row and its aggregated row plus a bias, rectified, added back to the own row (`pre`), then
  normalised over the 128 features to zero mean and unit variance (`mu`, `var`, `norm`: the variance floored by a
  small constant before the inverse square root) and scaled and shifted feature by feature.
  Both programs compute exactly these functions; the float words they share (1, 1/2, 128, the variance floor, 0)
  are kept as words and never evaluated.
-/
import Idealize.ShloMosaic.PureOps.Ideal
import Idealize.ShloMosaic.Lib.ValueIdx

noncomputable section

open scoped BigOperators

namespace Cert.Sage

open Idealize.ShloMosaic Idealize.ShloMosaic.ValueIdx

/-- One node's 128 features. -/
abbrev Row := Fin 128 → EReal
/-- A 128 × 128 weight, read as `W k q`: input feature `k`, output feature `q`. -/
abbrev Mat := Fin 128 → Fin 128 → EReal

/-- The float words of the layer: one, one half, the feature count, the variance floor, zero. -/
abbrev wOne : EReal := Ideal.ofBits .f32 0x3F800000#32
abbrev wHalf : EReal := Ideal.ofBits .f32 0x3F000000#32
abbrev w128 : EReal := Ideal.ofBits .f32 0x43000000#32
abbrev wEps : EReal := Ideal.ofBits .f32 0x3727C5AC#32
abbrev wZero : EReal := Ideal.ofBits .f32 0x00000000#32

/-- A row projected by a weight and rectified. -/
def proj (x : Row) (W : Mat) : Row := fun q => max (∑ k, x k * W k q) wZero

/-- A summed row divided by its edge count, the count at least one. -/
def mean1 (s : Row) (c : EReal) : Row := fun k => Ideal.div (s k) (max c wOne)

/-- The average of two relations' means. -/
def mean2 (s1 s2 : Row) (c1 c2 : EReal) : Row :=
  fun k => (Ideal.div (s1 k) (max c1 wOne) + Ideal.div (s2 k) (max c2 wOne)) * wHalf

/-- Own row and aggregated row through the two halves of the update weight, plus bias, rectified, plus the own row. -/
def pre (x a : Row) (Wh Wa : Mat) (b : Row) : Row :=
  fun q => max ((∑ k, x k * Wh k q) + (∑ k, a k * Wa k q) + b q) wZero + x q

/-- The mean of a row's features. -/
def mu (h : Row) : EReal := Ideal.div (∑ q, h q) w128

/-- The variance of a row's features about their mean. -/
def var (h : Row) : EReal := Ideal.div (∑ q, (h q - mu h) * (h q - mu h)) w128

/-- The row normalised over its features, scaled and shifted. -/
def norm (h g be : Row) : Row := fun q => (h q - mu h) * Ideal.rsqrt (var h + wEps) * g q + be q

/-- The node update: normalise the rectified linear map with its residual. -/
def upd (x a : Row) (Wh Wa : Mat) (b g be : Row) : Row := norm (pre x a Wh Wa b) g be

/-- Row `r` of an `n × 128` array. -/
def rowOf {n : Nat} (a : (⟨2, ![n, 128]⟩ : Shape).Idx → EReal) (r : Fin n) : Row := fun k => a (ix2 r k)

/-- A `128 × 128` array as a weight `W k q`. -/
def matOf (a : (⟨2, ![128, 128]⟩ : Shape).Idx → EReal) : Mat := fun k q => a (ix2 k q)

/-- The one row of a `1 × 128` array. -/
def row1 (a : (⟨2, ![1, 128]⟩ : Shape).Idx → EReal) : Row := fun k => a (ix2 (0 : Fin 1) k)

/-- Whole-array forms: every row projected. -/
def projArr {n : Nat} (x : (⟨2, ![n, 128]⟩ : Shape).Idx → EReal) (w : (⟨2, ![128, 128]⟩ : Shape).Idx → EReal) :
    (⟨2, ![n, 128]⟩ : Shape).Idx → EReal :=
  fun i => proj (rowOf x (i 0)) (matOf w) (i 1)

/-- Every row of a node type fed by two relations updated: `cnt` holds the two edge counts of each node side by side. -/
def upd2Arr {n : Nat} (x s1 s2 : (⟨2, ![n, 128]⟩ : Shape).Idx → EReal) (cnt : (⟨2, ![n, 2]⟩ : Shape).Idx → EReal)
    (wh wa : (⟨2, ![128, 128]⟩ : Shape).Idx → EReal) (b g be : (⟨2, ![1, 128]⟩ : Shape).Idx → EReal) :
    (⟨2, ![n, 128]⟩ : Shape).Idx → EReal :=
  fun i => upd (rowOf x (i 0))
    (mean2 (rowOf s1 (i 0)) (rowOf s2 (i 0)) (cnt (ix2 (i 0) (0 : Fin 2))) (cnt (ix2 (i 0) (1 : Fin 2))))
    (matOf wh) (matOf wa) (row1 b) (row1 g) (row1 be) (i 1)

/-- Every row of a node type fed by one relation updated. -/
def upd1Arr {n : Nat} (x s : (⟨2, ![n, 128]⟩ : Shape).Idx → EReal) (cnt : (⟨2, ![n, 1]⟩ : Shape).Idx → EReal)
    (wh wa : (⟨2, ![128, 128]⟩ : Shape).Idx → EReal) (b g be : (⟨2, ![1, 128]⟩ : Shape).Idx → EReal) :
    (⟨2, ![n, 128]⟩ : Shape).Idx → EReal :=
  fun i => upd (rowOf x (i 0)) (mean1 (rowOf s (i 0)) (cnt (ix2 (i 0) (0 : Fin 1))))
    (matOf wh) (matOf wa) (row1 b) (row1 g) (row1 be) (i 1)

end Cert.Sage

end
-- ==== Proof.Mid.lean ====
/-
  The whole layer as ONE function of the argument arrays.

  For each of the three relations: every source node's row is projected and rectified (`Sage.projArr`), the rows
  named by the edges' source indices are gathered, summed into the destination nodes (a sum over the edges landing
  on each node) and the landing edges are counted. A node of the first table (100000 rows) averages the means of its two
  incoming relations, a node of the second table (50000 rows) takes the mean of its one relation; each node is then updated and normalised (`Sage.upd2Arr`,
  `Sage.upd1Arr`), and the two node tables are stacked. Both programs are shown equal to `layer`.
  `InRange` says that every entry of an index array is a valid row number of the table it indexes.
-/
import proofs.«422673_j24180665876652_3_alg».proof.Proof.Gen.KernelIdeal
import proofs.«422673_j24180665876652_3_alg».proof.Proof.Spec

noncomputable section

namespace Cert.Sage

open Cert.KernelIdeal Cert.KernelIdeal.Gen Idealize.ShloMosaic Idealize.ShloMosaic.ValueIdx

/-- Every entry of `src`, read as a signed word, is at least `0` and below `N`. -/
def InRange {s : Shape} (src : IVec s 32) (N : BitVec 32) : Prop :=
  ∀ i, IntOp.cmpi .sge (src i) 0#32 = 1#1 ∧ IntOp.cmpi .slt (src i) N = 1#1

abbrev A (s : Shape) := s.Idx → EReal

/-- The rows of a 100000-row table named by 800000 source indices. -/
def rows800 (y : A S100000x128) (src : IVec S800000 32) : A S800000x128 :=
  Host.gather gather_S100000x128_S800000x1_S800000x128_1_0_n_n_0_1_1128 y
    (broadcastInDim S800000x1 ![0] bcast_S800000_S800000x1_0 src)
/-- The rows of a 50000-row table named by 600000 source indices. -/
def rows600p (y : A S50000x128) (src : IVec S600000 32) : A S600000x128 :=
  Host.gather gather_S50000x128_S600000x1_S600000x128_1_0_n_n_0_1_1128 y
    (broadcastInDim S600000x1 ![0] bcast_S600000_S600000x1_0 src)
/-- The rows of a 100000-row table named by 600000 source indices. -/
def rows600d (y : A S100000x128) (src : IVec S600000 32) : A S600000x128 :=
  Host.gather gather_S100000x128_S600000x1_S600000x128_1_0_n_n_0_1_1128 y
    (broadcastInDim S600000x1 ![0] bcast_S600000_S600000x1_0 src)

/-- 800000 edge rows summed into 100000 destination nodes. -/
def sum800 (dst : IVec S800000 32) (h : A S800000x128) : A S100000x128 :=
  Host.scatterAdd (F := Ideal) scatter_S100000x128_S800000x1_S800000x128_1_0_0_1
    (broadcastInDim S100000x128 ![] bcast_S_S100000x128 (constant (F := Ideal) S_ .f32 0x00000000#32))
    (broadcastInDim S800000x1 ![0] bcast_S800000_S800000x1_0 dst) h
/-- 600000 edge rows summed into 100000 destination nodes. -/
def sum600d (dst : IVec S600000 32) (h : A S600000x128) : A S100000x128 :=
  Host.scatterAdd (F := Ideal) scatter_S100000x128_S600000x1_S600000x128_1_0_0_1
    (broadcastInDim S100000x128 ![] bcast_S_S100000x128 (constant (F := Ideal) S_ .f32 0x00000000#32))
    (broadcastInDim S600000x1 ![0] bcast_S600000_S600000x1_0 dst) h
/-- 600000 edge rows summed into 50000 destination nodes. -/
def sum600p (dst : IVec S600000 32) (h : A S600000x128) : A S50000x128 :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 dst) h

/-- The number of the 800000 edges landing on each of 100000 nodes, as a float sum of ones. -/
def cnt800 (dst : IVec S800000 32) : A S100000 :=
  Host.scatterAdd (F := Ideal) scatter_S100000_S800000x1_S800000_n_0_0_1
    (broadcastInDim S100000 ![] bcast_S_S100000 (constant (F := Ideal) S_ .f32 0x00000000#32))
    (broadcastInDim S800000x1 ![0] bcast_S800000_S800000x1_0 dst)
    (broadcastInDim S800000 ![] bcast_S_S800000 (constant (F := Ideal) S_ .f32 0x3F800000#32))
/-- The number of the 600000 edges landing on each of 100000 nodes. -/
def cnt600d (dst : IVec S600000 32) : A S100000 :=
  Host.scatterAdd (F := Ideal) scatter_S100000_S600000x1_S600000_n_0_0_1
    (broadcastInDim S100000 ![] bcast_S_S100000 (constant (F := Ideal) S_ .f32 0x00000000#32))
    (broadcastInDim S600000x1 ![0] bcast_S600000_S600000x1_0 dst)
    (broadcastInDim S600000 ![] bcast_S_S600000 (constant (F := Ideal) S_ .f32 0x3F800000#32))
/-- The number of the 600000 edges landing on each of 50000 nodes. -/
def cnt600p (dst : IVec S600000 32) : A S50000 :=
  Host.scatterAdd (F := Ideal) scatter_S50000_S600000x1_S600000_n_0_0_1
    (broadcastInDim S50000 ![] bcast_S_S50000 (constant (F := Ideal) S_ .f32 0x00000000#32))
    (broadcastInDim S600000x1 ![0] bcast_S600000_S600000x1_0 dst)
    (broadcastInDim S600000 ![] bcast_S_S600000 (constant (F := Ideal) S_ .f32 0x3F800000#32))

/-- A weight read transposed. -/
def tr (w : A S128x128) : A S128x128 := transpose S128x128 [1, 0] w transposes_S128x128_S128x128_1_0
/-- The left and right halves of a 128 × 256 update weight, each read transposed. -/
def trL (w : A S128x256) : A S128x128 := tr (extractStridedSlice S128x128 ![0, 0] w slices_S128x256_S128x128_0_0)
def trR (w : A S128x256) : A S128x128 := tr (extractStridedSlice S128x128 ![0, 128] w slices_S128x256_S128x128_0_128)
/-- A feature vector as a one-row table. -/
def asRow (v : A S128) : A S1x128 := shapeCast S1x128 v shapeCasts_S128_S1x128

/-- The summed, projected rows per relation. -/
def sDD (x0 : A S100000x128) (w : A S128x128) (src dst : IVec S800000 32) : A S100000x128 :=
  sum800 dst (rows800 (projArr x0 (tr w)) src)
def sPD (x1 : A S50000x128) (w : A S128x128) (src dst : IVec S600000 32) : A S100000x128 :=
  sum600d dst (rows600p (projArr x1 (tr w)) src)
def sDP (x0 : A S100000x128) (w : A S128x128) (src dst : IVec S600000 32) : A S50000x128 :=
  sum600p dst (rows600d (projArr x0 (tr w)) src)

/-- Two count vectors side by side. -/
def cnt2 (c1 c2 : A S100000) : A S100000x2 :=
  concatenate S100000x2 1 [⟨S100000x1, shapeCast S100000x1 c1 shapeCasts_S100000_S100000x1⟩,
    ⟨S100000x1, shapeCast S100000x1 c2 shapeCasts_S100000_S100000x1⟩] concatenates_S100000x1_S100000x1_S100000x2_d1

/-- The updated first table (fed by two relations). -/
def outA (x0 : A S100000x128) (x1 : A S50000x128) (x2 x4 : A S128x128) (x5 : A S128x256) (x6 x9 x10 : A S128)
    (x13 x14 : IVec S800000 32) (x17 x18 : IVec S600000 32) : A S100000x128 :=
  upd2Arr x0 (sDD x0 x2 x13 x14) (sPD x1 x4 x17 x18) (cnt2 (cnt800 x14) (cnt600d x18))
    (trL x5) (trR x5) (asRow x6) (asRow x9) (asRow x10)

/-- The updated second table (fed by one relation). -/
def outB (x0 : A S100000x128) (x1 : A S50000x128) (x3 : A S128x128) (x7 : A S128x256) (x8 x11 x12 : A S128)
    (x15 x16 : IVec S600000 32) : A S50000x128 :=
  upd1Arr x1 (sDP x0 x3 x15 x16) (shapeCast S50000x1 (cnt600p x16) shapeCasts_S50000_S50000x1)
    (trL x7) (trR x7) (asRow x8) (asRow x11) (asRow x12)

/-- The layer: the two updated tables stacked. -/
def layer (x0 : A S100000x128) (x1 : A S50000x128) (x2 x3 x4 : A S128x128) (x5 : A S128x256) (x6 : A S128)
    (x7 : A S128x256) (x8 x9 x10 x11 x12 : A S128) (x13 x14 : IVec S800000 32) (x15 x16 x17 x18 : IVec S600000 32) :
    A S150000x128 :=
  concatenate S150000x128 0 [⟨S100000x128, outA x0 x1 x2 x4 x5 x6 x9 x10 x13 x14 x17 x18⟩,
    ⟨S50000x128, outB x0 x1 x3 x7 x8 x11 x12 x15 x16⟩] concatenates_S100000x128_S50000x128_S150000x128_d0

end Cert.Sage

end
-- ==== Proof.RegProj.lean ====
/-
  The two projection launches, read as whole arrays.
  Each grid point stages a block of 5000 rows of the node table and the whole (transposed) weight, multiplies and
  rectifies; the blocks tile the table, so the array a launch leaves IS every row projected and rectified.
-/
import proofs.«422673_j24180665876652_3_alg».proof.Proof.Gen.KernelIdeal.Frame
import proofs.«422673_j24180665876652_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- One block of rows times the weight, rectified: the arithmetic every grid point of both launches does. -/
def blkProj (x : Vec Ideal S5000x128 .f32) (w : Vec Ideal S128x128 .f32) : FVec Ideal S5000x128 .f32 :=
  maximumf (matmul (φ₁ := .f32) (φ₂ := .f32) dot_S5000x128_S128x128_S5000x128_1_0_0_1_n_n none x
      (shapeCast S128x128 w shapeCasts_S128x128_S128x128 : FVec Ideal S128x128 .f32) (constant S5000x128 .f32 0x00000000#32))
    (broadcast S5000x128 (Scalar.ofBits .f32 0x00000000#32 : Ideal .f32))

theorem k0_pay1_eq (x : Vec Ideal S5000x128 .f32) (w : Vec Ideal S128x128 .f32) : k0_pay1 x w = blkProj x w := rfl
theorem k0_pay2_eq (x : Vec Ideal S5000x128 .f32) (w : Vec Ideal S128x128 .f32) : k0_pay2 x w = blkProj x w := rfl
theorem k1_pay1_eq (x : Vec Ideal S5000x128 .f32) (w : Vec Ideal S128x128 .f32) : k1_pay1 x w = blkProj x w := rfl

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block's arithmetic at row p, feature q: the row against the weight's column, rectified. -/
theorem blkProj_apply (x : Vec Ideal S5000x128 .f32) (w : Vec Ideal S128x128 .f32) (p : Fin 5000) (q : Fin 128) :
    blkProj x w (ix2 p q) = max (∑ k : Fin 128, x (ix2 p k) * w (ix2 k q)) Cert.Sage.wZero := by
  unfold blkProj
  rw [maximumf_apply, shapeCast_self]
  simp only [matmul]
  rw [Ideal.matmul_constant_zero_apply, ← Equiv.sum_comp (contrEquiv1 dot_S5000x128_S128x128_S5000x128_1_0_0_1_n_n 128 rfl rfl).symm]
  show max _ (Ideal.ofBits .f32 0x00000000#32) = _
  congr 1
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- Row r, feature q of the projected table, spelled out. -/
theorem projArr_apply {n : Nat} (x : (⟨2, ![n, 128]⟩ : Shape).Idx → EReal) (w : (⟨2, ![128, 128]⟩ : Shape).Idx → EReal)
    (r : Fin n) (q : Fin 128) :
    Cert.Sage.projArr x w (ix2 r q) = max (∑ k : Fin 128, x (ix2 r k) * w (ix2 k q)) Cert.Sage.wZero := rfl

/-! ## Launch 0: twenty blocks of 5000 rows of the first table -/

/-- The index maps over the grid: the row-blocked windows sit at block t of the rows, the weights are staged whole. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The staged block of table rows at point t is rows 5000 t … 5000 t + 4999 of the table. -/
theorem blk0_0 (c : Dev nD) (t : Fin cfg0.N) (p : Fin 5000) (k : Fin 128) (r : Fin 100000) (hr : r.val = 5000 * t.val + p.val) :
    (iblk0 V c 0 t : Vec Ideal S5000x128 .f32) (ix2 p k) = (V c main_arg0 : S100000x128.Idx → EReal) (ix2 r k) := by
  obtain ⟨e0, e1, -⟩ := idx0 t
  show V c main_arg0 (((cfg0.win 0).blk t).view.emb (ix2 p k)) = V c main_arg0 (ix2 r k)
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The first weight is staged whole at every point. -/
theorem blk0_1 (c : Dev nD) (t : Fin cfg0.N) (j : S128x128.Idx) :
    (iblk0 V c 1 t : Vec Ideal S128x128 .f32) j = (V c main_v0 : S128x128.Idx → EReal) j := by
  obtain ⟨-, -, e0, e1, -⟩ := idx0 t
  show V c main_v0 (((cfg0.win 1).blk t).view.emb j) = V c main_v0 j
  refine congrArg _ (funext fun a => Fin.ext ?_)
  match a with
  | ⟨0, _⟩ => show win0_1.index t (0 : Fin 2) * 128 + 1 * (j 0).val = (j 0).val; omega
  | ⟨1, _⟩ => show win0_1.index t (1 : Fin 2) * 128 + 1 * (j 1).val = (j 1).val; omega

/-- The second weight is staged whole at every point. -/
theorem blk0_2 (c : Dev nD) (t : Fin cfg0.N) (j : S128x128.Idx) :
    (iblk0 V c 2 t : Vec Ideal S128x128 .f32) j = (V c main_v1 : S128x128.Idx → EReal) j := by
  obtain ⟨-, -, -, -, e0, e1, -⟩ := idx0 t
  show V c main_v1 (((cfg0.win 2).blk t).view.emb j) = V c main_v1 j
  refine congrArg _ (funext fun a => Fin.ext ?_)
  match a with
  | ⟨0, _⟩ => show win0_2.index t (0 : Fin 2) * 128 + 1 * (j 0).val = (j 0).val; omega
  | ⟨1, _⟩ => show win0_2.index t (1 : Fin 2) * 128 + 1 * (j 1).val = (j 1).val; omega

/-- What point t writes back to the first result is block t of the projected table. -/
theorem flushed0_3 (c : Dev nD) (t : Fin cfg0.N) :
    (dat0 V c).flushed 3 t = ((cfg0.win 3).blk t).view.read (Elt Ideal) (Cert.Sage.projArr (V c main_arg0) (V c main_v0)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz]
  rw [k0_pay1_eq]
  obtain ⟨-, -, -, -, -, -, e0, e1, -⟩ := idx0 t
  have ht : t.val < 20 := lt_of_lt_of_eq t.isLt N_0
  refine funext fun (j : S5000x128.Idx) => ?_
  obtain ⟨p, q, rfl⟩ : ∃ (p : Fin 5000) (q : Fin 128), j = ix2 p q := ⟨j 0, j 1, eq_ix2 j⟩
  have hp : p.val < 5000 := p.isLt
  have hemb : ((cfg0.win 3).blk t).view.emb (ix2 p q) = ix2 (⟨5000 * t.val + p.val, by omega⟩ : Fin 100000) q := by
    funext a; apply Fin.ext
    match a with
    | ⟨0, _⟩ => show win0_3.index t (0 : Fin 2) * 5000 + 1 * p.val = 5000 * t.val + p.val; omega
    | ⟨1, _⟩ => show win0_3.index t (1 : Fin 2) * 128 + 1 * q.val = q.val; omega
  show blkProj (iblk0 V c 0 t) (iblk0 V c 1 t) (ix2 p q) = Cert.Sage.projArr (V c main_arg0) (V c main_v0) (((cfg0.win 3).blk t).view.emb (ix2 p q))
  rw [hemb, projArr_apply]
  refine (blkProj_apply (iblk0 V c 0 t) (iblk0 V c 1 t) p q).trans ?_
  refine congrArg (fun s => max s Cert.Sage.wZero) (Finset.sum_congr rfl fun k _ => ?_)
  rw [blk0_0 V c t p k ⟨5000 * t.val + p.val, by omega⟩ rfl, blk0_1 V c t (ix2 k q)]
/-- Every row of the table lies in the block of its quotient by 5000. -/
theorem covered0_3 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  obtain ⟨t, htv⟩ : ∃ t : Fin cfg0.N, t.val = (i 0).val / 5000 := ⟨⟨(i 0).val / 5000, by rw [hN]; omega⟩, rfl⟩
  obtain ⟨-, -, -, -, -, -, e0, e1, -⟩ := idx0 t
  refine ⟨t, flush0_3 t, ?_⟩
  show i ∈ ((View.whole main_v2_0).slice (win0_3.rect t)).set
  rw [View.set_slice_whole, Rect.mem_set_unit]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- Launch 0, first result: the first table's rows projected by the first weight. -/
theorem arr0_3 (c : Dev nD) : (dat0 V c).arrAt 3 cfg0.N = Cert.Sage.projArr (V c main_arg0) (V c main_v0) :=
  (dat0 V c).arrAt_eq_of_cover 3 (Cert.Sage.projArr (V c main_arg0) (V c main_v0)) (fun t _ => flushed0_3 V c t) covered0_3

/-- What point t writes back to the second result is block t of the table projected by the second weight. -/
theorem flushed0_4 (c : Dev nD) (t : Fin cfg0.N) :
    (dat0 V c).flushed 4 t = ((cfg0.win 4).blk t).view.read (Elt Ideal) (Cert.Sage.projArr (V c main_arg0) (V c main_v1)) := by
  show (cfg0.win 4).cut (grid0.coords t) ((dat0 V c).after 4 t) = _
  rw [after0_4]
  unfold out0_4
  rw [View.canon_unit_zero hz]
  simp only [View.ld_unit_zero (S := S5000x128) hz, View.ld_unit_zero (S := S128x128) hz]
  rw [k0_pay2_eq]
  obtain ⟨-, -, -, -, -, -, -, -, e0, e1⟩ := idx0 t
  have ht : t.val < 20 := lt_of_lt_of_eq t.isLt N_0
  refine funext fun (j : S5000x128.Idx) => ?_
  obtain ⟨p, q, rfl⟩ : ∃ (p : Fin 5000) (q : Fin 128), j = ix2 p q := ⟨j 0, j 1, eq_ix2 j⟩
  have hp : p.val < 5000 := p.isLt
  have hemb : ((cfg0.win 4).blk t).view.emb (ix2 p q) = ix2 (⟨5000 * t.val + p.val, by omega⟩ : Fin 100000) q := by
    funext a; apply Fin.ext
    match a with
    | ⟨0, _⟩ => show win0_4.index t (0 : Fin 2) * 5000 + 1 * p.val = 5000 * t.val + p.val; omega
    | ⟨1, _⟩ => show win0_4.index t (1 : Fin 2) * 128 + 1 * q.val = q.val; omega
  show blkProj (iblk0 V c 0 t) (iblk0 V c 2 t) (ix2 p q) = Cert.Sage.projArr (V c main_arg0) (V c main_v1) (((cfg0.win 4).blk t).view.emb (ix2 p q))
  rw [hemb, projArr_apply]
  refine (blkProj_apply (iblk0 V c 0 t) (iblk0 V c 2 t) p q).trans ?_
  refine congrArg (fun s => max s Cert.Sage.wZero) (Finset.sum_congr rfl fun k _ => ?_)
  rw [blk0_0 V c t p k ⟨5000 * t.val + p.val, by omega⟩ rfl, blk0_2 V c t (ix2 k q)]
/-- The second result's blocks tile the table the same way. -/
theorem covered0_4 (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 20 := N_0
  obtain ⟨t, htv⟩ : ∃ t : Fin cfg0.N, t.val = (i 0).val / 5000 := ⟨⟨(i 0).val / 5000, by rw [hN]; omega⟩, rfl⟩
  obtain ⟨-, -, -, -, -, -, -, -, e0, e1⟩ := idx0 t
  refine ⟨t, flush0_4 t, ?_⟩
  show i ∈ ((View.whole main_v2_1).slice (win0_4.rect t)).set
  rw [View.set_slice_whole, Rect.mem_set_unit]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- Launch 0, second result: the same rows projected by the second weight. -/
theorem arr0_4 (c : Dev nD) : (dat0 V c).arrAt 4 cfg0.N = Cert.Sage.projArr (V c main_arg0) (V c main_v1) :=
  (dat0 V c).arrAt_eq_of_cover 4 (Cert.Sage.projArr (V c main_arg0) (V c main_v1)) (fun t _ => flushed0_4 V c t) covered0_4

/-! ## Launch 1: ten blocks of 5000 rows of the second table -/

/-- The index maps over the grid: the row-blocked windows sit at block t of the rows, the weight is staged whole. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The staged block of table rows at point t is rows 5000 t … 5000 t + 4999 of the second table. -/
theorem blk1_0 (c : Dev nD) (t : Fin cfg1.N) (p : Fin 5000) (k : Fin 128) (r : Fin 50000) (hr : r.val = 5000 * t.val + p.val) :
    (iblk1 V c 0 t : Vec Ideal S5000x128 .f32) (ix2 p k) = (V c main_arg1 : S50000x128.Idx → EReal) (ix2 r k) := by
  obtain ⟨e0, e1, -⟩ := idx1 t
  show V c main_arg1 (((cfg1.win 0).blk t).view.emb (ix2 p k)) = V c main_arg1 (ix2 r k)
  refine congrArg _ (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- The third weight is staged whole at every point. -/
theorem blk1_1 (c : Dev nD) (t : Fin cfg1.N) (j : S128x128.Idx) :
    (iblk1 V c 1 t : Vec Ideal S128x128 .f32) j = (V c main_v3 : S128x128.Idx → EReal) j := by
  obtain ⟨-, -, e0, e1, -⟩ := idx1 t
  show V c main_v3 (((cfg1.win 1).blk t).view.emb j) = V c main_v3 j
  refine congrArg _ (funext fun a => Fin.ext ?_)
  match a with
  | ⟨0, _⟩ => show win1_1.index t (0 : Fin 2) * 128 + 1 * (j 0).val = (j 0).val; omega
  | ⟨1, _⟩ => show win1_1.index t (1 : Fin 2) * 128 + 1 * (j 1).val = (j 1).val; omega

/-- What point t writes back is block t of the projected second table. -/
theorem flushed1_2 (c : Dev nD) (t : Fin cfg1.N) :
    (dat1 V c).flushed 2 t = ((cfg1.win 2).blk t).view.read (Elt Ideal) (Cert.Sage.projArr (V c main_arg1) (V c main_v3)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  rw [k1_pay1_eq]
  obtain ⟨-, -, -, -, e0, e1⟩ := idx1 t
  have ht : t.val < 10 := lt_of_lt_of_eq t.isLt N_1
  refine funext fun (j : S5000x128.Idx) => ?_
  obtain ⟨p, q, rfl⟩ : ∃ (p : Fin 5000) (q : Fin 128), j = ix2 p q := ⟨j 0, j 1, eq_ix2 j⟩
  have hp : p.val < 5000 := p.isLt
  have hemb : ((cfg1.win 2).blk t).view.emb (ix2 p q) = ix2 (⟨5000 * t.val + p.val, by omega⟩ : Fin 50000) q := by
    funext a; apply Fin.ext
    match a with
    | ⟨0, _⟩ => show win1_2.index t (0 : Fin 2) * 5000 + 1 * p.val = 5000 * t.val + p.val; omega
    | ⟨1, _⟩ => show win1_2.index t (1 : Fin 2) * 128 + 1 * q.val = q.val; omega
  show blkProj (iblk1 V c 0 t) (iblk1 V c 1 t) (ix2 p q) = Cert.Sage.projArr (V c main_arg1) (V c main_v3) (((cfg1.win 2).blk t).view.emb (ix2 p q))
  rw [hemb, projArr_apply]
  refine (blkProj_apply (iblk1 V c 0 t) (iblk1 V c 1 t) p q).trans ?_
  refine congrArg (fun s => max s Cert.Sage.wZero) (Finset.sum_congr rfl fun k _ => ?_)
  rw [blk1_0 V c t p k ⟨5000 * t.val + p.val, by omega⟩ rfl, blk1_1 V c t (ix2 k q)]

/-- Every row of the second table lies in the block of its quotient by 5000. -/
theorem covered1_2 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  obtain ⟨t, htv⟩ : ∃ t : Fin cfg1.N, t.val = (i 0).val / 5000 := ⟨⟨(i 0).val / 5000, by rw [hN]; omega⟩, rfl⟩
  obtain ⟨-, -, -, -, e0, e1⟩ := idx1 t
  refine ⟨t, flush1_2 t, ?_⟩
  show i ∈ ((View.whole main_v4).slice (win1_2.rect t)).set
  rw [View.set_slice_whole, Rect.mem_set_unit]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- Launch 1: the second table's rows projected by the third weight. -/
theorem arr1_2 (c : Dev nD) : (dat1 V c).arrAt 2 cfg1.N = Cert.Sage.projArr (V c main_arg1) (V c main_v3) :=
  (dat1 V c).arrAt_eq_of_cover 2 (Cert.Sage.projArr (V c main_arg1) (V c main_v3)) (fun t _ => flushed1_2 V c t) covered1_2

end Cert.KernelIdeal.RegVal

end
-- ==== Proof.LibIdx.lean ====
/-
  Words as row numbers, and counting by adding ones.
  (1) A signed 32-bit word that is at least 0 and below a bound N ≤ 2^31 - 1 is not negative, so the usual
      "add N if negative" normalisation leaves it as it is, and it passes the range test 0 ≤ · ≤ N - 1.
  (2) Scattering the integer 1 once per edge into a table of zeros, adding, and reading the word as a signed
      integer gives the NUMBER of edges whose index lands on each entry — the same number the float sum of ones gives —
      as long as there are fewer than 2^31 edges.
-/
import Idealize.ShloMosaic.PureOps.Ideal
import Idealize.ShloMosaic.PureOps.Ideal.Laws
import Idealize.ShloMosaic.Lib.ValueIdx
import Idealize.ShloMosaic.Lib.StableHlo.Predicate
import Idealize.ShloMosaic.Lib.WordSum
import Idealize.ShloMosaic.Lib.NatWords
import Idealize.ShloMosaic.Lib.IdealHost

set_option maxRecDepth 16384

noncomputable section

open scoped BigOperators

namespace Cert.Sage.LibIdx

open Idealize.ShloMosaic Idealize.ShloMosaic.ValueIdx

/-- A word in `[0, N)` (signed compares, `N` a non-negative signed word) is its own normalisation: the test
    "negative?" is `0`, so the select keeps the word. -/
theorem norm_eq (a N : BitVec 32) (h0 : IntOp.cmpi .sge a 0#32 = 1#1) :
    Scalar.select (IntOp.cmpi .slt a 0#32) (IntOp.addi a N) a = a := by
  have hz : IntOp.cmpi .slt a 0#32 = 0#1 := by
    apply eq_zero_of_ne_one
    intro h1
    simp only [IntOp.cmpi, StableHlo.Predicate.ofBool_eq_one_iff, BitVec.sle, BitVec.slt, decide_eq_true_eq] at h0 h1
    omega
  rw [hz, select_zero]

/-- … and it passes the two-sided range test against `N - 1` (stated for the literal bounds of this layer). -/
theorem inb_100000 (a : BitVec 32) (h0 : IntOp.cmpi .sge a 0#32 = 1#1) (h1 : IntOp.cmpi .slt a 100000#32 = 1#1) :
    IntOp.andi (IntOp.cmpi .sge a 0#32) (IntOp.cmpi .sle a 99999#32) = 1#1 := by
  have h2 : IntOp.cmpi .sle a 99999#32 = 1#1 := by
    have e1 : (100000#32 : BitVec 32).toInt = 100000 := by decide
    have e2 : (99999#32 : BitVec 32).toInt = 99999 := by decide
    simp only [IntOp.cmpi, StableHlo.Predicate.ofBool_eq_one_iff, BitVec.sle, BitVec.slt, decide_eq_true_eq, e1, e2] at h1 ⊢
    omega
  rw [h0, h2]; rfl
theorem inb_50000 (a : BitVec 32) (h0 : IntOp.cmpi .sge a 0#32 = 1#1) (h1 : IntOp.cmpi .slt a 50000#32 = 1#1) :
    IntOp.andi (IntOp.cmpi .sge a 0#32) (IntOp.cmpi .sle a 49999#32) = 1#1 := by
  have h2 : IntOp.cmpi .sle a 49999#32 = 1#1 := by
    have e1 : (50000#32 : BitVec 32).toInt = 50000 := by decide
    have e2 : (49999#32 : BitVec 32).toInt = 49999 := by decide
    simp only [IntOp.cmpi, StableHlo.Predicate.ofBool_eq_one_iff, BitVec.sle, BitVec.slt, decide_eq_true_eq, e1, e2] at h1 ⊢
    omega
  rw [h0, h2]; rfl

/-- In a list without repeats that holds every position, the number of positions with a property is the size of
    the set of positions with it. -/
theorem card_filter_fin (n : ℕ) (p : Fin n → Prop) [DecidablePred p] :
    (Finset.univ.filter p).card = (List.finRange n).countP (fun x => decide (p x)) := by
  rw [Finset.card_def, Finset.filter_val, Fin.univ_def]
  simp [List.countP_eq_length_filter]

/-- Folding "add one at the entry the position lands on" over a list of positions adds, at each entry, the number
    of listed positions that land on it (as a 32-bit word, so modulo 2^32). -/
theorem foldl_count {s si u : Shape} (d : ScatterDims s si u) (idx : IVec si 32) (i : s.Idx) :
    ∀ (l : List (Fin u.numel)) (r : s.Idx → BitVec 32),
      (l.foldl (fun r n =>
        match d.resultIdx? (u.rowMajor.symm n) idx with
        | some j => fun i' => if i' = j then IntOp.addi (r j) (1#32 : BitVec 32) else r i'
        | none => r) r) i
      = r i + BitVec.ofNat 32 (l.countP (fun n => decide (d.resultIdx? (u.rowMajor.symm n) idx = some i))) := by
  intro l
  induction l with
  | nil => intro r; simp
  | cons n l ih =>
    intro r
    rw [List.foldl_cons, ih, List.countP_cons]
    cases h : d.resultIdx? (u.rowMajor.symm n) idx with
    | none => simp
    | some j =>
      by_cases hij : i = j
      · subst hij
        simp only [if_true, decide_true, IntOp.addi, BitVec.ofNat_add]
        ac_rfl
      · have hji : ¬ (j = i) := fun e => hij e.symm
        simp [hij, hji]

/-- COUNTING. The integer scatter-add of ones into zeros, converted to a float, is the float scatter-add of ones
    into zeros: both are the number of update positions whose index lands on the entry. `hn`: fewer than 2^31
    updates, so the 32-bit count never wraps and reads the same signed. -/
theorem sitofp_scatter_ones {s si u : Shape} (d : ScatterDims s si u) (idx : IVec si 32) (hn : u.numel < 2 ^ 31) :
    (sitofp .f32 (Host.scatter d IntOp.addi (fun _ => (0#32 : BitVec 32)) idx (fun _ => (1#32 : BitVec 32))) : FVec Ideal s .f32)
      = Host.scatterAdd (F := Ideal) d (fun _ => Ideal.ofBits .f32 0x00000000#32) idx (fun _ => Ideal.ofBits .f32 0x3F800000#32) := by
  funext i
  have hfold := foldl_count d idx i (List.finRange u.numel) (fun _ => (0#32 : BitVec 32))
  have hL : Host.scatter d IntOp.addi (fun _ => (0#32 : BitVec 32)) idx (fun _ => (1#32 : BitVec 32)) i
      = BitVec.ofNat 32 ((List.finRange u.numel).countP (fun n => decide (d.resultIdx? (u.rowMajor.symm n) idx = some i))) := by
    rw [BitVec.zero_add] at hfold
    exact hfold
  have hc : (List.finRange u.numel).countP (fun n => decide (d.resultIdx? (u.rowMajor.symm n) idx = some i)) ≤ u.numel := by
    have := List.countP_le_length (p := fun n => decide (d.resultIdx? (u.rowMajor.symm n) idx = some i)) (l := List.finRange u.numel)
    simpa using this
  have hcard : (Finset.univ.filter (fun j : u.Idx => d.resultIdx? j idx = some i)).card
      = (List.finRange u.numel).countP (fun n => decide (d.resultIdx? (u.rowMajor.symm n) idx = some i)) := by
    rw [← card_filter_fin u.numel (fun n => d.resultIdx? (u.rowMajor.symm n) idx = some i)]
    exact Finset.card_equiv u.rowMajor (by intro j; simp)
  rw [sitofp_apply, hL]
  show ((((BitVec.ofNat 32 _).toInt : ℤ) : ℝ) : EReal) = _
  rw [StableHlo.Predicate.toInt_ofNat_small _ (by omega)]
  simp only [Host.scatterAdd, Ideal.hostScatterAdd_def, Ideal.hostScatterAdd, Ideal.ofBits_zero_f32, Ideal.ofBits_one_f32,
    zero_add, Finset.sum_const, nsmul_one, hcard]
  norm_cast

end Cert.Sage.LibIdx

end
-- ==== Proof.KTake.lean ====
/-
  The guarded row lookup is the plain row lookup when every index is a valid row number.
  The program moves a negative index up by the table length, gathers, and replaces by a junk word every row whose
  moved index falls outside the table. For an index that is at least 0 and below the table length nothing is moved,
  the range test holds, and the looked-up row is the row itself.
-/
import proofs.«422673_j24180665876652_3_alg».proof.Proof.Mid
import proofs.«422673_j24180665876652_3_alg».proof.Proof.LibIdx
import Idealize.ShloMosaic.Lib.StableHlo.Predicate
import Idealize.ShloMosaic.Lib.ReduceAll
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Sage

open Cert.KernelIdeal Cert.KernelIdeal.Gen Idealize.ShloMosaic Idealize.ShloMosaic.ValueIdx

/-- The guarded row lookup as the program computes it: a negative index is moved up by the table length, the rows are
    gathered, and a row whose (moved) index is outside `[0, 99999]` is replaced by the junk word. -/
def take800 (y : A S100000x128) (src : IVec S800000 32) : A S800000x128 :=
  let z : IVec S800000 32 := broadcastInDim S800000 ![] bcast_S_S800000 (constantI S_ 32 0#32)
  let neg : IVec S800000 1 := cmpi .slt src z
  let up : IVec S800000 32 := addi src (broadcastInDim S800000 ![] bcast_S_S800000 (constantI S_ 32 100000#32))
  let j : IVec S800000x1 32 := broadcastInDim S800000x1 ![0] bcast_S800000_S800000x1_0 (select neg up src)
  let lo : IVec S800000x1 1 := cmpi .sge j (broadcastInDim S800000x1 ![] bcast_S_S800000x1 (constantI S_ 32 0#32))
  let hi : IVec S800000x1 1 := cmpi .sle j (broadcastInDim S800000x1 ![0, 1] bcast_S1x1_S800000x1_0_1
    (broadcastInDim S1x1 ![1] bcast_S1_S1x1_1 (constantI S1 32 99999#32)))
  let ok : IVec S800000 1 := Host.reduce IntOp.andi (andi lo hi) (constantI S_ 1 1#1) reducesTo_S800000x1_S800000_d1 h_S_
  select (broadcastInDim S800000x128 ![0] bcast_S800000_S800000x128_0 ok)
    (Host.gather gather_S100000x128_S800000x1_S800000x128_1_0_n_n_0_1_1128 y j)
    (broadcastInDim S800000x128 ![] bcast_S_S800000x128 (constant (F := Ideal) S_ .f32 0x7FC00000#32))

/-- The guarded row lookup as the program computes it: a negative index is moved up by the table length, the rows are
    gathered, and a row whose (moved) index is outside `[0, 49999]` is replaced by the junk word. -/
def take600p (y : A S50000x128) (src : IVec S600000 32) : A S600000x128 :=
  let z : IVec S600000 32 := broadcastInDim S600000 ![] bcast_S_S600000 (constantI S_ 32 0#32)
  let neg : IVec S600000 1 := cmpi .slt src z
  let up : IVec S600000 32 := addi src (broadcastInDim S600000 ![] bcast_S_S600000 (constantI S_ 32 50000#32))
  let j : IVec S600000x1 32 := broadcastInDim S600000x1 ![0] bcast_S600000_S600000x1_0 (select neg up src)
  let lo : IVec S600000x1 1 := cmpi .sge j (broadcastInDim S600000x1 ![] bcast_S_S600000x1 (constantI S_ 32 0#32))
  let hi : IVec S600000x1 1 := cmpi .sle j (broadcastInDim S600000x1 ![0, 1] bcast_S1x1_S600000x1_0_1
    (broadcastInDim S1x1 ![1] bcast_S1_S1x1_1 (constantI S1 32 49999#32)))
  let ok : IVec S600000 1 := Host.reduce IntOp.andi (andi lo hi) (constantI S_ 1 1#1) reducesTo_S600000x1_S600000_d1 h_S_
  select (broadcastInDim S600000x128 ![0] bcast_S600000_S600000x128_0 ok)
    (Host.gather gather_S50000x128_S600000x1_S600000x128_1_0_n_n_0_1_1128 y j)
    (broadcastInDim S600000x128 ![] bcast_S_S600000x128 (constant (F := Ideal) S_ .f32 0x7FC00000#32))

/-- The guarded row lookup as the program computes it: a negative index is moved up by the table length, the rows are
    gathered, and a row whose (moved) index is outside `[0, 99999]` is replaced by the junk word. -/
def take600d (y : A S100000x128) (src : IVec S600000 32) : A S600000x128 :=
  let z : IVec S600000 32 := broadcastInDim S600000 ![] bcast_S_S600000 (constantI S_ 32 0#32)
  let neg : IVec S600000 1 := cmpi .slt src z
  let up : IVec S600000 32 := addi src (broadcastInDim S600000 ![] bcast_S_S600000 (constantI S_ 32 100000#32))
  let j : IVec S600000x1 32 := broadcastInDim S600000x1 ![0] bcast_S600000_S600000x1_0 (select neg up src)
  let lo : IVec S600000x1 1 := cmpi .sge j (broadcastInDim S600000x1 ![] bcast_S_S600000x1 (constantI S_ 32 0#32))
  let hi : IVec S600000x1 1 := cmpi .sle j (broadcastInDim S600000x1 ![0, 1] bcast_S1x1_S600000x1_0_1
    (broadcastInDim S1x1 ![1] bcast_S1_S1x1_1 (constantI S1 32 99999#32)))
  let ok : IVec S600000 1 := Host.reduce IntOp.andi (andi lo hi) (constantI S_ 1 1#1) reducesTo_S600000x1_S600000_d1 h_S_
  select (broadcastInDim S600000x128 ![0] bcast_S600000_S600000x128_0 ok)
    (Host.gather gather_S100000x128_S600000x1_S600000x128_1_0_n_n_0_1_1128 y j)
    (broadcastInDim S600000x128 ![] bcast_S_S600000x128 (constant (F := Ideal) S_ .f32 0x7FC00000#32))

/-- A left fold by `and` over one-bit words that are all 1, started at 1, is 1. -/
theorem foldl_andi_one {ι : Type} (f : ι → BitVec 1) (hf : ∀ n, f n = 1#1) :
    ∀ (l : List ι), l.foldl (fun r n => IntOp.andi r (f n)) 1#1 = 1#1
  | [] => rfl
  | a :: l => by
    rw [List.foldl_cons, hf a]
    have e : IntOp.andi (1#1 : BitVec 1) 1#1 = 1#1 := by decide
    rw [e]
    exact foldl_andi_one f hf l

/-- A reduction by `and` of an array of one-bit words that are all 1, from the initial value 1, is 1 everywhere. -/
theorem reduce_andi_one {s t u : Shape} {axes : List (Fin s.rank)} (x : s.Idx → BitVec 1) (init : u.Idx → BitVec 1)
    (hr : s.ReducesTo axes t) (hu : 0 < u.numel) (hx : ∀ i, x i = 1#1) (hi : init (Shape.Idx.first hu) = 1#1) (j : t.Idx) :
    Host.reduce IntOp.andi x init hr hu j = 1#1 := by
  unfold Host.reduce
  rw [hi]
  exact foldl_andi_one (fun n => x (s.rowMajor.symm n)) (fun n => hx _) _

/-- A select whose condition is a broadcast of an array of 1 bits is its first operand. -/
theorem select_bcast_one {s t : Shape} {α : Type} (dims : Fin s.rank → Fin t.rank) (hb : s.BroadcastsInDim t dims)
    (c : IVec s 1) (hc : ∀ k, c k = 1#1) (a b : t.Idx → α) : select (broadcastInDim t dims hb c) a b = a := by
  funext e
  rw [select_apply]
  have h1 : broadcastInDim t dims hb c e = 1#1 := hc _
  rw [h1, select_one]

theorem take800_eq (y : A S100000x128) (src : IVec S800000 32) (h : InRange src 100000#32) :
    take800 y src = rows800 y src := by
  -- the index is not negative, so it is not moved
  have hsel : select (cmpi .slt src (broadcastInDim S800000 ![] bcast_S_S800000 (constantI S_ 32 0#32)))
      (addi src (broadcastInDim S800000 ![] bcast_S_S800000 (constantI S_ 32 100000#32))) src = src := by
    funext i
    exact LibIdx.norm_eq (src i) 100000#32 (h i).1
  unfold take800 rows800
  simp only [hsel]
  -- the range test holds at every row, so the select keeps the gathered row
  apply select_bcast_one
  intro k
  apply reduce_andi_one
  · intro i
    exact LibIdx.inb_100000 _ (h _).1 (h _).2
  · rfl

theorem take600p_eq (y : A S50000x128) (src : IVec S600000 32) (h : InRange src 50000#32) :
    take600p y src = rows600p y src := by
  have hsel : select (cmpi .slt src (broadcastInDim S600000 ![] bcast_S_S600000 (constantI S_ 32 0#32)))
      (addi src (broadcastInDim S600000 ![] bcast_S_S600000 (constantI S_ 32 50000#32))) src = src := by
    funext i
    exact LibIdx.norm_eq (src i) 50000#32 (h i).1
  unfold take600p rows600p
  simp only [hsel]
  apply select_bcast_one
  intro k
  apply reduce_andi_one
  · intro i
    exact LibIdx.inb_50000 _ (h _).1 (h _).2
  · rfl

theorem take600d_eq (y : A S100000x128) (src : IVec S600000 32) (h : InRange src 100000#32) :
    take600d y src = rows600d y src := by
  have hsel : select (cmpi .slt src (broadcastInDim S600000 ![] bcast_S_S600000 (constantI S_ 32 0#32)))
      (addi src (broadcastInDim S600000 ![] bcast_S_S600000 (constantI S_ 32 100000#32))) src = src := by
    funext i
    exact LibIdx.norm_eq (src i) 100000#32 (h i).1
  unfold take600d rows600d
  simp only [hsel]
  apply select_bcast_one
  intro k
  apply reduce_andi_one
  · intro i
    exact LibIdx.inb_100000 _ (h _).1 (h _).2
  · rfl

end Cert.Sage

end
-- ==== Proof.KEntry.lean ====
/-
  What the host program has computed when the third launch (the first table's update) is entered.
  Before it: the two projection launches leave the projected tables; per relation the host gathers the projected
  rows named by the source indices (an out-of-range index would be filled with a junk row, but under the stated
  index ranges none is), sums them into the destination nodes and counts the landing edges with an integer sum of
  ones converted to a float; it slices and transposes the update weights and turns the bias, scale and shift
  vectors into one-row tables. Every one of these buffers is a named function of the ARGUMENTS.
-/
import proofs.«422673_j24180665876652_3_alg».proof.Proof.Gen.KernelIdeal.Frame
import proofs.«422673_j24180665876652_3_alg».proof.Proof.Mid
import proofs.«422673_j24180665876652_3_alg».proof.Proof.RegProj
import proofs.«422673_j24180665876652_3_alg».proof.Proof.LibIdx
import proofs.«422673_j24180665876652_3_alg».proof.Proof.KTake
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal

open Cert.KernelIdeal Cert.KernelIdeal.Gen Idealize.ShloMosaic Idealize.ShloMosaic.TcCoe Idealize.SL.Sem
open Idealize.ShloMosaic.ValueIdx Idealize.ShloMosaic.StableHlo
open Cert.Sage (InRange)

variable (m : (ℓ : Loc nD τ sig) → Buf (Elt Ideal) ℓ) (ρ : Dev nD → PrngReg)

/-! ## What each stretch of host operations writes; every other buffer is carried across it unchanged -/

/-- The buffers written by the two first weight transposes. -/
abbrev wr0 : List (Ref sig .tc) := [main_v0, main_v1]
/-- The buffer written by the third weight transpose. -/
abbrev wr1 : List (Ref sig .tc) := [main_v3]
/-- The buffers written by the first relation's guarded lookup. -/
abbrev wr2 : List (Ref sig .tc) := [main_call0_c, main_call0_v0, main_call0_v1, main_call0_c_0, main_call0_v2, main_call0_v3,
  main_call0_v4, main_call0_v5, main_call0_c_1, main_call0_c_2, main_call0_v6, main_call0_v7, main_call0_v8, main_call0_v9,
  main_call0_v10, main_call0_v11, main_call0_c_3, main_call0_v12, main_call0_v13, main_call0_v14, main_call0_cst,
  main_call0_v15, main_v5]
/-- The buffers written by the first relation's sum and count. -/
abbrev wr2_1 : List (Ref sig .tc) := [main_cst, main_v6, main_v7, main_v8, main_c, main_v9, main_c_0, main_v10, main_v11,
  main_v12, main_v13, main_v14]
/-- The buffers written by the third relation's guarded lookup. -/
abbrev wr2_2 : List (Ref sig .tc) := [main_call1_c, main_call1_v0, main_call1_v1, main_call1_c_0, main_call1_v2, main_call1_v3,
  main_call1_v4, main_call1_v5, main_call1_c_1, main_call1_c_2, main_call1_v6, main_call1_v7, main_call1_v8, main_call1_v9,
  main_call1_v10, main_call1_v11, main_call1_c_3, main_call1_v12, main_call1_v13, main_call1_v14, main_call1_cst,
  main_call1_v15, main_v15]
/-- The buffers written by the third relation's sum and count. -/
abbrev wr2_3 : List (Ref sig .tc) := [main_cst_1, main_v16, main_v17, main_v18, main_c_2, main_v19, main_c_3, main_v20, main_v21,
  main_v22, main_v23, main_v24]
/-- The buffers written by the second relation's guarded lookup. -/
abbrev wr2_4 : List (Ref sig .tc) := [main_call2_c, main_call2_v0, main_call2_v1, main_call2_c_0, main_call2_v2, main_call2_v3,
  main_call2_v4, main_call2_v5, main_call2_c_1, main_call2_c_2, main_call2_v6, main_call2_v7, main_call2_v8, main_call2_v9,
  main_call2_v10, main_call2_v11, main_call2_c_3, main_call2_v12, main_call2_v13, main_call2_v14, main_call2_cst,
  main_call2_v15, main_v25]
/-- The buffers written by the second relation's sum and count, the weight halves, the one-row tables and the paired counts. -/
abbrev wr2_5 : List (Ref sig .tc) := [main_cst_4, main_v26, main_v27, main_v28, main_c_5, main_v29, main_c_6, main_v30, main_v31,
  main_v32, main_v33, main_v34, main_v35, main_v36, main_v37, main_v38, main_v39, main_v40, main_v41, main_v42]

theorem keep0 (c : Dev nD) (b : Ref sig .tc) (hb : b ∉ wr0) :
    W1 m ρ c (Proc.devRef .tc b) = W0 m ρ c (Proc.devRef .tc b) :=
  StableHlo.after_of_writes_sub (W := wr0) _ _ (by
    simp only [hostOps0, wr0, List.Forall, StableHlo.nullary_writes, StableHlo.unary_writes, StableHlo.binary_writes,
      StableHlo.ternary_writes, StableHlo.reshape_writes, Finset.singleton_subset_iff, List.mem_toFinset,
      List.map_cons, List.map_nil, List.mem_cons, true_or, or_true, and_self]) hb

theorem keep1 (c : Dev nD) (b : Ref sig .tc) (hb : b ∉ wr1) :
    W3 m ρ c (Proc.devRef .tc b) = W2 m ρ c (Proc.devRef .tc b) :=
  StableHlo.after_of_writes_sub (W := wr1) _ _ (by
    simp only [hostOps1, wr1, List.Forall, StableHlo.nullary_writes, StableHlo.unary_writes, StableHlo.binary_writes,
      StableHlo.ternary_writes, StableHlo.reshape_writes, Finset.singleton_subset_iff, List.mem_toFinset,
      List.map_cons, List.map_nil, List.mem_cons, true_or, or_true, and_self]) hb

theorem keep2 (c : Dev nD) (b : Ref sig .tc) (hb : b ∉ wr2) :
    W5 m ρ c (Proc.devRef .tc b) = W4 m ρ c (Proc.devRef .tc b) :=
  StableHlo.after_of_writes_sub (W := wr2) _ _ (by
    simp only [hostOps2, wr2, List.Forall, StableHlo.nullary_writes, StableHlo.unary_writes, StableHlo.binary_writes,
      StableHlo.ternary_writes, StableHlo.reshape_writes, Finset.singleton_subset_iff, List.mem_toFinset,
      List.map_cons, List.map_nil, List.mem_cons, true_or, or_true, and_self]) hb

theorem keep2_1 (c : Dev nD) (b : Ref sig .tc) (hb : b ∉ wr2_1) :
    W6 m ρ c (Proc.devRef .tc b) = W5 m ρ c (Proc.devRef .tc b) :=
  StableHlo.after_of_writes_sub (W := wr2_1) _ _ (by
    simp only [hostOps2_1, wr2_1, List.Forall, StableHlo.nullary_writes, StableHlo.unary_writes, StableHlo.binary_writes,
      StableHlo.ternary_writes, StableHlo.reshape_writes, Finset.singleton_subset_iff, List.mem_toFinset,
      List.map_cons, List.map_nil, List.mem_cons, true_or, or_true, and_self]) hb

theorem keep2_2 (c : Dev nD) (b : Ref sig .tc) (hb : b ∉ wr2_2) :
    W7 m ρ c (Proc.devRef .tc b) = W6 m ρ c (Proc.devRef .tc b) :=
  StableHlo.after_of_writes_sub (W := wr2_2) _ _ (by
    simp only [hostOps2_2, wr2_2, List.Forall, StableHlo.nullary_writes, StableHlo.unary_writes, StableHlo.binary_writes,
      StableHlo.ternary_writes, StableHlo.reshape_writes, Finset.singleton_subset_iff, List.mem_toFinset,
      List.map_cons, List.map_nil, List.mem_cons, true_or, or_true, and_self]) hb

theorem keep2_3 (c : Dev nD) (b : Ref sig .tc) (hb : b ∉ wr2_3) :
    W8 m ρ c (Proc.devRef .tc b) = W7 m ρ c (Proc.devRef .tc b) :=
  StableHlo.after_of_writes_sub (W := wr2_3) _ _ (by
    simp only [hostOps2_3, wr2_3, List.Forall, StableHlo.nullary_writes, StableHlo.unary_writes, StableHlo.binary_writes,
      StableHlo.ternary_writes, StableHlo.reshape_writes, Finset.singleton_subset_iff, List.mem_toFinset,
      List.map_cons, List.map_nil, List.mem_cons, true_or, or_true, and_self]) hb

theorem keep2_4 (c : Dev nD) (b : Ref sig .tc) (hb : b ∉ wr2_4) :
    W9 m ρ c (Proc.devRef .tc b) = W8 m ρ c (Proc.devRef .tc b) :=
  StableHlo.after_of_writes_sub (W := wr2_4) _ _ (by
    simp only [hostOps2_4, wr2_4, List.Forall, StableHlo.nullary_writes, StableHlo.unary_writes, StableHlo.binary_writes,
      StableHlo.ternary_writes, StableHlo.reshape_writes, Finset.singleton_subset_iff, List.mem_toFinset,
      List.map_cons, List.map_nil, List.mem_cons, true_or, or_true, and_self]) hb

theorem keep2_5 (c : Dev nD) (b : Ref sig .tc) (hb : b ∉ wr2_5) :
    W10 m ρ c (Proc.devRef .tc b) = W9 m ρ c (Proc.devRef .tc b) :=
  StableHlo.after_of_writes_sub (W := wr2_5) _ _ (by
    simp only [hostOps2_5, wr2_5, List.Forall, StableHlo.nullary_writes, StableHlo.unary_writes, StableHlo.binary_writes,
      StableHlo.ternary_writes, StableHlo.reshape_writes, Finset.singleton_subset_iff, List.mem_toFinset,
      List.map_cons, List.map_nil, List.mem_cons, true_or, or_true, and_self]) hb

/-- A buffer that no host operation before the third launch writes and that is no array of the two first launches. -/
abbrev Quiet (b : Ref sig .tc) : Prop :=
  b ∉ wr0 ∧ (∀ w, Pipeline.arrRef spec0 w ≠ b) ∧ b ∉ wr1 ∧ (∀ w, Pipeline.arrRef spec1 w ≠ b) ∧ b ∉ wr2 ∧ b ∉ wr2_1 ∧
    b ∉ wr2_2 ∧ b ∉ wr2_3 ∧ b ∉ wr2_4 ∧ b ∉ wr2_5

/-! A quiet buffer holds its launch contents at every boundary up to the third launch. -/
theorem quiet1 (c : Dev nD) (b : Ref sig .tc) (h : Quiet b) : W1 m ρ c (Proc.devRef .tc b) = m ((c : Thread nD τ).loc b) :=
  keep0 m ρ c b h.1
theorem quiet2 (c : Dev nD) (b : Ref sig .tc) (h : Quiet b) : W2 m ρ c (Proc.devRef .tc b) = m ((c : Thread nD τ).loc b) :=
  (W2_of_ne m ρ c b h.2.1).trans (quiet1 m ρ c b h)
theorem quiet3 (c : Dev nD) (b : Ref sig .tc) (h : Quiet b) : W3 m ρ c (Proc.devRef .tc b) = m ((c : Thread nD τ).loc b) :=
  (keep1 m ρ c b h.2.2.1).trans (quiet2 m ρ c b h)
theorem quiet4 (c : Dev nD) (b : Ref sig .tc) (h : Quiet b) : W4 m ρ c (Proc.devRef .tc b) = m ((c : Thread nD τ).loc b) :=
  (W4_of_ne m ρ c b h.2.2.2.1).trans (quiet3 m ρ c b h)
theorem quiet5 (c : Dev nD) (b : Ref sig .tc) (h : Quiet b) : W5 m ρ c (Proc.devRef .tc b) = m ((c : Thread nD τ).loc b) :=
  (keep2 m ρ c b h.2.2.2.2.1).trans (quiet4 m ρ c b h)
theorem quiet6 (c : Dev nD) (b : Ref sig .tc) (h : Quiet b) : W6 m ρ c (Proc.devRef .tc b) = m ((c : Thread nD τ).loc b) :=
  (keep2_1 m ρ c b h.2.2.2.2.2.1).trans (quiet5 m ρ c b h)
theorem quiet7 (c : Dev nD) (b : Ref sig .tc) (h : Quiet b) : W7 m ρ c (Proc.devRef .tc b) = m ((c : Thread nD τ).loc b) :=
  (keep2_2 m ρ c b h.2.2.2.2.2.2.1).trans (quiet6 m ρ c b h)
theorem quiet8 (c : Dev nD) (b : Ref sig .tc) (h : Quiet b) : W8 m ρ c (Proc.devRef .tc b) = m ((c : Thread nD τ).loc b) :=
  (keep2_3 m ρ c b h.2.2.2.2.2.2.2.1).trans (quiet7 m ρ c b h)
theorem quiet9 (c : Dev nD) (b : Ref sig .tc) (h : Quiet b) : W9 m ρ c (Proc.devRef .tc b) = m ((c : Thread nD τ).loc b) :=
  (keep2_4 m ρ c b h.2.2.2.2.2.2.2.2.1).trans (quiet8 m ρ c b h)
theorem quiet10 (c : Dev nD) (b : Ref sig .tc) (h : Quiet b) : W10 m ρ c (Proc.devRef .tc b) = m ((c : Thread nD τ).loc b) :=
  (keep2_5 m ρ c b h.2.2.2.2.2.2.2.2.2).trans (quiet9 m ρ c b h)

/-! ## The two node tables: each is read by one of the two first launches and handed back as it was -/

theorem W1_arg0 (c : Dev nD) : W1 m ρ c (Proc.devRef .tc main_arg0) = m ((c : Thread nD τ).loc main_arg0) :=
  keep0 m ρ c _ (by decide)
theorem W4_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := keep1 m ρ c _ (by decide)
    _ = W1 m ρ c (Proc.devRef .tc main_arg0) :=
      (W2_arr m ρ c 0).trans (((dat0 (V1 m ρ) c).arrAt_in 0 rfl _).trans (A_eq0 (V1 m ρ) c 0))
    _ = m ((c : Thread nD τ).loc main_arg0) := W1_arg0 m ρ c
theorem W3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := keep1 m ρ c _ (by decide)
    _ = W1 m ρ c (Proc.devRef .tc main_arg1) := W2_of_ne m ρ c main_arg1 (by decide)
    _ = m ((c : Thread nD τ).loc main_arg1) := keep0 m ρ c _ (by decide)
theorem W4_arg1 (c : Dev nD) : W4 m ρ c (Proc.devRef .tc main_arg1) = m ((c : Thread nD τ).loc main_arg1) :=
  calc W4 m ρ c (Proc.devRef .tc main_arg1)
    _ = W3 m ρ c (Proc.devRef .tc main_arg1) :=
      (W4_arr m ρ c 0).trans (((dat1 (V3 m ρ) c).arrAt_in 0 rfl _).trans (A_eq1 (V3 m ρ) c 0))
    _ = m ((c : Thread nD τ).loc main_arg1) := W3_arg1 m ρ c

/-- From the second launch's exit to the third launch's entry only host operations run. -/
theorem keep_4_10 (c : Dev nD) (b : Ref sig .tc) (h2 : b ∉ wr2) (h21 : b ∉ wr2_1) (h22 : b ∉ wr2_2) (h23 : b ∉ wr2_3)
    (h24 : b ∉ wr2_4) (h25 : b ∉ wr2_5) : W10 m ρ c (Proc.devRef .tc b) = W4 m ρ c (Proc.devRef .tc b) :=
  (keep2_5 m ρ c b h25).trans ((keep2_4 m ρ c b h24).trans ((keep2_3 m ρ c b h23).trans ((keep2_2 m ρ c b h22).trans
    ((keep2_1 m ρ c b h21).trans (keep2 m ρ c b h2)))))

/-! ## Counting: the integer sum of ones, read as a float, is the float sum of ones -/

theorem cnt800_eq (dst : IVec S800000 32) :
    (sitofp .f32 (Host.scatter scatter_S100000_S800000x1_S800000_n_0_0_1 IntOp.addi
      (broadcastInDim S100000 ![] bcast_S_S100000 (constantI S_ 32 0#32))
      (broadcastInDim S800000x1 ![0] bcast_S800000_S800000x1_0 dst)
      (broadcastInDim S800000 ![] bcast_S_S800000 (constantI S_ 32 1#32))) : FVec Ideal S100000 .f32)
    = Cert.Sage.cnt800 dst := by
  have hz : (broadcastInDim S100000 ![] bcast_S_S100000 (constantI S_ 32 0#32) : IVec S100000 32) = fun _ => 0#32 := by
    funext i; rfl
  have ho : (broadcastInDim S800000 ![] bcast_S_S800000 (constantI S_ 32 1#32) : IVec S800000 32) = fun _ => 1#32 := by
    funext i; rfl
  have hfz : (broadcastInDim S100000 ![] bcast_S_S100000 (constant (F := Ideal) S_ .f32 0x00000000#32) : FVec Ideal S100000 .f32)
      = fun _ => Ideal.ofBits .f32 0x00000000#32 := by
    funext i; rfl
  have hfo : (broadcastInDim S800000 ![] bcast_S_S800000 (constant (F := Ideal) S_ .f32 0x3F800000#32) : FVec Ideal S800000 .f32)
      = fun _ => Ideal.ofBits .f32 0x3F800000#32 := by
    funext i; rfl
  rw [hz, ho, Cert.Sage.cnt800, hfz, hfo]
  exact Cert.Sage.LibIdx.sitofp_scatter_ones _ _ (by decide)

theorem cnt600d_eq (dst : IVec S600000 32) :
    (sitofp .f32 (Host.scatter scatter_S100000_S600000x1_S600000_n_0_0_1 IntOp.addi
      (broadcastInDim S100000 ![] bcast_S_S100000 (constantI S_ 32 0#32))
      (broadcastInDim S600000x1 ![0] bcast_S600000_S600000x1_0 dst)
      (broadcastInDim S600000 ![] bcast_S_S600000 (constantI S_ 32 1#32))) : FVec Ideal S100000 .f32)
    = Cert.Sage.cnt600d dst := by
  have hz : (broadcastInDim S100000 ![] bcast_S_S100000 (constantI S_ 32 0#32) : IVec S100000 32) = fun _ => 0#32 := by
    funext i; rfl
  have ho : (broadcastInDim S600000 ![] bcast_S_S600000 (constantI S_ 32 1#32) : IVec S600000 32) = fun _ => 1#32 := by
    funext i; rfl
  have hfz : (broadcastInDim S100000 ![] bcast_S_S100000 (constant (F := Ideal) S_ .f32 0x00000000#32) : FVec Ideal S100000 .f32)
      = fun _ => Ideal.ofBits .f32 0x00000000#32 := by
    funext i; rfl
  have hfo : (broadcastInDim S600000 ![] bcast_S_S600000 (constant (F := Ideal) S_ .f32 0x3F800000#32) : FVec Ideal S600000 .f32)
      = fun _ => Ideal.ofBits .f32 0x3F800000#32 := by
    funext i; rfl
  rw [hz, ho, Cert.Sage.cnt600d, hfz, hfo]
  exact Cert.Sage.LibIdx.sitofp_scatter_ones _ _ (by decide)

theorem cnt600p_eq (dst : IVec S600000 32) :
    (sitofp .f32 (Host.scatter scatter_S50000_S600000x1_S600000_n_0_0_1 IntOp.addi
      (broadcastInDim S50000 ![] bcast_S_S50000 (constantI S_ 32 0#32))
      (broadcastInDim S600000x1 ![0] bcast_S600000_S600000x1_0 dst)
      (broadcastInDim S600000 ![] bcast_S_S600000 (constantI S_ 32 1#32))) : FVec Ideal S50000 .f32)
    = Cert.Sage.cnt600p dst := by
  have hz : (broadcastInDim S50000 ![] bcast_S_S50000 (constantI S_ 32 0#32) : IVec S50000 32) = fun _ => 0#32 := by
    funext i; rfl
  have ho : (broadcastInDim S600000 ![] bcast_S_S600000 (constantI S_ 32 1#32) : IVec S600000 32) = fun _ => 1#32 := by
    funext i; rfl
  have hfz : (broadcastInDim S50000 ![] bcast_S_S50000 (constant (F := Ideal) S_ .f32 0x00000000#32) : FVec Ideal S50000 .f32)
      = fun _ => Ideal.ofBits .f32 0x00000000#32 := by
    funext i; rfl
  have hfo : (broadcastInDim S600000 ![] bcast_S_S600000 (constant (F := Ideal) S_ .f32 0x3F800000#32) : FVec Ideal S600000 .f32)
      = fun _ => Ideal.ofBits .f32 0x3F800000#32 := by
    funext i; rfl
  rw [hz, ho, Cert.Sage.cnt600p, hfz, hfo]
  exact Cert.Sage.LibIdx.sitofp_scatter_ones _ _ (by decide)

/-! ## What one stretch of host operations leaves in a buffer it writes, from ANY contents before it -/

section Stretch

variable (V : Valuation τ sig (Elt Ideal))

/-- Contents moved to a buffer's own type and back are the contents. -/
theorem ofBuf_toBuf {T : BufTy} (x : TRef sig T) (v : T.Contents (Elt Ideal)) : x.ofBuf (x.toBuf v) = v := by
  obtain ⟨r, h, _, _⟩ := x
  subst h
  rfl

theorem run0_v0 : StableHlo.after hostOps0 V (Proc.devRef .tc main_v0) = Cert.Sage.tr (V (Proc.devRef .tc main_arg2)) := by
  after_results
  rfl
theorem run0_v1 : StableHlo.after hostOps0 V (Proc.devRef .tc main_v1) = Cert.Sage.tr (V (Proc.devRef .tc main_arg3)) := by
  after_results
  rfl
theorem run1_v3 : StableHlo.after hostOps1 V (Proc.devRef .tc main_v3) = Cert.Sage.tr (V (Proc.devRef .tc main_arg4)) := by
  after_results
  rfl

/-- The guarded lookup of relation 1, each buffer read carried at that buffer's own type. -/
theorem run2_v5c : StableHlo.after hostOps2 V (Proc.devRef .tc main_v5)
    = (TRef.of main_v5 : TRef sig ⟨S800000x128, .f32⟩).toBuf
        (Cert.Sage.take800 ((TRef.of main_v2_0 : TRef sig ⟨S100000x128, .f32⟩).ofBuf (V (Proc.devRef .tc main_v2_0)))
          ((TRef.of main_arg13 : TRef sig ⟨S800000, .i32⟩).ofBuf (V (Proc.devRef .tc main_arg13)))) := by
  after_results_simp
  simp only [ofBuf_toBuf, Cert.Sage.take800]
theorem toBuf_v5 (w : (⟨S800000x128, .f32⟩ : BufTy).Contents (Elt Ideal)) :
    (TRef.of main_v5 : TRef sig ⟨S800000x128, .f32⟩).toBuf w = w := rfl
theorem ofBuf_v2_0 : (TRef.of main_v2_0 : TRef sig ⟨S100000x128, .f32⟩).ofBuf (V (Proc.devRef .tc main_v2_0))
    = V (Proc.devRef .tc main_v2_0) := rfl
theorem ofBuf_arg13 : (TRef.of main_arg13 : TRef sig ⟨S800000, .i32⟩).ofBuf (V (Proc.devRef .tc main_arg13))
    = V (Proc.devRef .tc main_arg13) := rfl
/-- The lookup of relation 1 is the guarded row lookup of the projected table at the source indices. -/
theorem run2_v5 : StableHlo.after hostOps2 V (Proc.devRef .tc main_v5)
    = Cert.Sage.take800 (V (Proc.devRef .tc main_v2_0)) (V (Proc.devRef .tc main_arg13)) := by
  rw [run2_v5c, toBuf_v5, ofBuf_v2_0, ofBuf_arg13]

theorem run2_1_v8 : StableHlo.after hostOps2_1 V (Proc.devRef .tc main_v8)
    = Cert.Sage.sum800 (V (Proc.devRef .tc main_arg14)) (V (Proc.devRef .tc main_v5)) := by
  after_results
  rfl
theorem run2_1_v14 : StableHlo.after hostOps2_1 V (Proc.devRef .tc main_v14)
    = shapeCast S100000x1 (Cert.Sage.cnt800 (V (Proc.devRef .tc main_arg14))) shapeCasts_S100000_S100000x1 := by
  after_results
  rw [cnt800_eq]
  generalize Cert.Sage.cnt800 (V (Proc.devRef .tc main_arg14)) = X
  rfl

/-- The guarded lookup of relation 3, each buffer read carried at that buffer's own type. -/
theorem run2_2_v15c : StableHlo.after hostOps2_2 V (Proc.devRef .tc main_v15)
    = (TRef.of main_v15 : TRef sig ⟨S600000x128, .f32⟩).toBuf
        (Cert.Sage.take600p ((TRef.of main_v4 : TRef sig ⟨S50000x128, .f32⟩).ofBuf (V (Proc.devRef .tc main_v4)))
          ((TRef.of main_arg17 : TRef sig ⟨S600000, .i32⟩).ofBuf (V (Proc.devRef .tc main_arg17)))) := by
  after_results_simp
  simp only [ofBuf_toBuf, Cert.Sage.take600p]
theorem toBuf_v15 (w : (⟨S600000x128, .f32⟩ : BufTy).Contents (Elt Ideal)) :
    (TRef.of main_v15 : TRef sig ⟨S600000x128, .f32⟩).toBuf w = w := rfl
theorem ofBuf_v4 : (TRef.of main_v4 : TRef sig ⟨S50000x128, .f32⟩).ofBuf (V (Proc.devRef .tc main_v4))
    = V (Proc.devRef .tc main_v4) := rfl
theorem ofBuf_arg17 : (TRef.of main_arg17 : TRef sig ⟨S600000, .i32⟩).ofBuf (V (Proc.devRef .tc main_arg17))
    = V (Proc.devRef .tc main_arg17) := rfl
/-- The lookup of relation 3 is the guarded row lookup of the projected table at the source indices. -/
theorem run2_2_v15 : StableHlo.after hostOps2_2 V (Proc.devRef .tc main_v15)
    = Cert.Sage.take600p (V (Proc.devRef .tc main_v4)) (V (Proc.devRef .tc main_arg17)) := by
  rw [run2_2_v15c, toBuf_v15, ofBuf_v4, ofBuf_arg17]

theorem run2_3_v18 : StableHlo.after hostOps2_3 V (Proc.devRef .tc main_v18)
    = Cert.Sage.sum600d (V (Proc.devRef .tc main_arg18)) (V (Proc.devRef .tc main_v15)) := by
  after_results
  rfl
theorem run2_3_v24 : StableHlo.after hostOps2_3 V (Proc.devRef .tc main_v24)
    = shapeCast S100000x1 (Cert.Sage.cnt600d (V (Proc.devRef .tc main_arg18))) shapeCasts_S100000_S100000x1 := by
  after_results
  rw [cnt600d_eq]
  generalize Cert.Sage.cnt600d (V (Proc.devRef .tc main_arg18)) = X
  rfl

/-- The guarded lookup of relation 2, each buffer read carried at that buffer's own type. -/
theorem run2_4_v25c : StableHlo.after hostOps2_4 V (Proc.devRef .tc main_v25)
    = (TRef.of main_v25 : TRef sig ⟨S600000x128, .f32⟩).toBuf
        (Cert.Sage.take600d ((TRef.of main_v2_1 : TRef sig ⟨S100000x128, .f32⟩).ofBuf (V (Proc.devRef .tc main_v2_1)))
          ((TRef.of main_arg15 : TRef sig ⟨S600000, .i32⟩).ofBuf (V (Proc.devRef .tc main_arg15)))) := by
  after_results_simp
  simp only [ofBuf_toBuf, Cert.Sage.take600d]
theorem toBuf_v25 (w : (⟨S600000x128, .f32⟩ : BufTy).Contents (Elt Ideal)) :
    (TRef.of main_v25 : TRef sig ⟨S600000x128, .f32⟩).toBuf w = w := rfl
theorem ofBuf_v2_1 : (TRef.of main_v2_1 : TRef sig ⟨S100000x128, .f32⟩).ofBuf (V (Proc.devRef .tc main_v2_1))
    = V (Proc.devRef .tc main_v2_1) := rfl
theorem ofBuf_arg15 : (TRef.of main_arg15 : TRef sig ⟨S600000, .i32⟩).ofBuf (V (Proc.devRef .tc main_arg15))
    = V (Proc.devRef .tc main_arg15) := rfl
/-- The lookup of relation 2 is the guarded row lookup of the projected table at the source indices. -/
theorem run2_4_v25 : StableHlo.after hostOps2_4 V (Proc.devRef .tc main_v25)
    = Cert.Sage.take600d (V (Proc.devRef .tc main_v2_1)) (V (Proc.devRef .tc main_arg15)) := by
  rw [run2_4_v25c, toBuf_v25, ofBuf_v2_1, ofBuf_arg15]

theorem run2_5_v28 : StableHlo.after hostOps2_5 V (Proc.devRef .tc main_v28)
    = Cert.Sage.sum600p (V (Proc.devRef .tc main_arg16)) (V (Proc.devRef .tc main_v25)) := by
  after_results
  rfl
theorem run2_5_v34 : StableHlo.after hostOps2_5 V (Proc.devRef .tc main_v34)
    = shapeCast S50000x1 (Cert.Sage.cnt600p (V (Proc.devRef .tc main_arg16))) shapeCasts_S50000_S50000x1 := by
  after_results
  rw [cnt600p_eq]
  generalize Cert.Sage.cnt600p (V (Proc.devRef .tc main_arg16)) = X
  rfl

theorem run2_5_v36 : StableHlo.after hostOps2_5 V (Proc.devRef .tc main_v36) = Cert.Sage.trL (V (Proc.devRef .tc main_arg5)) := by
  after_results
  rfl
theorem run2_5_v38 : StableHlo.after hostOps2_5 V (Proc.devRef .tc main_v38) = Cert.Sage.trR (V (Proc.devRef .tc main_arg5)) := by
  after_results
  rfl
theorem run2_5_v39 : StableHlo.after hostOps2_5 V (Proc.devRef .tc main_v39) = Cert.Sage.asRow (V (Proc.devRef .tc main_arg6)) := by
  after_results
  rfl
theorem run2_5_v40 : StableHlo.after hostOps2_5 V (Proc.devRef .tc main_v40) = Cert.Sage.asRow (V (Proc.devRef .tc main_arg9)) := by
  after_results
  rfl
theorem run2_5_v41 : StableHlo.after hostOps2_5 V (Proc.devRef .tc main_v41) = Cert.Sage.asRow (V (Proc.devRef .tc main_arg10)) := by
  after_results
  rfl

/-- The two count columns of the first table, side by side. -/
theorem run2_5_v42 : StableHlo.after hostOps2_5 V (Proc.devRef .tc main_v42)
    = concatenate S100000x2 1 [⟨S100000x1, V (Proc.devRef .tc main_v14)⟩, ⟨S100000x1, V (Proc.devRef .tc main_v24)⟩]
        concatenates_S100000x1_S100000x1_S100000x2_d1 := by
  after_results

end Stretch

/-! ## The three relation weights read transposed, and the projected tables the two first launches leave -/

theorem W1_v0 (c : Dev nD) : W1 m ρ c (Proc.devRef .tc main_v0) = Cert.Sage.tr (m ((c : Thread nD τ).loc main_arg2)) := run0_v0 (W0 m ρ c)
theorem W1_v1 (c : Dev nD) : W1 m ρ c (Proc.devRef .tc main_v1) = Cert.Sage.tr (m ((c : Thread nD τ).loc main_arg3)) := run0_v1 (W0 m ρ c)
theorem W3_v3 (c : Dev nD) : W3 m ρ c (Proc.devRef .tc main_v3) = Cert.Sage.tr (m ((c : Thread nD τ).loc main_arg4)) :=
  (run1_v3 (W2 m ρ c)).trans (congrArg Cert.Sage.tr (quiet2 m ρ c main_arg4 (by decide)))

/-- The first launch leaves every row of the first table projected by the first relation's weight… -/
theorem W2_v2_0 (c : Dev nD) :
    W2 m ρ c (Proc.devRef .tc main_v2_0) = Cert.Sage.projArr (m ((c : Thread nD τ).loc main_arg0)) (Cert.Sage.tr (m ((c : Thread nD τ).loc main_arg2))) :=
  (W2_arr m ρ c 3).trans ((RegVal.arr0_3 (V1 m ρ) c).trans (by
    rw [show V1 m ρ c main_arg0 = (m ((c : Thread nD τ).loc main_arg0)) from W1_arg0 m ρ c,
      show V1 m ρ c main_v0 = Cert.Sage.tr (m ((c : Thread nD τ).loc main_arg2)) from W1_v0 m ρ c]))
/-- … and by the second relation's weight. -/
theorem W2_v2_1 (c : Dev nD) :
    W2 m ρ c (Proc.devRef .tc main_v2_1) = Cert.Sage.projArr (m ((c : Thread nD τ).loc main_arg0)) (Cert.Sage.tr (m ((c : Thread nD τ).loc main_arg3))) :=
  (W2_arr m ρ c 4).trans ((RegVal.arr0_4 (V1 m ρ) c).trans (by
    rw [show V1 m ρ c main_arg0 = (m ((c : Thread nD τ).loc main_arg0)) from W1_arg0 m ρ c,
      show V1 m ρ c main_v1 = Cert.Sage.tr (m ((c : Thread nD τ).loc main_arg3)) from W1_v1 m ρ c]))
/-- The second launch leaves every row of the second table projected by the third relation's weight. -/
theorem W4_v4 (c : Dev nD) :
    W4 m ρ c (Proc.devRef .tc main_v4) = Cert.Sage.projArr (m ((c : Thread nD τ).loc main_arg1)) (Cert.Sage.tr (m ((c : Thread nD τ).loc main_arg4))) :=
  (W4_arr m ρ c 2).trans ((RegVal.arr1_2 (V3 m ρ) c).trans (by
    rw [show V3 m ρ c main_arg1 = (m ((c : Thread nD τ).loc main_arg1)) from W3_arg1 m ρ c,
      show V3 m ρ c main_v3 = Cert.Sage.tr (m ((c : Thread nD τ).loc main_arg4)) from W3_v3 m ρ c]))
theorem W4_v2_0 (c : Dev nD) :
    W4 m ρ c (Proc.devRef .tc main_v2_0) = Cert.Sage.projArr (m ((c : Thread nD τ).loc main_arg0)) (Cert.Sage.tr (m ((c : Thread nD τ).loc main_arg2))) :=
  (W4_of_ne m ρ c main_v2_0 (by decide)).trans ((keep1 m ρ c _ (by decide)).trans (W2_v2_0 m ρ c))
theorem W4_v2_1 (c : Dev nD) :
    W4 m ρ c (Proc.devRef .tc main_v2_1) = Cert.Sage.projArr (m ((c : Thread nD τ).loc main_arg0)) (Cert.Sage.tr (m ((c : Thread nD τ).loc main_arg3))) :=
  (W4_of_ne m ρ c main_v2_1 (by decide)).trans ((keep1 m ρ c _ (by decide)).trans (W2_v2_1 m ρ c))

/-! ## Relation 1: rows of the first projected table gathered at the source indices and summed into the first table's nodes -/

theorem W5_v5 (c : Dev nD) (h13 : InRange (m ((c : Thread nD τ).loc main_arg13)) 100000#32) :
    W5 m ρ c (Proc.devRef .tc main_v5)
      = Cert.Sage.rows800 (Cert.Sage.projArr (m ((c : Thread nD τ).loc main_arg0)) (Cert.Sage.tr (m ((c : Thread nD τ).loc main_arg2)))) (m ((c : Thread nD τ).loc main_arg13)) := by
  have h := run2_v5 (W4 m ρ c)
  rw [W4_v2_0 m ρ c, quiet4 m ρ c main_arg13 (by decide)] at h
  exact h.trans (Cert.Sage.take800_eq _ _ h13)
theorem W6_v8 (c : Dev nD) (h13 : InRange (m ((c : Thread nD τ).loc main_arg13)) 100000#32) :
    W6 m ρ c (Proc.devRef .tc main_v8) = Cert.Sage.sDD (m ((c : Thread nD τ).loc main_arg0)) (m ((c : Thread nD τ).loc main_arg2)) (m ((c : Thread nD τ).loc main_arg13)) (m ((c : Thread nD τ).loc main_arg14)) := by
  have h := run2_1_v8 (W5 m ρ c)
  rw [W5_v5 m ρ c h13, quiet5 m ρ c main_arg14 (by decide)] at h
  unfold Cert.Sage.sDD
  exact h

/-! ## Relation 3: rows of the second projected table, summed into the first table's nodes -/

theorem W7_v15 (c : Dev nD) (h17 : InRange (m ((c : Thread nD τ).loc main_arg17)) 50000#32) :
    W7 m ρ c (Proc.devRef .tc main_v15)
      = Cert.Sage.rows600p (Cert.Sage.projArr (m ((c : Thread nD τ).loc main_arg1)) (Cert.Sage.tr (m ((c : Thread nD τ).loc main_arg4)))) (m ((c : Thread nD τ).loc main_arg17)) := by
  have h := run2_2_v15 (W6 m ρ c)
  rw [(keep2_1 m ρ c main_v4 (by decide)).trans ((keep2 m ρ c main_v4 (by decide)).trans (W4_v4 m ρ c)),
    quiet6 m ρ c main_arg17 (by decide)] at h
  exact h.trans (Cert.Sage.take600p_eq _ _ h17)
theorem W8_v18 (c : Dev nD) (h17 : InRange (m ((c : Thread nD τ).loc main_arg17)) 50000#32) :
    W8 m ρ c (Proc.devRef .tc main_v18) = Cert.Sage.sPD (m ((c : Thread nD τ).loc main_arg1)) (m ((c : Thread nD τ).loc main_arg4)) (m ((c : Thread nD τ).loc main_arg17)) (m ((c : Thread nD τ).loc main_arg18)) := by
  have h := run2_3_v18 (W7 m ρ c)
  rw [W7_v15 m ρ c h17, quiet7 m ρ c main_arg18 (by decide)] at h
  unfold Cert.Sage.sPD
  exact h

/-! ## Relation 2: rows of the first table projected by the second weight, summed into the second table's nodes -/

theorem W9_v25 (c : Dev nD) (h15 : InRange (m ((c : Thread nD τ).loc main_arg15)) 100000#32) :
    W9 m ρ c (Proc.devRef .tc main_v25)
      = Cert.Sage.rows600d (Cert.Sage.projArr (m ((c : Thread nD τ).loc main_arg0)) (Cert.Sage.tr (m ((c : Thread nD τ).loc main_arg3)))) (m ((c : Thread nD τ).loc main_arg15)) := by
  have h := run2_4_v25 (W8 m ρ c)
  rw [(keep2_3 m ρ c main_v2_1 (by decide)).trans ((keep2_2 m ρ c main_v2_1 (by decide)).trans
      ((keep2_1 m ρ c main_v2_1 (by decide)).trans ((keep2 m ρ c main_v2_1 (by decide)).trans (W4_v2_1 m ρ c)))),
    quiet8 m ρ c main_arg15 (by decide)] at h
  exact h.trans (Cert.Sage.take600d_eq _ _ h15)

/-! ## The edge counts -/

theorem W9_v14 (c : Dev nD) :
    W9 m ρ c (Proc.devRef .tc main_v14) = shapeCast S100000x1 (Cert.Sage.cnt800 (m ((c : Thread nD τ).loc main_arg14))) shapeCasts_S100000_S100000x1 := by
  have h := run2_1_v14 (W5 m ρ c)
  rw [quiet5 m ρ c main_arg14 (by decide)] at h
  exact (keep2_4 m ρ c main_v14 (by decide)).trans ((keep2_3 m ρ c main_v14 (by decide)).trans
    ((keep2_2 m ρ c main_v14 (by decide)).trans h))
theorem W9_v24 (c : Dev nD) :
    W9 m ρ c (Proc.devRef .tc main_v24) = shapeCast S100000x1 (Cert.Sage.cnt600d (m ((c : Thread nD τ).loc main_arg18))) shapeCasts_S100000_S100000x1 := by
  have h := run2_3_v24 (W7 m ρ c)
  rw [quiet7 m ρ c main_arg18 (by decide)] at h
  exact (keep2_4 m ρ c main_v24 (by decide)).trans h

/-! ## What the third launch finds -/

/-- The first table is untouched up to the third launch. -/
theorem W10_arg0 (c : Dev nD) : W10 m ρ c (Proc.devRef .tc main_arg0) = (m ((c : Thread nD τ).loc main_arg0)) :=
  (keep_4_10 m ρ c _ (by decide) (by decide) (by decide) (by decide) (by decide) (by decide)).trans (W4_arg0 m ρ c)
/-- The second table is untouched up to the third launch. -/
theorem W10_arg1 (c : Dev nD) : W10 m ρ c (Proc.devRef .tc main_arg1) = (m ((c : Thread nD τ).loc main_arg1)) :=
  (keep_4_10 m ρ c _ (by decide) (by decide) (by decide) (by decide) (by decide) (by decide)).trans (W4_arg1 m ρ c)

/-- Relation 1 (first table → first table): the summed projected rows. -/
theorem W10_v8 (c : Dev nD) (h13 : InRange (m ((c : Thread nD τ).loc main_arg13)) 100000#32) :
    W10 m ρ c (Proc.devRef .tc main_v8) = Cert.Sage.sDD (m ((c : Thread nD τ).loc main_arg0)) (m ((c : Thread nD τ).loc main_arg2)) (m ((c : Thread nD τ).loc main_arg13)) (m ((c : Thread nD τ).loc main_arg14)) :=
  (keep2_5 m ρ c main_v8 (by decide)).trans ((keep2_4 m ρ c main_v8 (by decide)).trans ((keep2_3 m ρ c main_v8 (by decide)).trans
    ((keep2_2 m ρ c main_v8 (by decide)).trans (W6_v8 m ρ c h13))))
/-- Relation 3 (second table → first table): the summed projected rows. -/
theorem W10_v18 (c : Dev nD) (h17 : InRange (m ((c : Thread nD τ).loc main_arg17)) 50000#32) :
    W10 m ρ c (Proc.devRef .tc main_v18) = Cert.Sage.sPD (m ((c : Thread nD τ).loc main_arg1)) (m ((c : Thread nD τ).loc main_arg4)) (m ((c : Thread nD τ).loc main_arg17)) (m ((c : Thread nD τ).loc main_arg18)) :=
  (keep2_5 m ρ c main_v18 (by decide)).trans ((keep2_4 m ρ c main_v18 (by decide)).trans (W8_v18 m ρ c h17))
/-- Relation 2 (first table → second table): the summed projected rows. -/
theorem W10_v28 (c : Dev nD) (h15 : InRange (m ((c : Thread nD τ).loc main_arg15)) 100000#32) :
    W10 m ρ c (Proc.devRef .tc main_v28) = Cert.Sage.sDP (m ((c : Thread nD τ).loc main_arg0)) (m ((c : Thread nD τ).loc main_arg3)) (m ((c : Thread nD τ).loc main_arg15)) (m ((c : Thread nD τ).loc main_arg16)) := by
  have h := run2_5_v28 (W9 m ρ c)
  rw [W9_v25 m ρ c h15, quiet9 m ρ c main_arg16 (by decide)] at h
  unfold Cert.Sage.sDP
  exact h
/-- The two edge counts of every first-table node, side by side. -/
theorem W10_v42 (c : Dev nD) :
    W10 m ρ c (Proc.devRef .tc main_v42) = Cert.Sage.cnt2 (Cert.Sage.cnt800 (m ((c : Thread nD τ).loc main_arg14))) (Cert.Sage.cnt600d (m ((c : Thread nD τ).loc main_arg18))) := by
  have h := run2_5_v42 (W9 m ρ c)
  rw [W9_v14 m ρ c, W9_v24 m ρ c] at h
  unfold Cert.Sage.cnt2
  exact h
/-- The edge count of every second-table node, as a one-column table. -/
theorem W10_v34 (c : Dev nD) :
    W10 m ρ c (Proc.devRef .tc main_v34) = shapeCast S50000x1 (Cert.Sage.cnt600p (m ((c : Thread nD τ).loc main_arg16))) shapeCasts_S50000_S50000x1 := by
  have h := run2_5_v34 (W9 m ρ c)
  rw [quiet9 m ρ c main_arg16 (by decide)] at h
  exact h
/-- The first table's update weight, halves transposed; its bias, scale and shift as one-row tables. -/
theorem W10_v36 (c : Dev nD) : W10 m ρ c (Proc.devRef .tc main_v36) = Cert.Sage.trL (m ((c : Thread nD τ).loc main_arg5)) :=
  (run2_5_v36 (W9 m ρ c)).trans (congrArg Cert.Sage.trL (quiet9 m ρ c main_arg5 (by decide)))
theorem W10_v38 (c : Dev nD) : W10 m ρ c (Proc.devRef .tc main_v38) = Cert.Sage.trR (m ((c : Thread nD τ).loc main_arg5)) :=
  (run2_5_v38 (W9 m ρ c)).trans (congrArg Cert.Sage.trR (quiet9 m ρ c main_arg5 (by decide)))
theorem W10_v39 (c : Dev nD) : W10 m ρ c (Proc.devRef .tc main_v39) = Cert.Sage.asRow (m ((c : Thread nD τ).loc main_arg6)) :=
  (run2_5_v39 (W9 m ρ c)).trans (congrArg Cert.Sage.asRow (quiet9 m ρ c main_arg6 (by decide)))
theorem W10_v40 (c : Dev nD) : W10 m ρ c (Proc.devRef .tc main_v40) = Cert.Sage.asRow (m ((c : Thread nD τ).loc main_arg9)) :=
  (run2_5_v40 (W9 m ρ c)).trans (congrArg Cert.Sage.asRow (quiet9 m ρ c main_arg9 (by decide)))
theorem W10_v41 (c : Dev nD) : W10 m ρ c (Proc.devRef .tc main_v41) = Cert.Sage.asRow (m ((c : Thread nD τ).loc main_arg10)) :=
  (run2_5_v41 (W9 m ρ c)).trans (congrArg Cert.Sage.asRow (quiet9 m ρ c main_arg10 (by decide)))
/-- The second table's update inputs among the arguments are untouched up to the third launch. -/
theorem W10_arg7 (c : Dev nD) : W10 m ρ c (Proc.devRef .tc main_arg7) = (m ((c : Thread nD τ).loc main_arg7)) :=
  quiet10 m ρ c _ (by decide)
theorem W10_arg8 (c : Dev nD) : W10 m ρ c (Proc.devRef .tc main_arg8) = (m ((c : Thread nD τ).loc main_arg8)) :=
  quiet10 m ρ c _ (by decide)
theorem W10_arg11 (c : Dev nD) : W10 m ρ c (Proc.devRef .tc main_arg11) = (m ((c : Thread nD τ).loc main_arg11)) :=
  quiet10 m ρ c _ (by decide)
theorem W10_arg12 (c : Dev nD) : W10 m ρ c (Proc.devRef .tc main_arg12) = (m ((c : Thread nD τ).loc main_arg12)) :=
  quiet10 m ρ c _ (by decide)

end Cert.KernelIdeal.KVal

end
-- ==== Proof.RegUpd2.lean ====
/-
  The update launch of the first node table (fed by two relations), read as a whole array.
  Each grid point stages 5000 rows of the table, of the two summed-message tables and of the two-column count table,
  and the whole weights, bias, scale and shift; row by row it averages the two means, applies the update and
  normalises. The blocks tile the table, so the array the launch leaves is every row updated.
-/
import proofs.«422673_j24180665876652_3_alg».proof.Proof.Gen.KernelIdeal.Frame
import proofs.«422673_j24180665876652_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

-- the TensorCore's buffer contents when the region is entered
variable (V : (c : Dev nD) → (b : Ref sig .tc) → Buf (Elt Ideal) ((c : Thread nD τ).loc b))

namespace Upd2

/-! ## A block times a weight, entry by entry -/

theorem mm_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem mm_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem mm_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem mm_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of a 5000 x 128 block times a 128 x 128 weight, accumulated into zeros: row p against column q. -/
theorem mm_apply (a : FVec Ideal S5000x128 .f32) (w : FVec Ideal S128x128 .f32) (p : Fin 5000) (q : Fin 128) :
    matmul dot_S5000x128_S128x128_S5000x128_1_0_0_1_n_n none a w (constant S5000x128 .f32 0x00000000#32) (ix2 p q)
      = ∑ k : Fin 128, a (ix2 p k) * w (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun ax => Fin.ext (by
    match ax with
    | ⟨0, _⟩ => exact mm_lhs_0 _ _
    | ⟨1, _⟩ => exact (mm_lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun ax => Fin.ext (by
    match ax with
    | ⟨0, _⟩ => exact (mm_rhs_0 _ _).trans hk
    | ⟨1, _⟩ => exact mm_rhs_1 _ _)
  rw [el, er]

/-! ## Layout steps read at an entry -/

/-- A column broadcast along the lanes reads, at (p, k), the column at p. -/
theorem bcast_col_apply {α : Type} {a b : ℕ} (v : (⟨2, ![a, 1]⟩ : Shape).Idx → α) (h : (⟨2, ![a, 1]⟩ : Shape).Broadcasts ⟨2, ![a, b]⟩)
    (p : Fin a) (k : Fin b) : broadcastTo ⟨2, ![a, b]⟩ v h (ix2 p k) = v (ix2 p (0 : Fin 1)) := by
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

/-- The first count column. -/
theorem cnt0_apply (x3 : FVec Ideal S5000x2 .f32) (p : Fin 5000) :
    extractStridedSlice S5000x1 ![0, 0] x3 slices_S5000x2_o0_0_S5000x1 (ix2 p (0 : Fin 1)) = x3 (ix2 p (0 : Fin 2)) :=
  slice2_axis1_apply 0 x3 slices_S5000x2_o0_0_S5000x1 p (0 : Fin 1) (0 : Fin 2) rfl

/-- The second count column. -/
theorem cnt1_apply (x3 : FVec Ideal S5000x2 .f32) (p : Fin 5000) :
    extractStridedSlice S5000x1 ![0, 1] x3 slices_S5000x2_o0_1_S5000x1 (ix2 p (0 : Fin 1)) = x3 (ix2 p (1 : Fin 2)) :=
  slice2_axis1_apply 1 x3 slices_S5000x2_o0_1_S5000x1 p (0 : Fin 1) (1 : Fin 2) rfl

/-- The inverse square root of a column, entry by entry. -/
theorem rsqrtf_apply {s : Shape} {φ : FTy} (a : FVec Ideal s φ) (i : s.Idx) : rsqrt a i = Ideal.rsqrt (a i) := rfl

/-- The lane sum of a block, as a column: at p, the sum of row p. -/
theorem lanesum_apply (h : FVec Ideal S5000x128 .f32) (p : Fin 5000) :
    shapeCast S5000x1 (multiReduction .add [1] S5000 h 0x00000000#32 reduces_S5000x128_S5000 (.inl rfl) rfl) shapeCasts_S5000_S5000x1 (ix2 p (0 : Fin 1))
      = ∑ k : Fin 128, h (ix2 p k) := by
  refine (shapeCast_apply _ shapeCasts_S5000_S5000x1 (ix2 p (0 : Fin 1)) (ix1 p) ?_).trans ?_
  · rw [Shape.rowMajor_val_two, Shape.rowMajor_val_one]
    show p.val = p.val * 1 + 0
    omega
  · refine (Ideal.multiReduction_add_single h 0x00000000#32 reduces_S5000x128_S5000 (.inl rfl) rfl (ix1 p)).trans ?_
    refine Finset.sum_congr rfl fun k _ => congrArg h (funext fun c => Fin.ext ?_)
    match c with
    | ⟨0, _⟩ => rw [Shape.Reduces.lift_val]; simp [Shape.Reduces.liftVal]
    | ⟨1, _⟩ => rw [Shape.Reduces.lift_val]; simp [Shape.Reduces.liftVal]

/-! ## The body's arithmetic, entry by entry -/

/-- Entry (p, q) of the row before normalisation: the two means averaged, the two halves of the update weight, the
    bias, the rectifier and the residual, on row p. -/
theorem pre_apply (x0 : Vec Ideal S5000x128 .f32) (x3 : Vec Ideal S5000x2 .f32) (x1 x2 : Vec Ideal S5000x128 .f32)
    (x4 x5 : Vec Ideal S128x128 .f32) (x6 : Vec Ideal S1x128 .f32) (p : Fin 5000) (q : Fin 128) :
    k2_pay2 (F := Ideal) x0 x3 x1 x2 x4 x5 x6 (ix2 p q)
      = Cert.Sage.pre (Cert.Sage.rowOf x0 p)
          (Cert.Sage.mean2 (Cert.Sage.rowOf x1 p) (Cert.Sage.rowOf x2 p) (x3 (ix2 p (0 : Fin 2))) (x3 (ix2 p (1 : Fin 2))))
          (Cert.Sage.matOf x4) (Cert.Sage.matOf x5) (Cert.Sage.row1 x6) q := by
  unfold k2_pay2
  simp only [shapeCast_self]
  rw [addf_apply, maximumf_apply, addf_apply, addf_apply, broadcast_apply, mm_apply, mm_apply, broadcastTo_1b_ab_apply]
  simp only [mulf_apply, addf_apply, divf_apply, maximumf_apply, broadcast_apply, bcast_col_apply, cnt0_apply, cnt1_apply]
  rfl

/-- The lane sum of that row, as a column. -/
theorem presum_apply (x0 : Vec Ideal S5000x128 .f32) (x3 : Vec Ideal S5000x2 .f32) (x1 x2 : Vec Ideal S5000x128 .f32)
    (x4 x5 : Vec Ideal S128x128 .f32) (x6 : Vec Ideal S1x128 .f32) (p : Fin 5000) :
    k2_pay3 (F := Ideal) x0 x3 x1 x2 x4 x5 x6 (ix2 p (0 : Fin 1))
      = ∑ k : Fin 128, k2_pay2 (F := Ideal) x0 x3 x1 x2 x4 x5 x6 (ix2 p k) := by
  unfold k2_pay3
  exact lanesum_apply _ p

/-- The feature count as a column. -/
theorem cnt128_apply (p : Fin 5000) : k2_pay4 (F := Ideal) (ix2 p (0 : Fin 1)) = Cert.Sage.w128 := rfl

/-- Entry (p, q) of the normalised row, given that the column s holds the row's lane sums and c the feature count. -/
theorem norm_apply (h : FVec Ideal S5000x128 .f32) (s c : FVec Ideal S5000x1 .f32) (g be : Vec Ideal S1x128 .f32)
    (p : Fin 5000) (q : Fin 128)
    (hs : s (ix2 p (0 : Fin 1)) = ∑ k : Fin 128, h (ix2 p k)) (hc : c (ix2 p (0 : Fin 1)) = Cert.Sage.w128) :
    k2_pay1 (F := Ideal) h s c g be (ix2 p q)
      = Cert.Sage.norm (fun k => h (ix2 p k)) (Cert.Sage.row1 g) (Cert.Sage.row1 be) q := by
  unfold k2_pay1
  simp only [shapeCast_self]
  rw [addf_apply, mulf_apply, mulf_apply, subf_apply, broadcastTo_1b_ab_apply, broadcastTo_1b_ab_apply, bcast_col_apply, bcast_col_apply,
    rsqrtf_apply, addf_apply, divf_apply, divf_apply, broadcast_apply, broadcast_apply, lanesum_apply, hs, hc]
  simp only [mulf_apply, subf_apply, divf_apply, bcast_col_apply, hs, hc]
  rfl

/-- One row updated, entry (p, q), from the blocks the body loads. -/
theorem upd_apply (x0 x1 x2 : Vec Ideal S5000x128 .f32) (x3 : Vec Ideal S5000x2 .f32) (x4 x5 : Vec Ideal S128x128 .f32)
    (x6 x7 x8 : Vec Ideal S1x128 .f32) (p : Fin 5000) (q : Fin 128) :
    k2_pay1 (F := Ideal) (k2_pay2 x0 x3 x1 x2 x4 x5 x6) (k2_pay3 x0 x3 x1 x2 x4 x5 x6) (k2_pay4 (F := Ideal)) x7 x8 (ix2 p q)
      = Cert.Sage.upd (Cert.Sage.rowOf x0 p)
          (Cert.Sage.mean2 (Cert.Sage.rowOf x1 p) (Cert.Sage.rowOf x2 p) (x3 (ix2 p (0 : Fin 2))) (x3 (ix2 p (1 : Fin 2))))
          (Cert.Sage.matOf x4) (Cert.Sage.matOf x5) (Cert.Sage.row1 x6) (Cert.Sage.row1 x7) (Cert.Sage.row1 x8) q := by
  rw [norm_apply _ _ _ x7 x8 p q (presum_apply x0 x3 x1 x2 x4 x5 x6 p) (cnt128_apply p)]
  unfold Cert.Sage.upd
  exact congrArg (fun h => Cert.Sage.norm h (Cert.Sage.row1 x7) (Cert.Sage.row1 x8) q)
    (funext fun k => pre_apply x0 x3 x1 x2 x4 x5 x6 p k)

/-! ## From blocks to the table -/

theorem zero_offsets : (![0, 0] : Fin 2 → Nat) = fun _ => 0 := funext fun a => by fin_cases a <;> rfl

/-- The index maps, decided over the grid: point t stages row block t of the four row-blocked inputs and of the
    output, and the whole of the weights, bias, scale and shift. -/
theorem block_index : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = t.val ∧ win2_9.index t (1 : Fin 2) = 0) :=
  (by decide +kernel : ∀ t : Fin grid2.N, _)

/-- Row p of the own-feature block at point t is row 5000 t + p of the table. -/
theorem own_row (c : Dev nD) (t : Fin cfg2.N) (p : Fin 5000) (r : Fin 100000) (hr : r.val = 5000 * t.val + p.val) :
    Cert.Sage.rowOf (iblk2 V c 0 t) p = Cert.Sage.rowOf (V c main_arg0) r := by
  obtain ⟨⟨e0, e1⟩, -⟩ := block_index t
  funext k
  show V c main_arg0 (((cfg2.win 0).blk t).view.emb (ix2 p k)) = V c main_arg0 (ix2 r k)
  refine congrArg _ (funext fun a => Fin.ext ?_)
  match a with
  | ⟨0, _⟩ => show win2_0.index t (0 : Fin 2) * 5000 + 1 * p.val = r.val; omega
  | ⟨1, _⟩ => show win2_0.index t (1 : Fin 2) * 128 + 1 * k.val = k.val; omega

/-- Row p of the first summed-message block at point t is row 5000 t + p of its table. -/
theorem sum1_row (c : Dev nD) (t : Fin cfg2.N) (p : Fin 5000) (r : Fin 100000) (hr : r.val = 5000 * t.val + p.val) :
    Cert.Sage.rowOf (iblk2 V c 1 t) p = Cert.Sage.rowOf (V c main_v8) r := by
  obtain ⟨-, ⟨e0, e1⟩, -⟩ := block_index t
  funext k
  show V c main_v8 (((cfg2.win 1).blk t).view.emb (ix2 p k)) = V c main_v8 (ix2 r k)
  refine congrArg _ (funext fun a => Fin.ext ?_)
  match a with
  | ⟨0, _⟩ => show win2_1.index t (0 : Fin 2) * 5000 + 1 * p.val = r.val; omega
  | ⟨1, _⟩ => show win2_1.index t (1 : Fin 2) * 128 + 1 * k.val = k.val; omega

/-- Row p of the second summed-message block at point t is row 5000 t + p of its table. -/
theorem sum2_row (c : Dev nD) (t : Fin cfg2.N) (p : Fin 5000) (r : Fin 100000) (hr : r.val = 5000 * t.val + p.val) :
    Cert.Sage.rowOf (iblk2 V c 2 t) p = Cert.Sage.rowOf (V c main_v18) r := by
  obtain ⟨-, -, ⟨e0, e1⟩, -⟩ := block_index t
  funext k
  show V c main_v18 (((cfg2.win 2).blk t).view.emb (ix2 p k)) = V c main_v18 (ix2 r k)
  refine congrArg _ (funext fun a => Fin.ext ?_)
  match a with
  | ⟨0, _⟩ => show win2_2.index t (0 : Fin 2) * 5000 + 1 * p.val = r.val; omega
  | ⟨1, _⟩ => show win2_2.index t (1 : Fin 2) * 128 + 1 * k.val = k.val; omega

/-- Row p of the count block at point t is row 5000 t + p of the two-column count table. -/
theorem count_row (c : Dev nD) (t : Fin cfg2.N) (p : Fin 5000) (r : Fin 100000) (hr : r.val = 5000 * t.val + p.val) (k : Fin 2) :
    (iblk2 V c 3 t : Vec Ideal S5000x2 .f32) (ix2 p k) = (V c main_v42 : S100000x2.Idx → EReal) (ix2 r k) := by
  obtain ⟨-, -, -, ⟨e0, e1⟩, -⟩ := block_index t
  show V c main_v42 (((cfg2.win 3).blk t).view.emb (ix2 p k)) = V c main_v42 (ix2 r k)
  refine congrArg _ (funext fun a => Fin.ext ?_)
  match a with
  | ⟨0, _⟩ => show win2_3.index t (0 : Fin 2) * 5000 + 1 * p.val = r.val; omega
  | ⟨1, _⟩ => show win2_3.index t (1 : Fin 2) * 2 + 1 * k.val = k.val; omega

/-- Every point stages the whole own-feature half of the update weight. -/
theorem weight_own (c : Dev nD) (t : Fin cfg2.N) : (iblk2 V c 4 t : Vec Ideal S128x128 .f32) = V c main_v36 := by
  obtain ⟨-, -, -, -, ⟨e0, e1⟩, -⟩ := block_index t
  funext y
  show V c main_v36 (((cfg2.win 4).blk t).view.emb y) = V c main_v36 y
  refine congrArg _ (funext fun a => Fin.ext ?_)
  match a with
  | ⟨0, _⟩ => show win2_4.index t (0 : Fin 2) * 128 + 1 * (y 0).val = (y 0).val; omega
  | ⟨1, _⟩ => show win2_4.index t (1 : Fin 2) * 128 + 1 * (y 1).val = (y 1).val; omega

/-- Every point stages the whole aggregated-feature half of the update weight. -/
theorem weight_agg (c : Dev nD) (t : Fin cfg2.N) : (iblk2 V c 5 t : Vec Ideal S128x128 .f32) = V c main_v38 := by
  obtain ⟨-, -, -, -, -, ⟨e0, e1⟩, -⟩ := block_index t
  funext y
  show V c main_v38 (((cfg2.win 5).blk t).view.emb y) = V c main_v38 y
  refine congrArg _ (funext fun a => Fin.ext ?_)
  match a with
  | ⟨0, _⟩ => show win2_5.index t (0 : Fin 2) * 128 + 1 * (y 0).val = (y 0).val; omega
  | ⟨1, _⟩ => show win2_5.index t (1 : Fin 2) * 128 + 1 * (y 1).val = (y 1).val; omega

/-- Every point stages the whole bias row. -/
theorem bias_row (c : Dev nD) (t : Fin cfg2.N) : (iblk2 V c 6 t : Vec Ideal S1x128 .f32) = V c main_v39 := by
  obtain ⟨-, -, -, -, -, -, ⟨e0, e1⟩, -⟩ := block_index t
  funext y
  show V c main_v39 (((cfg2.win 6).blk t).view.emb y) = V c main_v39 y
  refine congrArg _ (funext fun a => Fin.ext ?_)
  match a with
  | ⟨0, _⟩ => show win2_6.index t (0 : Fin 2) * 1 + 1 * (y 0).val = (y 0).val; omega
  | ⟨1, _⟩ => show win2_6.index t (1 : Fin 2) * 128 + 1 * (y 1).val = (y 1).val; omega

/-- Every point stages the whole scale row. -/
theorem scale_row (c : Dev nD) (t : Fin cfg2.N) : (iblk2 V c 7 t : Vec Ideal S1x128 .f32) = V c main_v40 := by
  obtain ⟨-, -, -, -, -, -, -, ⟨e0, e1⟩, -⟩ := block_index t
  funext y
  show V c main_v40 (((cfg2.win 7).blk t).view.emb y) = V c main_v40 y
  refine congrArg _ (funext fun a => Fin.ext ?_)
  match a with
  | ⟨0, _⟩ => show win2_7.index t (0 : Fin 2) * 1 + 1 * (y 0).val = (y 0).val; omega
  | ⟨1, _⟩ => show win2_7.index t (1 : Fin 2) * 128 + 1 * (y 1).val = (y 1).val; omega

/-- Every point stages the whole shift row. -/
theorem shift_row (c : Dev nD) (t : Fin cfg2.N) : (iblk2 V c 8 t : Vec Ideal S1x128 .f32) = V c main_v41 := by
  obtain ⟨-, -, -, -, -, -, -, -, ⟨e0, e1⟩, -⟩ := block_index t
  funext y
  show V c main_v41 (((cfg2.win 8).blk t).view.emb y) = V c main_v41 y
  refine congrArg _ (funext fun a => Fin.ext ?_)
  match a with
  | ⟨0, _⟩ => show win2_8.index t (0 : Fin 2) * 1 + 1 * (y 0).val = (y 0).val; omega
  | ⟨1, _⟩ => show win2_8.index t (1 : Fin 2) * 128 + 1 * (y 1).val = (y 1).val; omega

/-- A block of the output window, cut to its extent, is the restriction of a whole-table function as soon as its
    entry (p, q) is the function at row 5000 t + p. -/
theorem cut_eq_read (t : Fin cfg2.N) (P : Vec Ideal S5000x128 .f32) (G : S100000x128.Idx → EReal)
    (h : ∀ (p : Fin 5000) (q : Fin 128) (r : Fin 100000), r.val = 5000 * t.val + p.val → P (ix2 p q) = G (ix2 r q)) :
    (cfg2.win 9).cut (grid2.coords t) P = ((cfg2.win 9).blk t).view.read (Elt Ideal) G := by
  have ht : t.val < 20 := lt_of_lt_of_eq t.isLt N_2
  obtain ⟨-, -, -, -, -, -, -, -, -, ⟨e0, e1⟩⟩ := block_index t
  funext j
  obtain ⟨p, q, rfl⟩ : ∃ (p : Fin 5000) (q : Fin 128), j = ix2 p q := ⟨j 0, j 1, eq_ix2 j⟩
  have hemb : ((cfg2.win 9).blk t).view.emb (ix2 p q) = (ix2 (⟨5000 * t.val + p.val, by omega⟩ : Fin 100000) q : S100000x128.Idx) := by
    funext a; apply Fin.ext
    match a with
    | ⟨0, _⟩ => show win2_9.index t (0 : Fin 2) * 5000 + 1 * p.val = 5000 * t.val + p.val; omega
    | ⟨1, _⟩ => show win2_9.index t (1 : Fin 2) * 128 + 1 * q.val = q.val; omega
  show P (ix2 p q) = G (((cfg2.win 9).blk t).view.emb (ix2 p q))
  rw [hemb]
  exact h p q _ rfl

/-- What point t writes back is block t of the whole updated table. -/
theorem written_block (c : Dev nD) (t : Fin cfg2.N) :
    (dat2 V c).flushed 9 t = ((cfg2.win 9).blk t).view.read (Elt Ideal)
      (Cert.Sage.upd2Arr (V c main_arg0) (V c main_v8) (V c main_v18) (V c main_v42) (V c main_v36) (V c main_v38) (V c main_v39) (V c main_v40) (V c main_v41)) := by
  show (cfg2.win 9).cut (grid2.coords t) ((dat2 V c).after 9 t) = _
  rw [after2_9]
  unfold out2_9
  rw [View.canon_unit_zero zero_offsets]
  simp only [View.ld_unit_zero (S := S5000x128) zero_offsets, View.ld_unit_zero (S := S5000x2) zero_offsets,
    View.ld_unit_zero (S := S128x128) zero_offsets, View.ld_unit_zero (S := S1x128) zero_offsets]
  refine cut_eq_read t _ _ fun p q r hr => ?_
  rw [upd_apply (iblk2 V c 0 t) (iblk2 V c 1 t) (iblk2 V c 2 t) (iblk2 V c 3 t) (iblk2 V c 4 t) (iblk2 V c 5 t)
    (iblk2 V c 6 t) (iblk2 V c 7 t) (iblk2 V c 8 t) p q]
  rw [own_row V c t p r hr, sum1_row V c t p r hr, sum2_row V c t p r hr, count_row V c t p r hr 0, count_row V c t p r hr 1,
    weight_own V c t, weight_agg V c t, bias_row V c t, scale_row V c t, shift_row V c t]
  rfl

/-- A table index is in point t's block iff each coordinate is in the block's range on its axis. -/
theorem mem_block (t : Fin cfg2.N) (i : S100000x128.Idx) :
    i ∈ ((cfg2.win 9).blk t).view.set ↔ ∀ a : Fin 2, win2_9.index t a * S5000x128.size a ≤ (i a).val ∧ (i a).val < win2_9.index t a * S5000x128.size a + S5000x128.size a := by
  show i ∈ ((View.whole main_v43).slice (win2_9.rect t)).set ↔ _
  rw [View.set_slice_whole, Rect.mem_set_unit]
  exact Iff.rfl

/-- Every row of the table is in some point's block: row r in block r / 5000. -/
theorem covered (i : S100000x128.Idx) :
    ∃ t : Fin cfg2.N, (cfg2.win 9).flush t = true ∧ i ∈ ((cfg2.win 9).blk t).view.set := by
  have hi0 : (i 0).val < 100000 := (i 0).isLt
  have hi1 : (i 1).val < 128 := (i 1).isLt
  have hN : cfg2.N = 20 := N_2
  refine ⟨⟨(i 0).val / 5000, by rw [hN]; omega⟩, flush2_9 _, ?_⟩
  rw [mem_block]
  obtain ⟨-, -, -, -, -, -, -, -, -, ⟨e0, e1⟩⟩ := block_index ⟨(i 0).val / 5000, by rw [hN]; omega⟩
  intro a
  match a with
  | ⟨0, _⟩ =>
    show win2_9.index ⟨(i 0).val / 5000, _⟩ (0 : Fin 2) * 5000 ≤ (i 0).val ∧ (i 0).val < win2_9.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win2_9.index ⟨(i 0).val / 5000, _⟩ (1 : Fin 2) * 128 ≤ (i 1).val ∧ (i 1).val < win2_9.index ⟨(i 0).val / 5000, _⟩ (1 : Fin 2) * 128 + 128
    rw [e1]; omega

end Upd2

open Upd2

/-- Launch 2: every row of the first table updated from its own row, its two summed-message rows and its two counts. -/
theorem arr2_9 (c : Dev nD) : (dat2 V c).arrAt 9 cfg2.N
    = Cert.Sage.upd2Arr (V c main_arg0) (V c main_v8) (V c main_v18) (V c main_v42) (V c main_v36) (V c main_v38)
        (V c main_v39) (V c main_v40) (V c main_v41) :=
  (dat2 V c).arrAt_eq_of_cover 9 _ (fun t _ => written_block V c t) covered

end Cert.KernelIdeal.RegVal

end
-- ==== Proof.RegUpd1.lean ====
/-
  The update launch of the second node table (fed by one relation), read as a whole array.
  Each grid point stages 5000 rows of the table, of the summed-message table and of the one-column count table, and the
  whole weights, bias, scale and shift; row by row it takes the mean, applies the update and normalises. The blocks
  tile the table, so the array the launch leaves is every row updated.
-/
import proofs.«422673_j24180665876652_3_alg».proof.Proof.Gen.KernelIdeal.Frame
import proofs.«422673_j24180665876652_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

namespace Upd1

/-! ## Columns: a vector as a one-column array, and a one-column array laid along the lanes -/

section Layout
variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, q)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Layout

/-! ## The matrix product of a block of rows with a weight, entry by entry -/

theorem lhs_dot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_dot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_dot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_dot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry `(p, q)` of the product of a 5000 × 128 block with a 128 × 128 weight, accumulated into zero, is the sum over
    the shared feature `k` of the block's `(p, k)` times the weight's `(k, q)`. -/
theorem matmul_rows_apply (lhs : FVec Ideal S5000x128 .f32) (rhs : FVec Ideal S128x128 .f32) (p : Fin 5000) (q : Fin 128) :
    matmul dot_S5000x128_S128x128_S5000x128_1_0_0_1_n_n none lhs rhs (constant (F := Ideal) S5000x128 .f32 0x00000000#32) (ix2 p q)
      = ∑ k : Fin 128, lhs (ix2 p k) * rhs (ix2 k q) := by
  show FloatOps.matmul dot_S5000x128_S128x128_S5000x128_1_0_0_1_n_n none lhs rhs (constant (F := Ideal) S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-! ## A lane sum as a column -/

/-- The reduced index `p` with lane `k` put back is `(p, k)`. -/
theorem lift_row (h : S5000x128.Reduces [1] S5000) (p : Fin 5000) (k : Fin (S5000x128.size 1)) :
    h.lift (ix1 p) k = ix2 p (⟨k.val, k.isLt⟩ : Fin 128) := by
  funext c; apply Fin.ext
  fin_cases c <;> rfl

/-- The sum of a block along its lanes, kept as a column: entry `(p, u)` is the sum of row `p`. -/
theorem laneSum_apply (src : FVec Ideal S5000x128 .f32) (hacc : (0x00000000#32 : BitVec 32) = 0x00000000#32) (p : Fin 5000) (u : Fin 1) :
    shapeCast S5000x1 (multiReduction (F := Ideal) .add [1] S5000 src 0x00000000#32 reduces_S5000x128_S5000 (.inl rfl) hacc) shapeCasts_S5000_S5000x1 (ix2 p u)
      = ∑ k : Fin 128, src (ix2 p k) := by
  rw [shapeCast_a_a1_apply]
  refine (Ideal.multiReduction_add_single src 0x00000000#32 reduces_S5000x128_S5000 (.inl rfl) hacc (ix1 p)).trans ?_
  exact Finset.sum_congr rfl fun k _ => congrArg src (lift_row reduces_S5000x128_S5000 p k)

/-! ## The body's arithmetic, entry by entry -/

/-- The inverse square root of a vector, entry by entry. -/
theorem rsqrt_apply {s : Shape} {φ : FTy} (a : FVec Ideal s φ) (i : s.Idx) : rsqrt a i = Ideal.rsqrt (a i) := rfl

section Payload
variable (x0 x1 : Vec Ideal S5000x128 .f32) (x2 : Vec Ideal S5000x1 .f32) (x3 x4 : Vec Ideal S128x128 .f32)
  (x5 x6 x7 : Vec Ideal S1x128 .f32)

/-- The row before normalisation: row `p` of the block through the two weights, the aggregated row being the summed row
    divided by the count (at least one), plus the bias, rectified, plus the row itself. -/
theorem pre_apply (p : Fin 5000) (q : Fin 128) :
    k3_pay2 x0 x1 x2 x3 x4 x5 (ix2 p q)
      = Cert.Sage.pre (Cert.Sage.rowOf x0 p) (Cert.Sage.mean1 (Cert.Sage.rowOf x1 p) (x2 (ix2 p (0 : Fin 1))))
          (Cert.Sage.matOf x3) (Cert.Sage.matOf x4) (Cert.Sage.row1 x5) q := by
  unfold k3_pay2
  simp only [shapeCast_self, addf_apply, maximumf_apply, broadcast_apply, matmul_rows_apply, broadcastTo_1b_ab_apply,
    divf_apply, broadcastTo_a1_ab_apply]
  rfl

/-- The mean column: entry `(p, u)` is the mean of row `p` before normalisation. -/
theorem mean_apply (p : Fin 5000) (u : Fin 1) :
    k3_pay3 x0 x1 x2 x3 x4 x5 (ix2 p u) = Cert.Sage.mu (fun k => k3_pay2 x0 x1 x2 x3 x4 x5 (ix2 p k)) := by
  unfold k3_pay3
  simp only [divf_apply, broadcast_apply]
  rw [laneSum_apply]
  rfl

/-- The centred row: entry `(p, q)` is the row's entry less the row's mean. -/
theorem centred_apply (p : Fin 5000) (q : Fin 128) :
    k3_pay4 x0 x1 x2 x3 x4 x5 (ix2 p q)
      = k3_pay2 x0 x1 x2 x3 x4 x5 (ix2 p q) - Cert.Sage.mu (fun k => k3_pay2 x0 x1 x2 x3 x4 x5 (ix2 p k)) := by
  unfold k3_pay4
  simp only [subf_apply, broadcastTo_a1_ab_apply, mean_apply]

/-- The floored variance column: entry `(p, u)` is the variance of row `p` plus the floor. -/
theorem varEps_apply (p : Fin 5000) (u : Fin 1) :
    k3_pay5 x0 x1 x2 x3 x4 x5 (ix2 p u)
      = Cert.Sage.var (fun k => k3_pay2 x0 x1 x2 x3 x4 x5 (ix2 p k)) + Cert.Sage.wEps := by
  unfold k3_pay5
  simp only [addf_apply, divf_apply, broadcast_apply]
  rw [laneSum_apply]
  simp only [mulf_apply, subf_apply, broadcastTo_a1_ab_apply, mean_apply]
  rfl

/-- What the body stores: entry `(p, q)` of the block is the update of row `p` at feature `q`. -/
theorem out_apply (p : Fin 5000) (q : Fin 128) :
    k3_pay1 (k3_pay4 x0 x1 x2 x3 x4 x5) (k3_pay5 x0 x1 x2 x3 x4 x5) x6 x7 (ix2 p q)
      = Cert.Sage.upd (Cert.Sage.rowOf x0 p) (Cert.Sage.mean1 (Cert.Sage.rowOf x1 p) (x2 (ix2 p (0 : Fin 1))))
          (Cert.Sage.matOf x3) (Cert.Sage.matOf x4) (Cert.Sage.row1 x5) (Cert.Sage.row1 x6) (Cert.Sage.row1 x7) q := by
  have hrow : (fun k => k3_pay2 x0 x1 x2 x3 x4 x5 (ix2 p k))
      = Cert.Sage.pre (Cert.Sage.rowOf x0 p) (Cert.Sage.mean1 (Cert.Sage.rowOf x1 p) (x2 (ix2 p (0 : Fin 1))))
          (Cert.Sage.matOf x3) (Cert.Sage.matOf x4) (Cert.Sage.row1 x5) := funext fun k => pre_apply x0 x1 x2 x3 x4 x5 p k
  unfold k3_pay1
  simp only [addf_apply, mulf_apply, rsqrt_apply, broadcastTo_a1_ab_apply, broadcastTo_1b_ab_apply, shapeCast_self,
    centred_apply, varEps_apply]
  rw [hrow, pre_apply]
  rfl

end Payload

/-! ## The whole-array function at an index given by its coordinates -/

/-- Every row of the table updated, read at row `r` and feature `q`. -/
theorem upd1Arr_apply (x s : S50000x128.Idx → EReal) (cnt : S50000x1.Idx → EReal) (wh wa : S128x128.Idx → EReal)
    (b g be : S1x128.Idx → EReal) (i : S50000x128.Idx) (r : Fin 50000) (q : Fin 128)
    (h0 : (i 0).val = r.val) (h1 : (i 1).val = q.val) :
    Cert.Sage.upd1Arr x s cnt wh wa b g be i
      = Cert.Sage.upd (Cert.Sage.rowOf x r) (Cert.Sage.mean1 (Cert.Sage.rowOf s r) (cnt (ix2 r (0 : Fin 1))))
          (Cert.Sage.matOf wh) (Cert.Sage.matOf wa) (Cert.Sage.row1 b) (Cert.Sage.row1 g) (Cert.Sage.row1 be) q := by
  obtain rfl : i = ix2 r q := funext fun a => Fin.ext (by
    match a with
    | ⟨0, _⟩ => exact h0
    | ⟨1, _⟩ => exact h1)
  rfl

/-- The update of a row depends only on the rows, weights and feature it is given. -/
theorem upd_congr {x x' a a' : Cert.Sage.Row} {Wh Wh' Wa Wa' : Cert.Sage.Mat} {b b' g g' be be' : Cert.Sage.Row}
    (hx : x = x') (ha : a = a') (hWh : Wh = Wh') (hWa : Wa = Wa') (hb : b = b') (hg : g = g') (hbe : be = be') (q : Fin 128) :
    Cert.Sage.upd x a Wh Wa b g be q = Cert.Sage.upd x' a' Wh' Wa' b' g' be' q := by
  subst hx ha hWh hWa hb hg hbe; rfl

/-! ## From the blocks to the array -/

-- the buffer contents when the region is entered
variable (V : (c : Dev nD) → (b : Ref sig .tc) → Buf (Elt Ideal) ((c : Thread nD τ).loc b))

theorem zeroOffsets : (![0, 0] : Fin 2 → Nat) = fun _ => 0 := funext fun a => by fin_cases a <;> rfl

/-- The index maps, decided over the grid: the three row-blocked inputs and the output sit at block `t` of the rows at
    point `t`; the weights, bias, scale and shift are whole. -/
theorem blockIndices : ∀ t : Fin cfg3.N,
      (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0)
    ∧ (win3_8.index t (0 : Fin 2) = t.val ∧ win3_8.index t (1 : Fin 2) = 0) :=
  (by decide +kernel : ∀ t : Fin grid3.N, _)

/-- Row `p` of the table's block at point `t` is row `5000 t + p` of the table. -/
theorem rows_table (c : Dev nD) (t : Fin cfg3.N) (p : Fin 5000) (r : Fin 50000) (hr : r.val = 5000 * t.val + p.val) :
    Cert.Sage.rowOf (iblk3 V c 0 t : Vec Ideal S5000x128 .f32) p = Cert.Sage.rowOf (V c main_arg1 : S50000x128.Idx → EReal) r := by
  obtain ⟨⟨e0, e1⟩, -⟩ := blockIndices t
  funext k
  show (iblk3 V c 0 t : Vec Ideal S5000x128 .f32) (ix2 p k) = (V c main_arg1 : S50000x128.Idx → EReal) (ix2 r k)
  unfold iblk3
  rw [View.read_apply]
  show V c main_arg1 _ = V c main_arg1 _
  congr 1
  funext a
  apply Fin.ext
  match a with
  | ⟨0, _⟩ => show win3_0.index t (0 : Fin 2) * 5000 + 1 * p.val = r.val; rw [e0, hr]; omega
  | ⟨1, _⟩ => show win3_0.index t (1 : Fin 2) * 128 + 1 * k.val = k.val; rw [e1]; omega

/-- Row `p` of the summed-message block at point `t` is row `5000 t + p` of the summed-message table. -/
theorem rows_sums (c : Dev nD) (t : Fin cfg3.N) (p : Fin 5000) (r : Fin 50000) (hr : r.val = 5000 * t.val + p.val) :
    Cert.Sage.rowOf (iblk3 V c 1 t : Vec Ideal S5000x128 .f32) p = Cert.Sage.rowOf (V c main_v28 : S50000x128.Idx → EReal) r := by
  obtain ⟨-, ⟨e0, e1⟩, -⟩ := blockIndices t
  funext k
  show (iblk3 V c 1 t : Vec Ideal S5000x128 .f32) (ix2 p k) = (V c main_v28 : S50000x128.Idx → EReal) (ix2 r k)
  unfold iblk3
  rw [View.read_apply]
  show V c main_v28 _ = V c main_v28 _
  congr 1
  funext a
  apply Fin.ext
  match a with
  | ⟨0, _⟩ => show win3_1.index t (0 : Fin 2) * 5000 + 1 * p.val = r.val; rw [e0, hr]; omega
  | ⟨1, _⟩ => show win3_1.index t (1 : Fin 2) * 128 + 1 * k.val = k.val; rw [e1]; omega

/-- Entry `p` of the count block at point `t` is entry `5000 t + p` of the count table. -/
theorem rows_count (c : Dev nD) (t : Fin cfg3.N) (p : Fin 5000) (r : Fin 50000) (hr : r.val = 5000 * t.val + p.val) :
    (iblk3 V c 2 t : Vec Ideal S5000x1 .f32) (ix2 p (0 : Fin 1)) = (V c main_v34 : S50000x1.Idx → EReal) (ix2 r (0 : Fin 1)) := by
  obtain ⟨-, -, ⟨e0, e1⟩, -⟩ := blockIndices t
  unfold iblk3
  rw [View.read_apply]
  show V c main_v34 _ = V c main_v34 _
  congr 1
  funext a
  apply Fin.ext
  match a with
  | ⟨0, _⟩ => show win3_2.index t (0 : Fin 2) * 5000 + 1 * p.val = r.val; rw [e0, hr]; omega
  | ⟨1, _⟩ => show win3_2.index t (1 : Fin 2) * 1 + 1 * 0 = 0; rw [e1]

/-- The own-row weight is staged whole. -/
theorem whole_wh (c : Dev nD) (t : Fin cfg3.N) : (iblk3 V c 3 t : Vec Ideal S128x128 .f32) = (V c main_v45 : S128x128.Idx → EReal) := by
  obtain ⟨-, -, -, ⟨e0, e1⟩, -⟩ := blockIndices t
  funext y
  unfold iblk3
  rw [View.read_apply]
  show V c main_v45 _ = V c main_v45 y
  congr 1
  funext a
  apply Fin.ext
  match a with
  | ⟨0, _⟩ => show win3_3.index t (0 : Fin 2) * 128 + 1 * (y 0).val = (y 0).val; rw [e0]; omega
  | ⟨1, _⟩ => show win3_3.index t (1 : Fin 2) * 128 + 1 * (y 1).val = (y 1).val; rw [e1]; omega

/-- The aggregated-row weight is staged whole. -/
theorem whole_wa (c : Dev nD) (t : Fin cfg3.N) : (iblk3 V c 4 t : Vec Ideal S128x128 .f32) = (V c main_v47 : S128x128.Idx → EReal) := by
  obtain ⟨-, -, -, -, ⟨e0, e1⟩, -⟩ := blockIndices t
  funext y
  unfold iblk3
  rw [View.read_apply]
  show V c main_v47 _ = V c main_v47 y
  congr 1
  funext a
  apply Fin.ext
  match a with
  | ⟨0, _⟩ => show win3_4.index t (0 : Fin 2) * 128 + 1 * (y 0).val = (y 0).val; rw [e0]; omega
  | ⟨1, _⟩ => show win3_4.index t (1 : Fin 2) * 128 + 1 * (y 1).val = (y 1).val; rw [e1]; omega

/-- The bias is staged whole. -/
theorem whole_bias (c : Dev nD) (t : Fin cfg3.N) : (iblk3 V c 5 t : Vec Ideal S1x128 .f32) = (V c main_v48 : S1x128.Idx → EReal) := by
  obtain ⟨-, -, -, -, -, ⟨e0, e1⟩, -⟩ := blockIndices t
  funext y
  unfold iblk3
  rw [View.read_apply]
  show V c main_v48 _ = V c main_v48 y
  congr 1
  funext a
  apply Fin.ext
  match a with
  | ⟨0, _⟩ => show win3_5.index t (0 : Fin 2) * 1 + 1 * (y 0).val = (y 0).val; rw [e0]; omega
  | ⟨1, _⟩ => show win3_5.index t (1 : Fin 2) * 128 + 1 * (y 1).val = (y 1).val; rw [e1]; omega

/-- The scale is staged whole. -/
theorem whole_scale (c : Dev nD) (t : Fin cfg3.N) : (iblk3 V c 6 t : Vec Ideal S1x128 .f32) = (V c main_v49 : S1x128.Idx → EReal) := by
  obtain ⟨-, -, -, -, -, -, ⟨e0, e1⟩, -⟩ := blockIndices t
  funext y
  unfold iblk3
  rw [View.read_apply]
  show V c main_v49 _ = V c main_v49 y
  congr 1
  funext a
  apply Fin.ext
  match a with
  | ⟨0, _⟩ => show win3_6.index t (0 : Fin 2) * 1 + 1 * (y 0).val = (y 0).val; rw [e0]; omega
  | ⟨1, _⟩ => show win3_6.index t (1 : Fin 2) * 128 + 1 * (y 1).val = (y 1).val; rw [e1]; omega

/-- The shift is staged whole. -/
theorem whole_shift (c : Dev nD) (t : Fin cfg3.N) : (iblk3 V c 7 t : Vec Ideal S1x128 .f32) = (V c main_v50 : S1x128.Idx → EReal) := by
  obtain ⟨-, -, -, -, -, -, -, ⟨e0, e1⟩, -⟩ := blockIndices t
  funext y
  unfold iblk3
  rw [View.read_apply]
  show V c main_v50 _ = V c main_v50 y
  congr 1
  funext a
  apply Fin.ext
  match a with
  | ⟨0, _⟩ => show win3_7.index t (0 : Fin 2) * 1 + 1 * (y 0).val = (y 0).val; rw [e0]; omega
  | ⟨1, _⟩ => show win3_7.index t (1 : Fin 2) * 128 + 1 * (y 1).val = (y 1).val; rw [e1]; omega

/-- The table after the launch, as one function of the arrays the launch reads. -/
abbrev updated (c : Dev nD) : S50000x128.Idx → EReal :=
  Cert.Sage.upd1Arr (V c main_arg1) (V c main_v28) (V c main_v34) (V c main_v45) (V c main_v47) (V c main_v48)
    (V c main_v49) (V c main_v50)

/-- What point `t` writes back is block `t` of the updated table. -/
theorem flushed_eq (c : Dev nD) (t : Fin cfg3.N) :
    (dat3 V c).flushed 8 t = ((cfg3.win 8).blk t).view.read (Elt Ideal) (updated V c) := by
  show (cfg3.win 8).cut (grid3.coords t) ((dat3 V c).after 8 t) = _
  rw [after3_8]
  unfold out3_8
  rw [View.canon_unit_zero zeroOffsets]
  simp only [View.ld_unit_zero (S := S5000x128) zeroOffsets, View.ld_unit_zero (S := S5000x1) zeroOffsets,
    View.ld_unit_zero (S := S128x128) zeroOffsets, View.ld_unit_zero (S := S1x128) zeroOffsets]
  obtain ⟨-, -, -, -, -, -, -, -, ⟨e0, e1⟩⟩ := blockIndices t
  have hN : t.val < 10 := lt_of_lt_of_eq t.isLt N_3
  refine funext fun (j : S5000x128.Idx) => ?_
  obtain ⟨p, q, rfl⟩ : ∃ (p : Fin 5000) (q : Fin 128), j = ix2 p q := ⟨j 0, j 1, eq_ix2 j⟩
  show k3_pay1 (k3_pay4 (iblk3 V c 0 t) (iblk3 V c 1 t) (iblk3 V c 2 t) (iblk3 V c 3 t) (iblk3 V c 4 t) (iblk3 V c 5 t))
      (k3_pay5 (iblk3 V c 0 t) (iblk3 V c 1 t) (iblk3 V c 2 t) (iblk3 V c 3 t) (iblk3 V c 4 t) (iblk3 V c 5 t))
      (iblk3 V c 6 t) (iblk3 V c 7 t) (ix2 p q)
    = updated V c (((cfg3.win 8).blk t).view.emb (ix2 p q))
  have hr : 5000 * t.val + p.val < 50000 := by omega
  have h0 : ((((cfg3.win 8).blk t).view.emb (ix2 p q)) 0).val = (⟨5000 * t.val + p.val, hr⟩ : Fin 50000).val := by
    show win3_8.index t (0 : Fin 2) * 5000 + 1 * p.val = 5000 * t.val + p.val
    rw [e0]; omega
  have h1 : ((((cfg3.win 8).blk t).view.emb (ix2 p q)) 1).val = q.val := by
    show win3_8.index t (1 : Fin 2) * 128 + 1 * q.val = q.val
    rw [e1]; omega
  refine (out_apply (iblk3 V c 0 t) (iblk3 V c 1 t) (iblk3 V c 2 t) (iblk3 V c 3 t) (iblk3 V c 4 t) (iblk3 V c 5 t)
    (iblk3 V c 6 t) (iblk3 V c 7 t) p q).trans ?_
  refine Eq.trans ?_ (upd1Arr_apply _ _ _ _ _ _ _ _ _ ⟨5000 * t.val + p.val, hr⟩ q h0 h1).symm
  refine upd_congr (rows_table V c t p ⟨5000 * t.val + p.val, hr⟩ rfl) ?_ (congrArg Cert.Sage.matOf (whole_wh V c t))
    (congrArg Cert.Sage.matOf (whole_wa V c t)) (congrArg Cert.Sage.row1 (whole_bias V c t))
    (congrArg Cert.Sage.row1 (whole_scale V c t)) (congrArg Cert.Sage.row1 (whole_shift V c t)) q
  rw [rows_sums V c t p ⟨5000 * t.val + p.val, hr⟩ rfl, rows_count V c t p ⟨5000 * t.val + p.val, hr⟩ rfl]

/-- An index of the table is in point `t`'s block iff each coordinate is in the block's range on its axis. -/
theorem mem_blk (t : Fin cfg3.N) (i : S50000x128.Idx) :
    i ∈ ((cfg3.win 8).blk t).view.set ↔ ∀ a : Fin 2, win3_8.index t a * S5000x128.size a ≤ (i a).val ∧ (i a).val < win3_8.index t a * S5000x128.size a + S5000x128.size a := by
  show i ∈ ((View.whole main_v51).slice (win3_8.rect t)).set ↔ _
  rw [View.set_slice_whole, Rect.mem_set_unit]
  exact Iff.rfl

/-- Every row of the table is in some point's block: row `r` in block `r / 5000`. -/
theorem covered (i : S50000x128.Idx) :
    ∃ t : Fin cfg3.N, (cfg3.win 8).flush t = true ∧ i ∈ ((cfg3.win 8).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  obtain ⟨-, -, -, -, -, -, -, -, ⟨e0, e1⟩⟩ := blockIndices t
  have ht : t.val = (i 0).val / 5000 := rfl
  refine ⟨t, flush3_8 t, ?_⟩
  rw [mem_blk]
  intro a
  match a with
  | ⟨0, _⟩ => show win3_8.index t (0 : Fin 2) * 5000 ≤ (i 0).val ∧ (i 0).val < win3_8.index t (0 : Fin 2) * 5000 + 5000; rw [e0, ht]; omega
  | ⟨1, _⟩ => show win3_8.index t (1 : Fin 2) * 128 ≤ (i 1).val ∧ (i 1).val < win3_8.index t (1 : Fin 2) * 128 + 128; rw [e1]; omega

end Upd1

-- the TensorCore's buffer contents when the region is entered
variable (V : (c : Dev nD) → (b : Ref sig .tc) → Buf (Elt Ideal) ((c : Thread nD τ).loc b))

/-- Launch 3: every row of the second table updated from its own row, its summed-message row and its count. -/
theorem arr3_8 (c : Dev nD) : (dat3 V c).arrAt 8 cfg3.N
    = Cert.Sage.upd1Arr (V c main_arg1) (V c main_v28) (V c main_v34) (V c main_v45) (V c main_v47)
        (V c main_v48) (V c main_v49) (V c main_v50) :=
  (dat3 V c).arrAt_eq_of_cover 8 (Upd1.updated V c) (fun t _ => Upd1.flushed_eq V c t) Upd1.covered

end Cert.KernelIdeal.RegVal

end
-- ==== Proof.KResult.lean ====
/-
  The result array of the kernel program as one function of the arguments.
  The third launch leaves the first table updated (from what the host had computed at its entry), the host then
  prepares the second table's update weights, the fourth launch leaves the second table updated, and the last host
  line stacks the two tables: the stacked array is `Sage.layer` of the arguments.
-/
import proofs.«422673_j24180665876652_3_alg».proof.Proof.Gen.KernelIdeal.Frame
import proofs.«422673_j24180665876652_3_alg».proof.Proof.Mid
import proofs.«422673_j24180665876652_3_alg».proof.Proof.KEntry
import proofs.«422673_j24180665876652_3_alg».proof.Proof.RegUpd2
import proofs.«422673_j24180665876652_3_alg».proof.Proof.RegUpd1
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal

open Cert.KernelIdeal Cert.KernelIdeal.Gen Idealize.ShloMosaic Idealize.ShloMosaic.TcCoe Idealize.SL.Sem
open Idealize.ShloMosaic.ValueIdx Idealize.ShloMosaic.StableHlo
open Cert.Sage (InRange)

variable (m : (ℓ : Loc nD τ sig) → Buf (Elt Ideal) ℓ) (ρ : Dev nD → PrngReg)

/-- What the fourth launch finds: the second table, its summed messages and counts (computed before the third
    launch and carried through it), and its update weights, bias, scale and shift, prepared after it. -/
theorem W12_arg1 (c : Dev nD) : W12 m ρ c (Proc.devRef .tc main_arg1) = (m ((c : Thread nD τ).loc main_arg1)) := by
  have e : W12 m ρ c (Proc.devRef .tc main_arg1) = W11 m ρ c (Proc.devRef .tc main_arg1) := by
    show StableHlo.after hostOps3 (W11 m ρ c) (Proc.devRef .tc main_arg1) = _
    after_results
  exact e.trans ((W11_of_ne m ρ c main_arg1 (by decide)).trans (W10_arg1 m ρ c))
theorem W12_v28 (c : Dev nD) (h15 : InRange (m ((c : Thread nD τ).loc main_arg15)) 100000#32) :
    W12 m ρ c (Proc.devRef .tc main_v28) = Cert.Sage.sDP (m ((c : Thread nD τ).loc main_arg0)) (m ((c : Thread nD τ).loc main_arg3)) (m ((c : Thread nD τ).loc main_arg15)) (m ((c : Thread nD τ).loc main_arg16)) := by
  have e : W12 m ρ c (Proc.devRef .tc main_v28) = W11 m ρ c (Proc.devRef .tc main_v28) := by
    show StableHlo.after hostOps3 (W11 m ρ c) (Proc.devRef .tc main_v28) = _
    after_results
  exact e.trans ((W11_of_ne m ρ c main_v28 (by decide)).trans (W10_v28 m ρ c h15))
theorem W12_v34 (c : Dev nD) :
    W12 m ρ c (Proc.devRef .tc main_v34) = shapeCast S50000x1 (Cert.Sage.cnt600p (m ((c : Thread nD τ).loc main_arg16))) shapeCasts_S50000_S50000x1 := by
  have e : W12 m ρ c (Proc.devRef .tc main_v34) = W11 m ρ c (Proc.devRef .tc main_v34) := by
    show StableHlo.after hostOps3 (W11 m ρ c) (Proc.devRef .tc main_v34) = _
    after_results
  exact e.trans ((W11_of_ne m ρ c main_v34 (by decide)).trans (W10_v34 m ρ c))
theorem W12_v45 (c : Dev nD) : W12 m ρ c (Proc.devRef .tc main_v45) = Cert.Sage.trL (m ((c : Thread nD τ).loc main_arg7)) := by
  have e : W12 m ρ c (Proc.devRef .tc main_v45) = Cert.Sage.trL (W11 m ρ c (Proc.devRef .tc main_arg7)) := by
    show StableHlo.after hostOps3 (W11 m ρ c) (Proc.devRef .tc main_v45) = _
    after_results
    rfl
  exact e.trans (congrArg Cert.Sage.trL ((W11_of_ne m ρ c main_arg7 (by decide)).trans (W10_arg7 m ρ c)))
theorem W12_v47 (c : Dev nD) : W12 m ρ c (Proc.devRef .tc main_v47) = Cert.Sage.trR (m ((c : Thread nD τ).loc main_arg7)) := by
  have e : W12 m ρ c (Proc.devRef .tc main_v47) = Cert.Sage.trR (W11 m ρ c (Proc.devRef .tc main_arg7)) := by
    show StableHlo.after hostOps3 (W11 m ρ c) (Proc.devRef .tc main_v47) = _
    after_results
    rfl
  exact e.trans (congrArg Cert.Sage.trR ((W11_of_ne m ρ c main_arg7 (by decide)).trans (W10_arg7 m ρ c)))
theorem W12_v48 (c : Dev nD) : W12 m ρ c (Proc.devRef .tc main_v48) = Cert.Sage.asRow (m ((c : Thread nD τ).loc main_arg8)) := by
  have e : W12 m ρ c (Proc.devRef .tc main_v48) = Cert.Sage.asRow (W11 m ρ c (Proc.devRef .tc main_arg8)) := by
    show StableHlo.after hostOps3 (W11 m ρ c) (Proc.devRef .tc main_v48) = _
    after_results
    rfl
  exact e.trans (congrArg Cert.Sage.asRow ((W11_of_ne m ρ c main_arg8 (by decide)).trans (W10_arg8 m ρ c)))
theorem W12_v49 (c : Dev nD) : W12 m ρ c (Proc.devRef .tc main_v49) = Cert.Sage.asRow (m ((c : Thread nD τ).loc main_arg11)) := by
  have e : W12 m ρ c (Proc.devRef .tc main_v49) = Cert.Sage.asRow (W11 m ρ c (Proc.devRef .tc main_arg11)) := by
    show StableHlo.after hostOps3 (W11 m ρ c) (Proc.devRef .tc main_v49) = _
    after_results
    rfl
  exact e.trans (congrArg Cert.Sage.asRow ((W11_of_ne m ρ c main_arg11 (by decide)).trans (W10_arg11 m ρ c)))
theorem W12_v50 (c : Dev nD) : W12 m ρ c (Proc.devRef .tc main_v50) = Cert.Sage.asRow (m ((c : Thread nD τ).loc main_arg12)) := by
  have e : W12 m ρ c (Proc.devRef .tc main_v50) = Cert.Sage.asRow (W11 m ρ c (Proc.devRef .tc main_arg12)) := by
    show StableHlo.after hostOps3 (W11 m ρ c) (Proc.devRef .tc main_v50) = _
    after_results
    rfl
  exact e.trans (congrArg Cert.Sage.asRow ((W11_of_ne m ρ c main_arg12 (by decide)).trans (W10_arg12 m ρ c)))

/-- The first table as the third launch leaves it, still there after the fourth. -/
theorem W13_v43 (c : Dev nD) (h13 : InRange (m ((c : Thread nD τ).loc main_arg13)) 100000#32) (h17 : InRange (m ((c : Thread nD τ).loc main_arg17)) 50000#32) :
    W13 m ρ c (Proc.devRef .tc main_v43) = Cert.Sage.outA (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg13)) (m ((c : Thread nD τ).loc main_arg14)) (m ((c : Thread nD τ).loc main_arg17)) (m ((c : Thread nD τ).loc main_arg18)) := by
  have e1 : W13 m ρ c (Proc.devRef .tc main_v43) = W12 m ρ c (Proc.devRef .tc main_v43) :=
    W13_of_ne m ρ c main_v43 (by decide)
  have e2 : W12 m ρ c (Proc.devRef .tc main_v43) = W11 m ρ c (Proc.devRef .tc main_v43) := by
    show StableHlo.after hostOps3 (W11 m ρ c) (Proc.devRef .tc main_v43) = _
    after_results
  have e3 : W11 m ρ c (Proc.devRef .tc main_v43) = (dat2 (V10 m ρ) c).arrAt 9 cfg2.N := W11_arr m ρ c 9
  have e4 := Cert.KernelIdeal.RegVal.arr2_9 (V10 m ρ) c
  have e5 : Cert.Sage.upd2Arr (W10 m ρ c (Proc.devRef .tc main_arg0)) (W10 m ρ c (Proc.devRef .tc main_v8))
      (W10 m ρ c (Proc.devRef .tc main_v18)) (W10 m ρ c (Proc.devRef .tc main_v42)) (W10 m ρ c (Proc.devRef .tc main_v36))
      (W10 m ρ c (Proc.devRef .tc main_v38)) (W10 m ρ c (Proc.devRef .tc main_v39)) (W10 m ρ c (Proc.devRef .tc main_v40))
      (W10 m ρ c (Proc.devRef .tc main_v41))
      = Cert.Sage.outA (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg13)) (m ((c : Thread nD τ).loc main_arg14)) (m ((c : Thread nD τ).loc main_arg17)) (m ((c : Thread nD τ).loc main_arg18)) := by
    rw [W10_arg0 m ρ c, W10_v8 m ρ c h13, W10_v18 m ρ c h17, W10_v42 m ρ c, W10_v36 m ρ c, W10_v38 m ρ c,
      W10_v39 m ρ c, W10_v40 m ρ c, W10_v41 m ρ c, Cert.Sage.outA]
  exact e1.trans (e2.trans (e3.trans (e4.trans e5)))
/-- The second table as the fourth launch leaves it. -/
theorem W13_v51 (c : Dev nD) (h15 : InRange (m ((c : Thread nD τ).loc main_arg15)) 100000#32) :
    W13 m ρ c (Proc.devRef .tc main_v51) = Cert.Sage.outB (m ((c : Thread nD τ).loc main_arg0)) (m ((c : Thread nD τ).loc main_arg1)) (m ((c : Thread nD τ).loc main_arg3)) (m ((c : Thread nD τ).loc main_arg7)) (m ((c : Thread nD τ).loc main_arg8)) (m ((c : Thread nD τ).loc main_arg11)) (m ((c : Thread nD τ).loc main_arg12)) (m ((c : Thread nD τ).loc main_arg15)) (m ((c : Thread nD τ).loc main_arg16)) := by
  have e3 : W13 m ρ c (Proc.devRef .tc main_v51) = (dat3 (V12 m ρ) c).arrAt 8 cfg3.N := W13_arr m ρ c 8
  have e4 := Cert.KernelIdeal.RegVal.arr3_8 (V12 m ρ) c
  have e5 : Cert.Sage.upd1Arr (W12 m ρ c (Proc.devRef .tc main_arg1)) (W12 m ρ c (Proc.devRef .tc main_v28))
      (W12 m ρ c (Proc.devRef .tc main_v34)) (W12 m ρ c (Proc.devRef .tc main_v45)) (W12 m ρ c (Proc.devRef .tc main_v47))
      (W12 m ρ c (Proc.devRef .tc main_v48)) (W12 m ρ c (Proc.devRef .tc main_v49)) (W12 m ρ c (Proc.devRef .tc main_v50))
      = Cert.Sage.outB (m ((c : Thread nD τ).loc main_arg0)) (m ((c : Thread nD τ).loc main_arg1)) (m ((c : Thread nD τ).loc main_arg3)) (m ((c : Thread nD τ).loc main_arg7)) (m ((c : Thread nD τ).loc main_arg8)) (m ((c : Thread nD τ).loc main_arg11)) (m ((c : Thread nD τ).loc main_arg12)) (m ((c : Thread nD τ).loc main_arg15)) (m ((c : Thread nD τ).loc main_arg16)) := by
    rw [W12_arg1 m ρ c, W12_v28 m ρ c h15, W12_v34 m ρ c, W12_v45 m ρ c, W12_v47 m ρ c, W12_v48 m ρ c,
      W12_v49 m ρ c, W12_v50 m ρ c, Cert.Sage.outB]
  exact e3.trans (e4.trans e5)

/-- THE RESULT: the two updated tables stacked. -/
theorem result_eq (c : Dev nD) (h13 : InRange (m ((c : Thread nD τ).loc main_arg13)) 100000#32) (h15 : InRange (m ((c : Thread nD τ).loc main_arg15)) 100000#32)
    (h17 : InRange (m ((c : Thread nD τ).loc main_arg17)) 50000#32) :
    W14 m ρ c (Proc.devRef .tc main_v52) = Cert.Sage.layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  have e : W14 m ρ c (Proc.devRef .tc main_v52)
      = concatenate S150000x128 0 [⟨S100000x128, W13 m ρ c (Proc.devRef .tc main_v43)⟩,
          ⟨S50000x128, W13 m ρ c (Proc.devRef .tc main_v51)⟩] concatenates_S100000x128_S50000x128_S150000x128_d0 := by
    show StableHlo.after hostOps4 (W13 m ρ c) (Proc.devRef .tc main_v52) = _
    after_results
  rw [e, W13_v43 m ρ c h13 h17, W13_v51 m ρ c h15, Cert.Sage.layer]

end Cert.KernelIdeal.KVal

end
-- ==== Proof.PreFacts.lean ====
/-
  The stated precondition gives the index ranges.
  The precondition is one conjunction (a chain of one-bit "and"s) whose last three factors say, each through an
  "all" over the array, that every source index of a relation is at least 0 and below the length of the table it
  indexes. Peeling the three factors off the chain and opening each "all" gives `InRange` for the three arrays.
-/
import proofs.«422673_j24180665876652_3_alg».proof.Pre_finite_inputs
import proofs.«422673_j24180665876652_3_alg».proof.Proof.Gen.Pre_finite_inputs
import proofs.«422673_j24180665876652_3_alg».proof.Proof.Mid
import Idealize.ShloMosaic.Lib.ReduceAll
import Idealize.ShloMosaic.Lib.StableHlo.Predicate
import Idealize.ShloMosaic.Lib.ValueIdx

set_option maxRecDepth 16384

noncomputable section

namespace Cert.Sage.PreFacts

open Cert.Pre_finite_inputs Cert.Pre_finite_inputs.Gen Idealize.ShloMosaic Idealize.ShloMosaic.ValueIdx
open Cert.Sage (InRange)

theorem inRange_of_pre (a0 : FVec Ideal S100000x128 .f32) (a1 : FVec Ideal S50000x128 .f32) (a2 a3 a4 : FVec Ideal S128x128 .f32)
    (a5 : FVec Ideal S128x256 .f32) (a6 : FVec Ideal S128 .f32) (a7 : FVec Ideal S128x256 .f32) (a8 a9 a10 a11 a12 : FVec Ideal S128 .f32)
    (a13 a14 : IVec S800000 32) (a15 a16 a17 a18 : IVec S600000 32)
    (h : Cert.Pre_finite_inputs.fn (F := Ideal) a0 a1 a2 a3 a4 a5 a6 a7 a8 a9 a10 a11 a12 a13 a14 a15 a16 a17 a18 = (fun _ => 1#1)) :
    InRange a13 100000#32 ∧ InRange a15 100000#32 ∧ InRange a17 50000#32 := by
  have h0 := congrFun h ix0
  haveI : Subsingleton S_.Idx := ⟨fun a b => funext fun d => d.elim0⟩
  -- the value at the one index is a chain of four one-bit "and"s; its last three factors are the three "all"s
  change IntOp.andi (IntOp.andi (IntOp.andi _
      (Host.reduce IntOp.andi (andi (cmpi .sge a13 _) (cmpi .slt a13 _)) _ _ _ ix0))
      (Host.reduce IntOp.andi (andi (cmpi .sge a15 _) (cmpi .slt a15 _)) _ _ _ ix0))
      (Host.reduce IntOp.andi (andi (cmpi .sge a17 _) (cmpi .slt a17 _)) _ _ _ ix0) = 1#1 at h0
  obtain ⟨h1, h83⟩ := IntOp.andi_eq_one.mp h0
  obtain ⟨h2, h76⟩ := IntOp.andi_eq_one.mp h1
  obtain ⟨-, h69⟩ := IntOp.andi_eq_one.mp h2
  refine ⟨?_, ?_, ?_⟩
  · intro i
    exact IntOp.andi_eq_one.mp (Host.reduce_andi_all _ _ _ _ ix0 h69 i)
  · intro i
    exact IntOp.andi_eq_one.mp (Host.reduce_andi_all _ _ _ _ ix0 h76 i)
  · intro i
    exact IntOp.andi_eq_one.mp (Host.reduce_andi_all _ _ _ _ ix0 h83 i)

end Cert.Sage.PreFacts

end
-- ==== Proof.MidFacts.lean ====
/-
  The layer's small pieces read at an index.
  A transposed weight read as `W k q` is the weight at `(q, k)`; the left and right halves of a 128 × 256 weight,
  transposed, are the weight at `(q, k)` and `(q, 128 + k)`; a feature vector turned into a one-row table has the
  vector's entries in its row; the two count vectors side by side have a node's two counts in its row; a count vector
  turned into a one-column table has the node's count in its row.
-/
import proofs.«422673_j24180665876652_3_alg».proof.Proof.Mid
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Sage

open Cert.KernelIdeal Cert.KernelIdeal.Gen Idealize.ShloMosaic Idealize.ShloMosaic.ValueIdx

/-- A vector turned into a one-column table has the vector's entry `r` at `(r, 0)`: the two row-major positions are
`r` and `r * 1 + 0`. -/
private theorem colCast_apply {n : Nat} (c : (⟨1, ![n]⟩ : Shape).Idx → EReal)
    (h : (⟨1, ![n]⟩ : Shape).ShapeCasts ⟨2, ![n, 1]⟩) (r : Fin n) :
    shapeCast ⟨2, ![n, 1]⟩ c h (ix2 r (0 : Fin 1)) = c (ix1 r) :=
  shapeCast_apply c h _ _ (by
    rw [Shape.rowMajor_val_two, Shape.rowMajor_val_one]
    show r.val = r.val * 1 + 0
    omega)

theorem matOf_tr (w : A S128x128) (k q : Fin 128) : matOf (tr w) k q = w (ix2 q k) :=
  transpose_ix2_apply w transposes_S128x128_S128x128_1_0 k q

theorem matOf_trL (w : A S128x256) (k q : Fin 128) :
    matOf (trL w) k q = w (ix2 q (⟨k.val, by omega⟩ : Fin 256)) :=
  (transpose_ix2_apply _ transposes_S128x128_S128x128_1_0 k q).trans
    (slice2_axis1_apply 0 w slices_S128x256_S128x128_0_0 q k ⟨k.val, by omega⟩ (Nat.zero_add _).symm)

theorem matOf_trR (w : A S128x256) (k q : Fin 128) :
    matOf (trR w) k q = w (ix2 q (⟨128 + k.val, by omega⟩ : Fin 256)) :=
  (transpose_ix2_apply _ transposes_S128x128_S128x128_1_0 k q).trans
    (slice2_axis1_apply 128 w slices_S128x256_S128x128_0_128 q k ⟨128 + k.val, by omega⟩ rfl)

theorem row1_asRow (v : A S128) (k : Fin 128) : row1 (asRow v) k = v (ix1 k) :=
  shapeCast_a_1a_apply v shapeCasts_S128_S1x128 (0 : Fin 1) k

theorem cnt2_left (c1 c2 : A S100000) (r : Fin 100000) : cnt2 c1 c2 (ix2 r (0 : Fin 2)) = c1 (ix1 r) :=
  (concatenate_pair_apply_left (t := S100000x2) (s₁ := S100000x1) (s₂ := S100000x1) (1 : Fin 2) _ _ concatenates_S100000x1_S100000x1_S100000x2_d1
    (ix2 r (0 : Fin 2)) rfl (ix2 r (0 : Fin 1))
    (fun b => match b with | ⟨0, _⟩ => rfl | ⟨1, _⟩ => rfl)).trans
    (colCast_apply c1 shapeCasts_S100000_S100000x1 r)

theorem cnt2_right (c1 c2 : A S100000) (r : Fin 100000) : cnt2 c1 c2 (ix2 r (1 : Fin 2)) = c2 (ix1 r) :=
  (concatenate_pair_apply_right (t := S100000x2) (s₁ := S100000x1) (s₂ := S100000x1) (1 : Fin 2) _ _ concatenates_S100000x1_S100000x1_S100000x2_d1
    (ix2 r (1 : Fin 2)) rfl rfl (ix2 r (0 : Fin 1))
    (fun b => match b with | ⟨0, _⟩ => fun _ => rfl | ⟨1, _⟩ => fun hb => absurd rfl hb)
    rfl).trans
    (colCast_apply c2 shapeCasts_S100000_S100000x1 r)

theorem col_apply (c : A S50000) (r : Fin 50000) :
    shapeCast S50000x1 c shapeCasts_S50000_S50000x1 (ix2 r (0 : Fin 1)) = c (ix1 r) :=
  colCast_apply c shapeCasts_S50000_S50000x1 r

end Cert.Sage

end
-- ==== Proof.RefSums.lean ====
/-
  The reference program's summed messages and edge counts are the layer's.
  The reference gathers the raw rows named by the source indices, projects and rectifies the gathered rows and sums
  them into the destination nodes; projecting a gathered row is gathering the projected row (the gather copies whole
  rows: entry (e, q) of the gathered table is entry (row(e), q) of the source table), and under the stated index
  ranges the reference's "add the table length to a negative index" leaves every index as it is. The counts are the
  same float sums of ones.
-/
import proofs.«422673_j24180665876652_3_alg».proof.Proof.Gen.ReferenceIdeal.Read
import proofs.«422673_j24180665876652_3_alg».proof.Proof.Mid
import proofs.«422673_j24180665876652_3_alg».proof.Proof.LibIdx
import proofs.«422673_j24180665876652_3_alg».proof.Proof.MidFacts
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefVal

open Cert.ReferenceIdeal Cert.ReferenceIdeal.Gen Cert.ReferenceIdeal.Read Idealize.ShloMosaic Idealize.ShloMosaic.TcCoe Idealize.SL.Sem
open Idealize.ShloMosaic.ValueIdx
open Cert.Sage (InRange)

abbrev A (s : Shape) := s.Idx → EReal

variable (x0 : A S100000x128) (x1 : A S50000x128) (x2 x3 x4 : A S128x128)
variable (x13 x14 : IVec S800000 32) (x15 x16 x17 x18 : IVec S600000 32)

/-- The dimension numbers of a gather of whole rows out of an [N × 128] table, one start index per result row:
    the result's second axis is the offset axis, the table's first axis is collapsed and start-indexed. -/
abbrev rowDims (N n : Nat)
    (wf : GatherDims.WF ⟨2, ![N, 128]⟩ ⟨2, ![n, 1]⟩ ⟨2, ![n, 128]⟩ [1] [0] [] [0] [] 1 ![1, 128]) :
    GatherDims ⟨2, ![N, 128]⟩ ⟨2, ![n, 1]⟩ ⟨2, ![n, 128]⟩ where
  offsetDims := [1]
  collapsedSliceDims := [0]
  operandBatchingDims := []
  startIndicesBatchingDims := []
  startIndexMap := [0]
  indexVectorDim := 1
  sliceSizes := ![1, 128]
  wf := wf

/-- The gather copies whole rows: the table index read at result index (e, q) is (row(e), q), where row(e) — the
    first coordinate read at (e, 0) — depends on e and the start indices only. -/
theorem rowDims_operandIdx {N n w : Nat}
    (wf : GatherDims.WF ⟨2, ![N, 128]⟩ ⟨2, ![n, 1]⟩ ⟨2, ![n, 128]⟩ [1] [0] [] [0] [] 1 ![1, 128])
    (idx : IVec ⟨2, ![n, 1]⟩ w) (e : Fin n) (q : Fin 128) :
    (rowDims N n wf).operandIdx (ix2 e q) idx
      = ix2 ((rowDims N n wf).operandIdx (ix2 e (0 : Fin 128)) idx 0) q := by
  funext a
  match a with
  | ⟨0, _⟩ =>
    -- the row coordinate: no batching, no offset on the collapsed axis; the start reads the start indices at the
    -- result's batch coordinate e alone
    refine Fin.ext ?_
    show (rowDims N n wf).start (ix2 e q) idx 0 + (rowDims N n wf).batchCoord (ix2 e q) 0
        + (rowDims N n wf).offCoord (ix2 e q) 0
      = (rowDims N n wf).start (ix2 e (0 : Fin 128)) idx 0 + (rowDims N n wf).batchCoord (ix2 e (0 : Fin 128)) 0
        + (rowDims N n wf).offCoord (ix2 e (0 : Fin 128)) 0
    have hk : (0 : Fin 2) ∉ (rowDims N n wf).sKept := fun h =>
      ((GatherDims.mem_sKept _ _).mp h).1 (List.mem_singleton.mpr rfl)
    rw [GatherDims.batchCoord_eq_zero _ _ _ List.not_mem_nil, GatherDims.batchCoord_eq_zero _ _ _ List.not_mem_nil,
      GatherDims.offCoord_eq_zero _ _ _ hk, GatherDims.offCoord_eq_zero _ _ _ hk]
    simp only [Nat.add_zero]
    unfold GatherDims.start
    have hm : (0 : Fin 2) ∈ (rowDims N n wf).startIndexMap := List.mem_singleton.mpr rfl
    rw [dif_pos hm, dif_pos hm]
    have hsi : ∀ c, (rowDims N n wf).siIdx (ix2 e q) c = (rowDims N n wf).siIdx (ix2 e (0 : Fin 128)) c := by
      intro c
      funext b; refine Fin.ext ?_
      match b with
      | ⟨0, _⟩ => rfl
      | ⟨1, _⟩ => rfl
    rw [hsi]
  | ⟨1, _⟩ =>
    -- the feature coordinate: no start, no batching; the offset is the result's coordinate on its offset axis
    refine Fin.ext ?_
    show (rowDims N n wf).start (ix2 e q) idx 1 + (rowDims N n wf).batchCoord (ix2 e q) 1
        + (rowDims N n wf).offCoord (ix2 e q) 1 = q.val
    have h10 : (1 : Fin 2) ∉ ([0] : List (Fin 2)) := by decide
    have hm : (1 : Fin 2) ∉ (rowDims N n wf).startIndexMap := h10
    rw [GatherDims.batchCoord_eq_zero _ _ _ List.not_mem_nil]
    unfold GatherDims.start
    rw [dif_neg hm]
    simp only [Nat.add_zero, Nat.zero_add]
    have hk : (1 : Fin 2) ∈ (rowDims N n wf).sKept := (GatherDims.mem_sKept _ _).mpr ⟨h10, List.not_mem_nil⟩
    unfold GatherDims.offCoord
    rw [dif_pos hk]
    rfl

/-- The gather of whole rows read at (e, q): the table at (row(e), q). -/
theorem gather_rows_apply {α : Type} {N n w : Nat}
    (wf : GatherDims.WF ⟨2, ![N, 128]⟩ ⟨2, ![n, 1]⟩ ⟨2, ![n, 128]⟩ [1] [0] [] [0] [] 1 ![1, 128])
    (y : (⟨2, ![N, 128]⟩ : Shape).Idx → α) (idx : IVec ⟨2, ![n, 1]⟩ w) (e : Fin n) (q : Fin 128) :
    Host.gather (rowDims N n wf) y idx (ix2 e q)
      = y (ix2 ((rowDims N n wf).operandIdx (ix2 e (0 : Fin 128)) idx 0) q) :=
  congrArg y (rowDims_operandIdx wf idx e q)

open Cert.Sage in
/-- Projecting and rectifying the gathered rows is gathering the projected, rectified rows: a table whose entry
    (e, q) is max (∑ k, gathered(e, k) · w(q, k)) 0 is the gather of the table of projected rows. -/
theorem proj_gather {N n : Nat}
    (wf : GatherDims.WF ⟨2, ![N, 128]⟩ ⟨2, ![n, 1]⟩ ⟨2, ![n, 128]⟩ [1] [0] [] [0] [] 1 ![1, 128])
    (x : (⟨2, ![N, 128]⟩ : Shape).Idx → EReal) (w : (⟨2, ![128, 128]⟩ : Shape).Idx → EReal)
    (idx : IVec ⟨2, ![n, 1]⟩ 32) (L : (⟨2, ![n, 128]⟩ : Shape).Idx → EReal)
    (hL : ∀ (e : Fin n) (q : Fin 128), L (ix2 e q)
      = max (∑ k : Fin 128, Host.gather (rowDims N n wf) x idx (ix2 e k) * w (ix2 q k)) wZero) :
    L = Host.gather (rowDims N n wf) (projArr x (tr w)) idx := by
  funext j
  obtain ⟨e, q, rfl⟩ : ∃ e q, j = ix2 e q := ⟨j 0, j 1, eq_ix2 j⟩
  rw [hL, gather_rows_apply wf (projArr x (tr w))]
  show _ = max (∑ k : Fin 128, x (ix2 _ k) * matOf (tr w) k q) wZero
  refine congrArg (fun s => max s wZero) (Finset.sum_congr rfl fun k _ => ?_)
  rw [gather_rows_apply wf x, matOf_tr]
  rfl

/-- Relation 1: the reference's summed messages. -/
theorem sum_dd (h13 : InRange x13 100000#32) :
    val_main_v12 (F := Ideal) x0 x2 x13 x14 = Cert.Sage.sDD x0 x2 x13 x14 := by
  -- the normalised source indices are the source indices
  have h4 : val_main_v4 (F := Ideal) x13 = x13 := by
    funext i
    rw [val_main_v4_apply, val_main_v1_apply, val_main_v3_apply, val_main_v0_apply, val_main_c_apply, val_main_v2_apply, val_main_c_0_apply]
    exact Cert.Sage.LibIdx.norm_eq (x13 i) 100000#32 (h13 i).1
  -- the table of rectified projected gathered rows is the gathered table of rectified projected rows
  have hT : val_main_v9 (F := Ideal) x0 x2 x13
      = Cert.Sage.rows800 (Cert.Sage.projArr x0 (Cert.Sage.tr x2)) x13 := by
    unfold Cert.Sage.rows800
    refine proj_gather (N := 100000) (n := 800000) gather_S100000x128_S800000x1_S800000x128_1_0_n_n_0_1_1128_wf x0 x2 _ _ (fun e q => ?_)
    rw [val_main_v9_apply, val_main_v8_apply, val_main_call0_v0_apply, val_main_call0_cst_apply]
    show max (∑ k : Fin 128, _) _ = _
    refine congrArg (fun s => max s Cert.Sage.wZero) (Finset.sum_congr rfl fun k _ => ?_)
    rw [val_main_v7_apply]
    unfold val_main_v6 val_main_v5
    rw [h4]
    have e1 : lidx_main_v8 (ix2 e q) k = ix2 e k := by
      funext a; match a with | ⟨0, _⟩ => rfl | ⟨1, _⟩ => rfl
    have e2 : idx_main_v7 (ridx_main_v8 (ix2 e q) k) = ix2 q k := by
      funext a; match a with | ⟨0, _⟩ => rfl | ⟨1, _⟩ => rfl
    rw [e1, e2]
    rfl
  unfold val_main_v12 Cert.Sage.sDD Cert.Sage.sum800
  rw [hT]
  rfl

/-- Relation 3. -/
theorem sum_pd (h17 : InRange x17 50000#32) :
    val_main_v34 (F := Ideal) x1 x4 x17 x18 = Cert.Sage.sPD x1 x4 x17 x18 := by
  -- the normalised source indices are the source indices
  have h4 : val_main_v26 (F := Ideal) x17 = x17 := by
    funext i
    rw [val_main_v26_apply, val_main_v23_apply, val_main_v25_apply, val_main_v22_apply, val_main_c_4_apply, val_main_v24_apply, val_main_c_5_apply]
    exact Cert.Sage.LibIdx.norm_eq (x17 i) 50000#32 (h17 i).1
  -- the table of rectified projected gathered rows is the gathered table of rectified projected rows
  have hT : val_main_v31 (F := Ideal) x1 x4 x17
      = Cert.Sage.rows600p (Cert.Sage.projArr x1 (Cert.Sage.tr x4)) x17 := by
    unfold Cert.Sage.rows600p
    refine proj_gather (N := 50000) (n := 600000) gather_S50000x128_S600000x1_S600000x128_1_0_n_n_0_1_1128_wf x1 x4 _ _ (fun e q => ?_)
    rw [val_main_v31_apply, val_main_v30_apply, val_main_call1_v0_apply, val_main_call1_cst_apply]
    show max (∑ k : Fin 128, _) _ = _
    refine congrArg (fun s => max s Cert.Sage.wZero) (Finset.sum_congr rfl fun k _ => ?_)
    rw [val_main_v29_apply]
    unfold val_main_v28 val_main_v27
    rw [h4]
    have e1 : lidx_main_v30 (ix2 e q) k = ix2 e k := by
      funext a; match a with | ⟨0, _⟩ => rfl | ⟨1, _⟩ => rfl
    have e2 : idx_main_v29 (ridx_main_v30 (ix2 e q) k) = ix2 q k := by
      funext a; match a with | ⟨0, _⟩ => rfl | ⟨1, _⟩ => rfl
    rw [e1, e2]
    rfl
  unfold val_main_v34 Cert.Sage.sPD Cert.Sage.sum600d
  rw [hT]
  rfl

/-- Relation 2. -/
theorem sum_dp (h15 : InRange x15 100000#32) :
    val_main_v59 (F := Ideal) x0 x3 x15 x16 = Cert.Sage.sDP x0 x3 x15 x16 := by
  -- the normalised source indices are the source indices
  have h4 : val_main_v51 (F := Ideal) x15 = x15 := by
    funext i
    rw [val_main_v51_apply, val_main_v48_apply, val_main_v50_apply, val_main_v47_apply, val_main_c_11_apply, val_main_v49_apply, val_main_c_12_apply]
    exact Cert.Sage.LibIdx.norm_eq (x15 i) 100000#32 (h15 i).1
  -- the table of rectified projected gathered rows is the gathered table of rectified projected rows
  have hT : val_main_v56 (F := Ideal) x0 x3 x15
      = Cert.Sage.rows600d (Cert.Sage.projArr x0 (Cert.Sage.tr x3)) x15 := by
    unfold Cert.Sage.rows600d
    refine proj_gather (N := 100000) (n := 600000) gather_S100000x128_S600000x1_S600000x128_1_0_n_n_0_1_1128_wf x0 x3 _ _ (fun e q => ?_)
    rw [val_main_v56_apply, val_main_v55_apply, val_main_call2_v0_apply, val_main_call2_cst_apply]
    show max (∑ k : Fin 128, _) _ = _
    refine congrArg (fun s => max s Cert.Sage.wZero) (Finset.sum_congr rfl fun k _ => ?_)
    rw [val_main_v54_apply]
    unfold val_main_v53 val_main_v52
    rw [h4]
    have e1 : lidx_main_v55 (ix2 e q) k = ix2 e k := by
      funext a; match a with | ⟨0, _⟩ => rfl | ⟨1, _⟩ => rfl
    have e2 : idx_main_v54 (ridx_main_v55 (ix2 e q) k) = ix2 q k := by
      funext a; match a with | ⟨0, _⟩ => rfl | ⟨1, _⟩ => rfl
    rw [e1, e2]
    rfl
  unfold val_main_v59 Cert.Sage.sDP Cert.Sage.sum600p
  rw [hT]
  rfl

/-- The edge counts: the same sums of ones into the same tables of zeros, at the same index columns. -/
theorem cnt_dd : val_main_v16 (F := Ideal) x14 = Cert.Sage.cnt800 x14 := rfl
theorem cnt_pd : val_main_v38 (F := Ideal) x18 = Cert.Sage.cnt600d x18 := rfl
theorem cnt_dp : val_main_v63 (F := Ideal) x16 = Cert.Sage.cnt600p x16 := rfl

end Cert.ReferenceIdeal.RefVal

end
-- ==== Proof.RefOutA.lean ====
/-
  The reference program's updated first table is the layer's.
  Row by row: the reference averages the two relations' means, joins the node's own row and the averaged row into one
  row of 256 features and multiplies it by the whole transposed update weight — a sum over 256 terms that splits into
  the own row against the weight's left half plus the averaged row against its right half —, adds the bias, rectifies,
  adds the own row and normalises over the 128 features exactly as `Sage.upd` does.
-/
import proofs.«422673_j24180665876652_3_alg».proof.Proof.Gen.ReferenceIdeal.Read
import proofs.«422673_j24180665876652_3_alg».proof.Proof.Mid
import proofs.«422673_j24180665876652_3_alg».proof.Proof.LibIdx
import proofs.«422673_j24180665876652_3_alg».proof.Proof.MidFacts
import Idealize.ShloMosaic.Lib.Pipeline.Value
import Idealize.ShloMosaic.Lib.ValueIdx
import Idealize.ShloMosaic.Lib.ValueLayout
import Idealize.ShloMosaic.PureOps.Ideal.Laws
import proofs.«422673_j24180665876652_3_alg».proof.Proof.RefSums
import Mathlib.Algebra.BigOperators.Fin

set_option maxRecDepth 16384

noncomputable section

namespace Cert.ReferenceIdeal.RefVal

open Cert.ReferenceIdeal Cert.ReferenceIdeal.Gen Cert.ReferenceIdeal.Read Idealize.ShloMosaic Idealize.ShloMosaic.TcCoe Idealize.SL.Sem
open Idealize.ShloMosaic.ValueIdx
open Cert.Sage (InRange)
open Cert.Sage (rowOf matOf row1 mean2 trL trR asRow cnt2 cnt800 cnt600d sDD sPD)
open scoped BigOperators

variable (x0 : A S100000x128) (x1 : A S50000x128) (x2 x4 : A S128x128) (x5 : A S128x256) (x6 x9 x10 : A S128)
variable (x13 x14 : IVec S800000 32) (x17 x18 : IVec S600000 32)

/-! ### Pieces over variable operands -/

/-- A sum over 256 terms is the sum of the first 128 plus the sum of the last 128. -/
theorem sum256_split (f : Fin 256 → EReal) :
    ∑ k : Fin 256, f k
      = (∑ k : Fin 128, f (⟨k.val, by omega⟩ : Fin 256)) + ∑ k : Fin 128, f (⟨128 + k.val, by omega⟩ : Fin 256) := by
  have h := Fin.sum_univ_add (a := 128) (b := 128) (fun k : Fin (128 + 128) => f k)
  exact h

/-- Two 128-column tables joined side by side, read in the first half: the first table, same column. -/
theorem cat_left (x y : (⟨2, ![100000, 128]⟩ : Shape).Idx → EReal)
    (h : Shape.Concatenates [(⟨2, ![100000, 128]⟩ : Shape), (⟨2, ![100000, 128]⟩ : Shape)] (⟨2, ![100000, 256]⟩ : Shape) 1)
    (r : Fin 100000) (k : Fin 128) :
    concatenate (⟨2, ![100000, 256]⟩ : Shape) 1 [⟨(⟨2, ![100000, 128]⟩ : Shape), x⟩, ⟨(⟨2, ![100000, 128]⟩ : Shape), y⟩] h
      (ix2 r (⟨k.val, by omega⟩ : Fin 256)) = x (ix2 r k) :=
  concatenate_pair_apply_left 1 x y h _ rfl (ix2 r k)
    (fun b => by match b with | ⟨0, _⟩ => rfl | ⟨1, _⟩ => rfl)

/-- … read in the second half, at column 128 + k: the second table at column k. -/
theorem cat_right (x y : (⟨2, ![100000, 128]⟩ : Shape).Idx → EReal)
    (h : Shape.Concatenates [(⟨2, ![100000, 128]⟩ : Shape), (⟨2, ![100000, 128]⟩ : Shape)] (⟨2, ![100000, 256]⟩ : Shape) 1)
    (r : Fin 100000) (k : Fin 128) :
    concatenate (⟨2, ![100000, 256]⟩ : Shape) 1 [⟨(⟨2, ![100000, 128]⟩ : Shape), x⟩, ⟨(⟨2, ![100000, 128]⟩ : Shape), y⟩] h
      (ix2 r (⟨128 + k.val, by omega⟩ : Fin 256)) = y (ix2 r k) :=
  concatenate_pair_apply_right 1 x y h _ rfl rfl (ix2 r k)
    (fun b hb => by
      match b with
      | ⟨0, _⟩ => rfl
      | ⟨1, _⟩ => exact absurd rfl hb)
    (by show k.val + 128 = 128 + k.val; omega)

/-! ### The reference's stages read at row r -/

/-- The averaged row: the two relations' means (summed messages over the edge count, at least one), averaged. -/
theorem v46_at (r : Fin 100000) (k : Fin 128) :
    val_main_v46 (F := Ideal) x0 x1 x2 x4 x13 x14 x17 x18 (ix2 r k)
      = mean2 (rowOf (val_main_v12 (F := Ideal) x0 x2 x13 x14) r) (rowOf (val_main_v34 (F := Ideal) x1 x4 x17 x18) r) (val_main_v16 (F := Ideal) x14 (ix1 r)) (val_main_v38 (F := Ideal) x18 (ix1 r)) k := by
  have e20 : idx_main_v19 (idx_main_v20 (ix2 r k)) = ix1 r := funext fun a => Fin.ext (by match a with | ⟨0, _⟩ => rfl)
  have e42 : idx_main_v41 (idx_main_v42 (ix2 r k)) = ix1 r := funext fun a => Fin.ext (by match a with | ⟨0, _⟩ => rfl)
  rw [val_main_v46_apply, val_main_v44_apply, val_main_v21_apply, val_main_v43_apply,
    val_main_v20_apply, val_main_v19_apply, val_main_v18_apply, val_main_v17_apply, val_main_cst_3_apply,
    val_main_v42_apply, val_main_v41_apply, val_main_v40_apply, val_main_v39_apply, val_main_cst_9_apply,
    val_main_v45_apply, val_main_cst_10_apply, e20, e42]
  generalize val_main_v12 (F := Ideal) x0 x2 x13 x14 = s1
  generalize val_main_v34 (F := Ideal) x1 x4 x17 x18 = s2
  generalize val_main_v16 (F := Ideal) x14 = c1
  generalize val_main_v38 (F := Ideal) x18 = c2
  rfl

/-- The rectified linear map with its residual: the 256-term product splits into the own row against the weight's
    left half plus the averaged row against its right half. -/
theorem v76_at (r : Fin 100000) (q : Fin 128) :
    val_main_v76 (F := Ideal) x0 x1 x2 x4 x5 x6 x13 x14 x17 x18 (ix2 r q)
      = Sage.pre (rowOf x0 r) (fun k => val_main_v46 (F := Ideal) x0 x1 x2 x4 x13 x14 x17 x18 (ix2 r k))
          (fun k q' => x5 (ix2 q' (⟨k.val, by omega⟩ : Fin 256))) (fun k q' => x5 (ix2 q' (⟨128 + k.val, by omega⟩ : Fin 256))) (fun q' => x6 (ix1 q')) q := by
  have eb : idx_main_v72 (idx_main_v73 (ix2 r q)) = ix1 q := funext fun a => Fin.ext (by match a with | ⟨0, _⟩ => rfl)
  have el : ∀ k : Fin 256, lidx_main_v71 (ix2 r q) k = ix2 r k := fun k => funext fun a => Fin.ext (by match a with | ⟨0, _⟩ => rfl | ⟨1, _⟩ => rfl)
  have er : ∀ k : Fin 256, idx_main_v70 (ridx_main_v71 (ix2 r q) k) = ix2 q k := fun k => funext fun a => Fin.ext (by match a with | ⟨0, _⟩ => rfl | ⟨1, _⟩ => rfl)
  rw [val_main_v76_apply, val_main_v75_apply, val_main_v74_apply, val_main_v71_apply, val_main_v73_apply,
    val_main_v72_apply, val_main_call3_v0_apply, val_main_call3_cst_apply, eb]
  simp only [val_main_v70_apply, el, er]
  unfold val_main_v69
  generalize val_main_v46 (F := Ideal) x0 x1 x2 x4 x13 x14 x17 x18 = agg
  rw [sum256_split]
  simp only [cat_left, cat_right]
  rfl

/-- The mean of the row's 128 features. -/
theorem v80_at (r : Fin 100000) :
    val_main_v80 (F := Ideal) x0 x1 x2 x4 x5 x6 x13 x14 x17 x18 (ix2 r (0 : Fin 1)) = Sage.mu (fun q => val_main_v76 (F := Ideal) x0 x1 x2 x4 x5 x6 x13 x14 x17 x18 (ix2 r q)) := by
  have e78 : idx_main_v78 (ix2 r (0 : Fin 1)) = ix1 r := funext fun a => Fin.ext (by match a with | ⟨0, _⟩ => rfl)
  have e77 : ∀ k : Fin 128, idx_main_v77 (ix1 r) k = ix2 r k := fun k => funext fun a => Fin.ext (by match a with | ⟨0, _⟩ => rfl | ⟨1, _⟩ => rfl)
  rw [val_main_v80_apply, val_main_v78_apply, val_main_v79_apply, val_main_cst_18_apply, e78, val_main_v77_apply,
    val_main_cst_17_apply]
  simp only [e77]
  generalize val_main_v76 (F := Ideal) x0 x1 x2 x4 x5 x6 x13 x14 x17 x18 = h
  simp only [Ideal.ofBits_def, Ideal.hostDivf_def, Ideal.ofBits_zero_f32, zero_add]
  rfl

/-- The variance of the row's features about their mean. -/
theorem v87_at (r : Fin 100000) :
    val_main_v87 (F := Ideal) x0 x1 x2 x4 x5 x6 x13 x14 x17 x18 (ix2 r (0 : Fin 1)) = Sage.var (fun q => val_main_v76 (F := Ideal) x0 x1 x2 x4 x5 x6 x13 x14 x17 x18 (ix2 r q)) := by
  have e85 : idx_main_v85 (ix2 r (0 : Fin 1)) = ix1 r := funext fun a => Fin.ext (by match a with | ⟨0, _⟩ => rfl)
  have e84 : ∀ k : Fin 128, idx_main_v84 (ix1 r) k = ix2 r k := fun k => funext fun a => Fin.ext (by match a with | ⟨0, _⟩ => rfl | ⟨1, _⟩ => rfl)
  have e81 : ∀ k : Fin 128, idx_main_v81 (ix2 r k) = ix2 r (0 : Fin 1) := fun k => funext fun a => Fin.ext (by match a with | ⟨0, _⟩ => rfl | ⟨1, _⟩ => rfl)
  rw [val_main_v87_apply, val_main_v85_apply, val_main_v86_apply, val_main_cst_20_apply, e85, val_main_v84_apply,
    val_main_cst_19_apply]
  simp only [e84, val_main_v83_apply, val_main_v82_apply, val_main_v81_apply, e81, v80_at]
  generalize val_main_v76 (F := Ideal) x0 x1 x2 x4 x5 x6 x13 x14 x17 x18 = h
  simp only [Ideal.ofBits_def, Ideal.hostDivf_def, Ideal.mulf_def, Ideal.subf_def, Ideal.ofBits_zero_f32, zero_add]
  rfl

/-- The normalised row, scaled and shifted. -/
theorem v100_at (r : Fin 100000) (q : Fin 128) :
    val_main_v100 (F := Ideal) x0 x1 x2 x4 x5 x6 x9 x10 x13 x14 x17 x18 (ix2 r q)
      = Sage.norm (fun q' => val_main_v76 (F := Ideal) x0 x1 x2 x4 x5 x6 x13 x14 x17 x18 (ix2 r q')) (fun q' => x9 (ix1 q')) (fun q' => x10 (ix1 q')) q := by
  have e99 : idx_main_v98 (idx_main_v99 (ix2 r q)) = ix1 q := funext fun a => Fin.ext (by match a with | ⟨0, _⟩ => rfl)
  have e96 : idx_main_v95 (idx_main_v96 (ix2 r q)) = ix1 q := funext fun a => Fin.ext (by match a with | ⟨0, _⟩ => rfl)
  have e93 : idx_main_v93 (ix2 r q) = ix2 r (0 : Fin 1) := funext fun a => Fin.ext (by match a with | ⟨0, _⟩ => rfl | ⟨1, _⟩ => rfl)
  have e88 : idx_main_v88 (ix2 r q) = ix2 r (0 : Fin 1) := funext fun a => Fin.ext (by match a with | ⟨0, _⟩ => rfl | ⟨1, _⟩ => rfl)
  rw [val_main_v100_apply, val_main_v97_apply, val_main_v99_apply, val_main_v98_apply, e99, val_main_v96_apply,
    val_main_v95_apply, e96, val_main_v94_apply, val_main_v93_apply, e93, val_main_v92_apply, val_main_v91_apply,
    val_main_v90_apply, val_main_cst_21_apply, val_main_v89_apply, val_main_v88_apply, e88, v87_at, v80_at]
  generalize val_main_v76 (F := Ideal) x0 x1 x2 x4 x5 x6 x13 x14 x17 x18 = h
  rfl

/-! ### The layer's updated first table read at row r -/

/-- The layer's updated first table at row r, feature q, with its small pieces read. -/
theorem outA_at (r : Fin 100000) (q : Fin 128) :
    Cert.Sage.outA x0 x1 x2 x4 x5 x6 x9 x10 x13 x14 x17 x18 (ix2 r q)
      = Sage.norm (Sage.pre (rowOf x0 r)
            (mean2 (rowOf (sDD x0 x2 x13 x14) r) (rowOf (sPD x1 x4 x17 x18) r) (cnt800 x14 (ix1 r)) (cnt600d x18 (ix1 r)))
            (fun k q' => x5 (ix2 q' (⟨k.val, by omega⟩ : Fin 256))) (fun k q' => x5 (ix2 q' (⟨128 + k.val, by omega⟩ : Fin 256))) (fun q' => x6 (ix1 q')))
          (fun q' => x9 (ix1 q')) (fun q' => x10 (ix1 q')) q := by
  have hWL : matOf (trL x5) = (fun k q' => x5 (ix2 q' (⟨k.val, by omega⟩ : Fin 256))) :=
    funext fun k => funext fun q' => Cert.Sage.matOf_trL x5 k q'
  have hWR : matOf (trR x5) = (fun k q' => x5 (ix2 q' (⟨128 + k.val, by omega⟩ : Fin 256))) :=
    funext fun k => funext fun q' => Cert.Sage.matOf_trR x5 k q'
  have hb : row1 (asRow x6) = fun q' => x6 (ix1 q') := funext fun k => Cert.Sage.row1_asRow x6 k
  have hg : row1 (asRow x9) = fun q' => x9 (ix1 q') := funext fun k => Cert.Sage.row1_asRow x9 k
  have hbe : row1 (asRow x10) = fun q' => x10 (ix1 q') := funext fun k => Cert.Sage.row1_asRow x10 k
  show Sage.upd (rowOf x0 r)
      (mean2 (rowOf (sDD x0 x2 x13 x14) r) (rowOf (sPD x1 x4 x17 x18) r)
        (cnt2 (cnt800 x14) (cnt600d x18) (ix2 r (0 : Fin 2))) (cnt2 (cnt800 x14) (cnt600d x18) (ix2 r (1 : Fin 2))))
      (matOf (trL x5)) (matOf (trR x5)) (row1 (asRow x6)) (row1 (asRow x9)) (row1 (asRow x10)) q = _
  rw [Cert.Sage.cnt2_left, Cert.Sage.cnt2_right, hWL, hWR, hb, hg, hbe]
  rfl

theorem outA_eq (h13 : InRange x13 100000#32) (h17 : InRange x17 50000#32) :
    val_main_v100 (F := Ideal) x0 x1 x2 x4 x5 x6 x9 x10 x13 x14 x17 x18
      = Cert.Sage.outA x0 x1 x2 x4 x5 x6 x9 x10 x13 x14 x17 x18 := by
  funext i
  obtain ⟨r, q, rfl⟩ : ∃ (r : Fin 100000) (q : Fin 128), i = ix2 r q := ⟨i 0, i 1, eq_ix2 i⟩
  have hagg : (fun k => val_main_v46 (F := Ideal) x0 x1 x2 x4 x13 x14 x17 x18 (ix2 r k))
      = mean2 (rowOf (sDD x0 x2 x13 x14) r) (rowOf (sPD x1 x4 x17 x18) r) (cnt800 x14 (ix1 r)) (cnt600d x18 (ix1 r)) := by
    funext k
    rw [v46_at, sum_dd x0 x2 x13 x14 h13, sum_pd x1 x4 x17 x18 h17, cnt_dd x14, cnt_pd x18]
  have hrow : (fun q' => val_main_v76 (F := Ideal) x0 x1 x2 x4 x5 x6 x13 x14 x17 x18 (ix2 r q'))
      = Sage.pre (rowOf x0 r)
          (mean2 (rowOf (sDD x0 x2 x13 x14) r) (rowOf (sPD x1 x4 x17 x18) r) (cnt800 x14 (ix1 r)) (cnt600d x18 (ix1 r)))
          (fun k q' => x5 (ix2 q' (⟨k.val, by omega⟩ : Fin 256))) (fun k q' => x5 (ix2 q' (⟨128 + k.val, by omega⟩ : Fin 256))) (fun q' => x6 (ix1 q')) := by
    funext q'
    rw [v76_at, hagg]
  rw [v100_at, hrow, outA_at]

end Cert.ReferenceIdeal.RefVal

end
-- ==== Proof.RefOutB.lean ====
/-
  The reference program's updated second table is the layer's.
  Row by row: the reference takes the one relation's mean, joins the node's own row and the mean row into one row of
  256 features and multiplies it by the whole transposed update weight — a sum over 256 terms that splits into the own
  row against the weight's left half plus the mean row against its right half —, adds the bias, rectifies, adds the
  own row and normalises over the 128 features exactly as `Sage.upd` does.
-/
import proofs.«422673_j24180665876652_3_alg».proof.Proof.Gen.ReferenceIdeal.Read
import proofs.«422673_j24180665876652_3_alg».proof.Proof.Mid
import proofs.«422673_j24180665876652_3_alg».proof.Proof.LibIdx
import proofs.«422673_j24180665876652_3_alg».proof.Proof.MidFacts
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import proofs.«422673_j24180665876652_3_alg».proof.Proof.RefSums

set_option maxRecDepth 16384

noncomputable section

namespace Cert.ReferenceIdeal.RefVal

open Cert.ReferenceIdeal Cert.ReferenceIdeal.Gen Cert.ReferenceIdeal.Read Idealize.ShloMosaic Idealize.ShloMosaic.TcCoe Idealize.SL.Sem
open Idealize.ShloMosaic.ValueIdx
open Cert.Sage (InRange)

variable (x0 : A S100000x128) (x1 : A S50000x128) (x3 : A S128x128) (x7 : A S128x256) (x8 x11 x12 : A S128)
variable (x15 x16 : IVec S600000 32)

open scoped BigOperators

namespace OutB

/-- A sum over 256 terms is the sum over the first 128 plus the sum over the last 128. -/
theorem sum_split256 (f : Fin 256 → EReal) :
    ∑ k : Fin 256, f k
      = ∑ k : Fin 128, f (⟨k.val, by omega⟩ : Fin 256) + ∑ k : Fin 128, f (⟨128 + k.val, by omega⟩ : Fin 256) :=
  Fin.sum_univ_add (M := EReal) (a := 128) (b := 128) f

/-- Two 128-feature tables joined along the features, read in the first half: the first table, same column. -/
theorem cat_left (h : Shape.Concatenates [S50000x128, S50000x128] S50000x256 1) (x y : A S50000x128)
    (r : Fin 50000) (k : Fin 128) :
    concatenate S50000x256 1 [⟨S50000x128, x⟩, ⟨S50000x128, y⟩] h (ix2 r (⟨k.val, by omega⟩ : Fin 256)) = x (ix2 r k) :=
  concatenate_pair_apply_left (1 : Fin S50000x256.rank) x y h (ix2 r (⟨k.val, by omega⟩ : Fin 256)) rfl (ix2 r k)
    (fun b => match b with | ⟨0, _⟩ => rfl | ⟨1, _⟩ => rfl)

/-- … read in the second half: the second table, 128 columns back. -/
theorem cat_right (h : Shape.Concatenates [S50000x128, S50000x128] S50000x256 1) (x y : A S50000x128)
    (r : Fin 50000) (k : Fin 128) :
    concatenate S50000x256 1 [⟨S50000x128, x⟩, ⟨S50000x128, y⟩] h (ix2 r (⟨128 + k.val, by omega⟩ : Fin 256)) = y (ix2 r k) :=
  concatenate_pair_apply_right (1 : Fin S50000x256.rank) x y h (ix2 r (⟨128 + k.val, by omega⟩ : Fin 256)) rfl rfl (ix2 r k)
    (fun b => match b with
      | ⟨0, _⟩ => fun _ => rfl
      | ⟨1, _⟩ => fun hb => absurd rfl hb)
    (by show k.val + 128 = 128 + k.val; omega)

/-- The joined row against the whole transposed weight, plus the bias, rectified, plus the own row, is `pre`:
    the first 128 terms of the sum meet the own row and the weight's left half, the last 128 the aggregated row and
    its right half. -/
theorem pre_of_split (xr ar : Cert.Sage.Row) (Wh Wa : Cert.Sage.Mat) (b : Cert.Sage.Row) (q : Fin 128)
    (L R : Fin 256 → EReal)
    (hL1 : ∀ k : Fin 128, L (⟨k.val, by omega⟩ : Fin 256) = xr k)
    (hL2 : ∀ k : Fin 128, L (⟨128 + k.val, by omega⟩ : Fin 256) = ar k)
    (hR1 : ∀ k : Fin 128, R (⟨k.val, by omega⟩ : Fin 256) = Wh k q)
    (hR2 : ∀ k : Fin 128, R (⟨128 + k.val, by omega⟩ : Fin 256) = Wa k q) :
    max ((∑ k : Fin 256, L k * R k) + b q) Cert.Sage.wZero + xr q = Cert.Sage.pre xr ar Wh Wa b q := by
  rw [sum_split256]
  simp only [hL1, hL2, hR1, hR2]
  rfl

/-- The relation's mean row: the summed messages of node `r` divided by its edge count, at least one. -/
theorem mean_row (h15 : InRange x15 100000#32) (r : Fin 50000) (k : Fin 128) :
    val_main_v68 (F := Ideal) x0 x3 x15 x16 (ix2 r k)
      = Cert.Sage.mean1 (Cert.Sage.rowOf (Cert.Sage.sDP x0 x3 x15 x16) r) (Cert.Sage.cnt600p x16 (ix1 r)) k := by
  rw [val_main_v68_apply, val_main_v67_apply, val_main_v66_apply, val_main_v65_apply, val_main_v64_apply,
    val_main_cst_16_apply, sum_dp x0 x3 x15 x16 h15, cnt_dp x16]
  have e : idx_main_v66 (idx_main_v67 (ix2 r k)) = ix1 r :=
    funext fun a => Fin.ext (by match a with | ⟨0, _⟩ => rfl)
  rw [e]
  simp only [Ideal.hostDivf_def, Ideal.maximumf_def, Ideal.ofBits_def]
  rfl

/-- The joined table in its first 128 columns is the node table. -/
theorem joined_left (r : Fin 50000) (k : Fin 128) :
    val_main_v101 (F := Ideal) x0 x1 x3 x15 x16 (ix2 r (⟨k.val, by omega⟩ : Fin 256)) = x1 (ix2 r k) := by
  unfold val_main_v101
  exact cat_left _ x1 _ r k

/-- The joined table in its last 128 columns is the mean table. -/
theorem joined_right (r : Fin 50000) (k : Fin 128) :
    val_main_v101 (F := Ideal) x0 x1 x3 x15 x16 (ix2 r (⟨128 + k.val, by omega⟩ : Fin 256))
      = val_main_v68 (F := Ideal) x0 x3 x15 x16 (ix2 r k) := by
  unfold val_main_v101
  exact cat_right _ x1 _ r k

/-- The transposed update weight at `(k, q)` is the weight at `(q, k)`. -/
theorem weightT_at (k : Fin 256) (q : Fin 128) : val_main_v102 (F := Ideal) x7 (ix2 k q) = x7 (ix2 q k) := by
  rw [val_main_v102_apply]
  exact congrArg x7 (funext fun a => Fin.ext (by match a with | ⟨0, _⟩ => rfl | ⟨1, _⟩ => rfl))

/-- Row `r` before normalising: `pre` of the node's own row and its mean row. -/
theorem pre_row (h15 : InRange x15 100000#32) (r : Fin 50000) (q : Fin 128) :
    val_main_v108 (F := Ideal) x0 x1 x3 x7 x8 x15 x16 (ix2 r q)
      = Cert.Sage.pre (Cert.Sage.rowOf x1 r)
          (Cert.Sage.mean1 (Cert.Sage.rowOf (Cert.Sage.sDP x0 x3 x15 x16) r) (Cert.Sage.cnt600p x16 (ix1 r)))
          (Cert.Sage.matOf (Cert.Sage.trL x7)) (Cert.Sage.matOf (Cert.Sage.trR x7))
          (Cert.Sage.row1 (Cert.Sage.asRow x8)) q := by
  rw [val_main_v108_apply, val_main_v107_apply, val_main_v106_apply, val_main_v103_apply, val_main_v105_apply,
    val_main_v104_apply, val_main_call4_v0_apply, val_main_call4_cst_apply]
  have e8 : idx_main_v104 (idx_main_v105 (ix2 r q)) = ix1 q :=
    funext fun a => Fin.ext (by match a with | ⟨0, _⟩ => rfl)
  have el : ∀ K : Fin 256, lidx_main_v103 (ix2 r q) K = ix2 r K := fun K =>
    funext fun a => Fin.ext (by match a with | ⟨0, _⟩ => rfl | ⟨1, _⟩ => rfl)
  have er : ∀ K : Fin 256, ridx_main_v103 (ix2 r q) K = ix2 K q := fun K =>
    funext fun a => Fin.ext (by match a with | ⟨0, _⟩ => rfl | ⟨1, _⟩ => rfl)
  rw [e8, ← Cert.Sage.row1_asRow x8 q]
  simp only [Ideal.addf_def, Ideal.maximumf_def, Ideal.ofBits_def]
  exact pre_of_split (Cert.Sage.rowOf x1 r) _ _ _ (Cert.Sage.row1 (Cert.Sage.asRow x8)) q
    (fun K => val_main_v101 (F := Ideal) x0 x1 x3 x15 x16 (lidx_main_v103 (ix2 r q) K))
    (fun K => val_main_v102 (F := Ideal) x7 (ridx_main_v103 (ix2 r q) K))
    (fun k => by rw [el]; exact joined_left x0 x1 x3 x15 x16 r k)
    (fun k => by rw [el]; exact (joined_right x0 x1 x3 x15 x16 r k).trans (mean_row x0 x3 x15 x16 h15 r k))
    (fun k => by rw [er]; exact (weightT_at x7 _ q).trans (Cert.Sage.matOf_trL x7 k q).symm)
    (fun k => by rw [er]; exact (weightT_at x7 _ q).trans (Cert.Sage.matOf_trR x7 k q).symm)

/-- The mean over the 128 features of row `r` is `mu` of that row. -/
theorem mu_row (r : Fin 50000) :
    val_main_v112 (F := Ideal) x0 x1 x3 x7 x8 x15 x16 (ix2 r (0 : Fin 1))
      = Cert.Sage.mu (fun q => val_main_v108 (F := Ideal) x0 x1 x3 x7 x8 x15 x16 (ix2 r q)) := by
  rw [val_main_v112_apply, val_main_v110_apply, val_main_v109_apply, val_main_v111_apply, val_main_cst_23_apply,
    val_main_cst_22_apply]
  have e : ∀ k : Fin 128, idx_main_v109 (idx_main_v110 (ix2 r (0 : Fin 1))) k = ix2 r k := fun k =>
    funext fun a => Fin.ext (by match a with | ⟨0, _⟩ => rfl | ⟨1, _⟩ => rfl)
  simp only [e, Ideal.hostDivf_def, Ideal.ofBits_def, Ideal.ofBits_zero_f32, zero_add]
  rfl

/-- The variance over the 128 features of row `r` is `var` of that row. -/
theorem var_row (r : Fin 50000) :
    val_main_v119 (F := Ideal) x0 x1 x3 x7 x8 x15 x16 (ix2 r (0 : Fin 1))
      = Cert.Sage.var (fun q => val_main_v108 (F := Ideal) x0 x1 x3 x7 x8 x15 x16 (ix2 r q)) := by
  rw [val_main_v119_apply, val_main_v117_apply, val_main_v116_apply, val_main_v118_apply, val_main_cst_25_apply,
    val_main_cst_24_apply]
  have e : ∀ k : Fin 128, idx_main_v116 (idx_main_v117 (ix2 r (0 : Fin 1))) k = ix2 r k := fun k =>
    funext fun a => Fin.ext (by match a with | ⟨0, _⟩ => rfl | ⟨1, _⟩ => rfl)
  have e2 : ∀ k : Fin 128, idx_main_v113 (ix2 r k) = ix2 r (0 : Fin 1) := fun k =>
    funext fun a => Fin.ext (by match a with | ⟨0, _⟩ => rfl | ⟨1, _⟩ => rfl)
  simp only [e, val_main_v115_apply, val_main_v114_apply, val_main_v113_apply, e2, mu_row,
    Ideal.hostDivf_def, Ideal.mulf_def, Ideal.subf_def, Ideal.ofBits_def, Ideal.ofBits_zero_f32, zero_add]
  rfl

/-- Row `r` of the result: the row before normalising, normalised, scaled and shifted. -/
theorem norm_row (r : Fin 50000) (q : Fin 128) :
    val_main_v132 (F := Ideal) x0 x1 x3 x7 x8 x11 x12 x15 x16 (ix2 r q)
      = Cert.Sage.norm (fun q => val_main_v108 (F := Ideal) x0 x1 x3 x7 x8 x15 x16 (ix2 r q))
          (Cert.Sage.row1 (Cert.Sage.asRow x11)) (Cert.Sage.row1 (Cert.Sage.asRow x12)) q := by
  rw [val_main_v132_apply, val_main_v129_apply, val_main_v126_apply, val_main_v121_apply, val_main_v120_apply,
    val_main_v125_apply, val_main_v124_apply, val_main_v123_apply, val_main_v122_apply, val_main_cst_26_apply,
    val_main_v128_apply, val_main_v127_apply, val_main_v131_apply, val_main_v130_apply]
  have e0 : idx_main_v120 (ix2 r q) = ix2 r (0 : Fin 1) :=
    funext fun a => Fin.ext (by match a with | ⟨0, _⟩ => rfl | ⟨1, _⟩ => rfl)
  have e1 : idx_main_v125 (ix2 r q) = ix2 r (0 : Fin 1) :=
    funext fun a => Fin.ext (by match a with | ⟨0, _⟩ => rfl | ⟨1, _⟩ => rfl)
  have e2 : idx_main_v127 (idx_main_v128 (ix2 r q)) = ix1 q :=
    funext fun a => Fin.ext (by match a with | ⟨0, _⟩ => rfl)
  have e3 : idx_main_v130 (idx_main_v131 (ix2 r q)) = ix1 q :=
    funext fun a => Fin.ext (by match a with | ⟨0, _⟩ => rfl)
  rw [e0, e1, e2, e3, mu_row, var_row, ← Cert.Sage.row1_asRow x11 q, ← Cert.Sage.row1_asRow x12 q]
  simp only [Ideal.addf_def, Ideal.mulf_def, Ideal.subf_def, Ideal.hostUnary_rsqrt_def, Ideal.ofBits_def]
  rfl

/-- The layer's updated second table at `(r, q)`: the normalised `pre` row. -/
theorem outB_at (r : Fin 50000) (q : Fin 128) :
    Cert.Sage.outB x0 x1 x3 x7 x8 x11 x12 x15 x16 (ix2 r q)
      = Cert.Sage.norm (Cert.Sage.pre (Cert.Sage.rowOf x1 r)
          (Cert.Sage.mean1 (Cert.Sage.rowOf (Cert.Sage.sDP x0 x3 x15 x16) r) (Cert.Sage.cnt600p x16 (ix1 r)))
          (Cert.Sage.matOf (Cert.Sage.trL x7)) (Cert.Sage.matOf (Cert.Sage.trR x7))
          (Cert.Sage.row1 (Cert.Sage.asRow x8)))
          (Cert.Sage.row1 (Cert.Sage.asRow x11)) (Cert.Sage.row1 (Cert.Sage.asRow x12)) q := by
  rw [← Cert.Sage.col_apply (Cert.Sage.cnt600p x16) r]
  rfl

end OutB

theorem outB_eq (h15 : InRange x15 100000#32) :
    val_main_v132 (F := Ideal) x0 x1 x3 x7 x8 x11 x12 x15 x16
      = Cert.Sage.outB x0 x1 x3 x7 x8 x11 x12 x15 x16 := by
  funext i
  obtain ⟨r, q, rfl⟩ : ∃ (r : Fin 50000) (q : Fin 128), i = ix2 r q := ⟨i 0, i 1, eq_ix2 i⟩
  have hpre : (fun q' => val_main_v108 (F := Ideal) x0 x1 x3 x7 x8 x15 x16 (ix2 r q'))
      = Cert.Sage.pre (Cert.Sage.rowOf x1 r)
          (Cert.Sage.mean1 (Cert.Sage.rowOf (Cert.Sage.sDP x0 x3 x15 x16) r) (Cert.Sage.cnt600p x16 (ix1 r)))
          (Cert.Sage.matOf (Cert.Sage.trL x7)) (Cert.Sage.matOf (Cert.Sage.trR x7))
          (Cert.Sage.row1 (Cert.Sage.asRow x8)) :=
    funext fun q' => OutB.pre_row x0 x1 x3 x7 x8 x15 x16 h15 r q'
  rw [OutB.norm_row x0 x1 x3 x7 x8 x11 x12 x15 x16 r q, hpre, OutB.outB_at x0 x1 x3 x7 x8 x11 x12 x15 x16 r q]

end Cert.ReferenceIdeal.RefVal

end
-- ==== Proof.lean ====
/-
  One heterogeneous message-passing layer: the kernel program against its reference, over the extended reals.

  Both programs compute `Sage.layer` of the argument arrays (Proof/Mid.lean over the row-level functions of
  Proof/Spec.lean): per relation every source row projected and rectified, the rows named by the edges' source
  indices summed into the destination nodes and divided by the edge counts, each node updated from its own row and
  its aggregated row and normalised over its features, the two node tables stacked.
  The kernel program projects the dense node tables FIRST and gathers the projected rows, where the reference gathers
  raw rows and projects them: projecting a gathered row is gathering the projected row. The kernel's row lookup
  replaces a row whose index is out of range by a junk word, where the reference's lookup clamps: under the stated
  index ranges no index is out of range and the two lookups agree. The kernel counts edges with an integer sum of
  ones, the reference with a float sum of ones: the same natural number. The kernel applies the update weight's two
  halves to the own row and the aggregated row separately, the reference applies the whole weight to the joined row:
  a sum over 256 terms split in two. Everything else is the same arithmetic in the same order.
  The three frame claims: the two kernel programs' frames are the launch theorem over their regions; the reference's
  is its run with the result dropped. Nothing was rewritten by the idealization, so `preserves` is trivial.
-/
import proofs.«422673_j24180665876652_3_alg».proof.Defs
import proofs.«422673_j24180665876652_3_alg».proof.Proof.Gen.Kernel
import proofs.«422673_j24180665876652_3_alg».proof.Proof.Gen.Kernel.Skeleton
import proofs.«422673_j24180665876652_3_alg».proof.Proof.Gen.Kernel.Launch
import proofs.«422673_j24180665876652_3_alg».proof.Proof.Gen.Kernel.Points
import proofs.«422673_j24180665876652_3_alg».proof.Proof.Gen.Kernel.Frame
import proofs.«422673_j24180665876652_3_alg».proof.Proof.Gen.KernelIdeal
import proofs.«422673_j24180665876652_3_alg».proof.Proof.Gen.KernelIdeal.Skeleton
import proofs.«422673_j24180665876652_3_alg».proof.Proof.Gen.KernelIdeal.Launch
import proofs.«422673_j24180665876652_3_alg».proof.Proof.Gen.KernelIdeal.Points
import proofs.«422673_j24180665876652_3_alg».proof.Proof.Gen.KernelIdeal.Frame
import proofs.«422673_j24180665876652_3_alg».proof.Proof.Gen.ReferenceIdeal
import proofs.«422673_j24180665876652_3_alg».proof.Proof.Gen.ReferenceIdeal.Run
import proofs.«422673_j24180665876652_3_alg».proof.Proof.Gen.ReferenceIdeal.Read
import proofs.«422673_j24180665876652_3_alg».proof.Proof.Gen.Pre_finite_inputs
import proofs.«422673_j24180665876652_3_alg».proof.Proof.KRun
import proofs.«422673_j24180665876652_3_alg».proof.Proof.KResult
import proofs.«422673_j24180665876652_3_alg».proof.Proof.PreFacts
import proofs.«422673_j24180665876652_3_alg».proof.Proof.RefOutA
import proofs.«422673_j24180665876652_3_alg».proof.Proof.RefOutB
import Idealize.ShloMosaic.Adequacy
import Idealize.ShloMosaic.Init

set_option maxRecDepth 16384

noncomputable section

namespace Cert.Proof

open Idealize.ShloMosaic Idealize.SL.Sem Cert.Kernel

/-- The reference program's result, as a function of the arguments, is the layer: its two tables are the layer's
    (Proof/RefOutA.lean, Proof/RefOutB.lean) and it stacks them the same way. -/
theorem ref_layer (x0 : Cert.Sage.A Cert.KernelIdeal.S100000x128) (x1 : Cert.Sage.A Cert.KernelIdeal.S50000x128)
    (x2 x3 x4 : Cert.Sage.A Cert.KernelIdeal.S128x128) (x5 : Cert.Sage.A Cert.KernelIdeal.S128x256)
    (x6 : Cert.Sage.A Cert.KernelIdeal.S128) (x7 : Cert.Sage.A Cert.KernelIdeal.S128x256)
    (x8 x9 x10 x11 x12 : Cert.Sage.A Cert.KernelIdeal.S128)
    (x13 x14 : IVec Cert.KernelIdeal.S800000 32) (x15 x16 x17 x18 : IVec Cert.KernelIdeal.S600000 32)
    (h13 : Cert.Sage.InRange x13 100000#32) (h15 : Cert.Sage.InRange x15 100000#32) (h17 : Cert.Sage.InRange x17 50000#32) :
    Cert.ReferenceIdeal.Read.val_main_v133 (F := Ideal) x0 x1 x2 x3 x4 x5 x6 x7 x8 x9 x10 x11 x12 x13 x14 x15 x16 x17 x18 = Cert.Sage.layer x0 x1 x2 x3 x4 x5 x6 x7 x8 x9 x10 x11 x12 x13 x14 x15 x16 x17 x18 := by
  unfold Cert.ReferenceIdeal.Read.val_main_v133 Cert.Sage.layer
  rw [Cert.ReferenceIdeal.RefVal.outA_eq x0 x1 x2 x4 x5 x6 x9 x10 x13 x14 x17 x18 h13 h17,
    Cert.ReferenceIdeal.RefVal.outB_eq x0 x1 x3 x7 x8 x11 x12 x15 x16 h15]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments, under the precondition (finite floats; every source index a valid row
    number), both programs end with the layer of the arguments in their result array. -/
theorem algebraic : Cert.algebraic_KernelIdeal_ReferenceIdeal := by
  intro m ρ m' ρ' hpre hagree
  have hr := fun c => Cert.Sage.PreFacts.inRange_of_pre _ _ _ _ _ _ _ _ _ _ _ _ _ _ _ _ _ _ _ (hpre c)
  refine ⟨fun c => Cert.Sage.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)), ?_, ?_⟩
  · exact (θ_run Cert.KernelIdeal.defs _ _).mono
      (fun r h c => ⟨(h c).1.trans (Cert.KernelIdeal.KVal.result_eq m ρ c (hr c).1 (hr c).2.1 (hr c).2.2), (h c).2⟩)
      (Cert.KernelIdeal.Gen.run_result (F := Ideal) m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9, e10, e11, e12, e13, e14, e15, e16, e17, e18⟩ := hagree c
    rw [(h c).1, Cert.ReferenceIdeal.Read.val_main_v133_eq, e0, e1, e2, e3, e4, e5, e6, e7, e8, e9, e10, e11, e12, e13, e14, e15, e16, e17, e18]
    exact ref_layer _ _ _ _ _ _ _ _ _ _ _ _ _ _ _ _ _ _ _ (hr c).1 (hr c).2.1 (hr c).2.2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
